-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x3 : Shape := ⟨3, ![16, 1024, 3]⟩
abbrev S16x1024x1024 : Shape := ⟨3, ![16, 1024, 1024]⟩
abbrev S128x512 : Shape := ⟨2, ![128, 512]⟩
abbrev S1x512 : Shape := ⟨2, ![1, 512]⟩
abbrev S512x512 : Shape := ⟨2, ![512, 512]⟩
abbrev S512x256 : Shape := ⟨2, ![512, 256]⟩
abbrev S1x256 : Shape := ⟨2, ![1, 256]⟩
abbrev S256x256 : Shape := ⟨2, ![256, 256]⟩
abbrev S2x384x256 : Shape := ⟨3, ![2, 384, 256]⟩
abbrev S2x1x256 : Shape := ⟨3, ![2, 1, 256]⟩
abbrev S9x2x256x256 : Shape := ⟨4, ![9, 2, 256, 256]⟩
abbrev S9x2x1x256 : Shape := ⟨4, ![9, 2, 1, 256]⟩
abbrev S256x128 : Shape := ⟨2, ![256, 128]⟩
abbrev S1x128 : Shape := ⟨2, ![1, 128]⟩
abbrev S128x128 : Shape := ⟨2, ![128, 128]⟩
abbrev S_ : Shape := ⟨0, ![]⟩

class Facts : Prop where
  bcast_S_S16x1024x3 : S_.BroadcastsInDim S16x1024x3 (![] : Fin 0 → Fin S16x1024x3.rank)
  reducesTo_S16x1024x3_S_d0_1_2 : S16x1024x3.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S2x384x256 : S_.BroadcastsInDim S2x384x256 (![] : Fin 0 → Fin S2x384x256.rank)
  reducesTo_S2x384x256_S_d0_1_2 : S2x384x256.ReducesTo [0, 1, 2] S_
  bcast_S_S2x1x256 : S_.BroadcastsInDim S2x1x256 (![] : Fin 0 → Fin S2x1x256.rank)
  reducesTo_S2x1x256_S_d0_1_2 : S2x1x256.ReducesTo [0, 1, 2] S_
  bcast_S_S9x2x256x256 : S_.BroadcastsInDim S9x2x256x256 (![] : Fin 0 → Fin S9x2x256x256.rank)
  reducesTo_S9x2x256x256_S_d0_1_2_3 : S9x2x256x256.ReducesTo [0, 1, 2, 3] S_
  bcast_S_S9x2x1x256 : S_.BroadcastsInDim S9x2x1x256 (![] : Fin 0 → Fin S9x2x1x256.rank)
  reducesTo_S9x2x1x256_S_d0_1_2_3 : S9x2x1x256.ReducesTo [0, 1, 2, 3] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_

variable [Facts]

def fn_part6 {F : FTy → Type} [FloatOps F] (main_arg21 : FVec F S1x128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S1x128 .f32 := Host.absf main_arg21
  let main_cst_40 : FVec F S_ .f32 := constant S_ .f32 0x7F800000#32
  let main_v105 : FVec F S1x128 .f32 := broadcastInDim S1x128 ![] bcast_S_S1x128 main_cst_40
  let main_v106 : IVec S1x128 1 := cmpf .olt main_v104 main_v105
  let main_c_41 : IVec S_ 1 := constantI S_ 1 1#1
  let main_v107 : IVec S_ 1 := (fun x v => Host.reduce IntOp.andi x v reducesTo_S1x128_S_d0_1 h_S_) main_v106 main_c_41
  let main_v108 : IVec S_ 1 := andi main_v103 main_v107
  main_v108

def fn_part5 {F : FTy → Type} [FloatOps F] (main_arg18 : FVec F S128x128 .f32) (main_arg19 : FVec F S1x128 .f32) (main_arg20 : FVec F S128x128 .f32) (main_arg21 : FVec F S1x128 .f32) (main_v83 : IVec S_ 1) (main_v84 : FVec F S1x128 .f32) (main_cst_32 : FVec F S_ .f32) : IVec S_ 1 :=
  let main_v85 : FVec F S1x128 .f32 := broadcastInDim S1x128 ![] bcast_S_S1x128 main_cst_32
  let main_v86 : IVec S1x128 1 := cmpf .olt main_v84 main_v85
  let main_c_33 : IVec S_ 1 := constantI S_ 1 1#1
  let main_v87 : IVec S_ 1 := (fun x v => Host.reduce IntOp.andi x v reducesTo_S1x128_S_d0_1 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S1x128 .f32 := Host.absf main_arg19
  let main_cst_36 : FVec F S_ .f32 := constant S_ .f32 0x7F800000#32
  let main_v95 : FVec F S1x128 .f32 := broadcastInDim S1x128 ![] bcast_S_S1x128 main_cst_36
  let main_v96 : IVec S1x128 1 := cmpf .olt main_v94 main_v95
  let main_c_37 : IVec S_ 1 := constantI S_ 1 1#1
  let main_v97 : IVec S_ 1 := (fun x v => Host.reduce IntOp.andi x v reducesTo_S1x128_S_d0_1 h_S_) main_v96 main_c_37
  let main_v98 : IVec S_ 1 := andi main_v93 main_v97
  let main_v99 : FVec F S128x128 .f32 := Host.absf main_arg20
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S256x128 .f32) (main_arg15 : FVec F S1x128 .f32) (main_arg16 : FVec F S128x128 .f32) (main_arg17 : FVec F S1x128 .f32) (main_arg18 : FVec F S128x128 .f32) (main_arg19 : FVec F S1x128 .f32) (main_arg20 : FVec F S128x128 .f32) (main_arg21 : FVec F S1x128 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S1x128 .f32 := Host.absf main_arg15
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S1x128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S2x1x256 .f32) (main_arg12 : FVec F S9x2x256x256 .f32) (main_arg13 : FVec F S9x2x1x256 .f32) (main_arg14 : FVec F S256x128 .f32) (main_arg15 : FVec F S1x128 .f32) (main_arg16 : FVec F S128x128 .f32) (main_arg17 : FVec F S1x128 .f32) (main_arg18 : FVec F S128x128 .f32) (main_arg19 : FVec F S1x128 .f32) (main_arg20 : FVec F S128x128 .f32) (main_arg21 : FVec F S1x128 .f32) (main_v48 : IVec S_ 1) (main_v49 : FVec F S2x384x256 .f32) (main_v50 : FVec F S2x384x256 .f32) : IVec S_ 1 :=
  let main_v51 : IVec S2x384x256 1 := cmpf .olt main_v49 main_v50
  let main_c_19 : IVec S_ 1 := constantI S_ 1 1#1
  let main_v52 : IVec S_ 1 := (fun x v => Host.reduce IntOp.andi x v reducesTo_S2x384x256_S_d0_1_2 h_S_) main_v51 main_c_19
  let main_v53 : IVec S_ 1 := andi main_v48 main_v52
  let main_v54 : FVec F S2x1x256 .f32 := Host.absf main_arg11
  let main_cst_20 : FVec F S_ .f32 := constant S_ .f32 0x7F800000#32
  let main_v55 : FVec F S2x1x256 .f32 := broadcastInDim S2x1x256 ![] bcast_S_S2x1x256 main_cst_20
  let main_v56 : IVec S2x1x256 1 := cmpf .olt main_v54 main_v55
  let main_c_21 : IVec S_ 1 := constantI S_ 1 1#1
  let main_v57 : IVec S_ 1 := (fun x v => Host.reduce IntOp.andi x v reducesTo_S2x1x256_S_d0_1_2 h_S_) main_v56 main_c_21
  let main_v58 : IVec S_ 1 := andi main_v53 main_v57
  let main_v59 : FVec F S9x2x256x256 .f32 := Host.absf main_arg12
  let main_cst_22 : FVec F S_ .f32 := constant S_ .f32 0x7F800000#32
  let main_v60 : FVec F S9x2x256x256 .f32 := broadcastInDim S9x2x256x256 ![] bcast_S_S9x2x256x256 main_cst_22
  let main_v61 : IVec S9x2x256x256 1 := cmpf .olt main_v59 main_v60
  let main_c_23 : IVec S_ 1 := constantI S_ 1 1#1
  let main_v62 : IVec S_ 1 := (fun x v => Host.reduce IntOp.andi x v reducesTo_S9x2x256x256_S_d0_1_2_3 h_S_) main_v61 main_c_23
  let main_v63 : IVec S_ 1 := andi main_v58 main_v62
  let main_v64 : FVec F S9x2x1x256 .f32 := Host.absf main_arg13
  let main_cst_24 : FVec F S_ .f32 := constant S_ .f32 0x7F800000#32
  let main_v65 : FVec F S9x2x1x256 .f32 := broadcastInDim S9x2x1x256 ![] bcast_S_S9x2x1x256 main_cst_24
  let main_v66 : IVec S9x2x1x256 1 := cmpf .olt main_v64 main_v65
  let main_c_25 : IVec S_ 1 := constantI S_ 1 1#1
  let main_v67 : IVec S_ 1 := (fun x v => Host.reduce IntOp.andi x v reducesTo_S9x2x1x256_S_d0_1_2_3 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1x256 .f32) (main_arg8 : FVec F S256x256 .f32) (main_arg9 : FVec F S1x256 .f32) (main_arg10 : FVec F S2x384x256 .f32) (main_arg11 : FVec F S2x1x256 .f32) (main_arg12 : FVec F S9x2x256x256 .f32) (main_arg13 : FVec F S9x2x1x256 .f32) (main_arg14 : FVec F S256x128 .f32) (main_arg15 : FVec F S1x128 .f32) (main_arg16 : FVec F S128x128 .f32) (main_arg17 : FVec F S1x128 .f32) (main_arg18 : FVec F S128x128 .f32) (main_arg19 : FVec F S1x128 .f32) (main_arg20 : FVec F S128x128 .f32) (main_arg21 : FVec F S1x128 .f32) (main_v33 : IVec S_ 1) : IVec S_ 1 :=
  let main_v34 : FVec F S1x256 .f32 := Host.absf main_arg7
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S1x256 .f32 := Host.absf main_arg9
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S2x384x256 .f32 := Host.absf main_arg10
  let main_cst_18 : FVec F S_ .f32 := constant S_ .f32 0x7F800000#32
  let main_v50 : FVec F S2x384x256 .f32 := broadcastInDim S2x384x256 ![] bcast_S_S2x384x256 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S512x512 .f32) (main_arg5 : FVec F S1x512 .f32) (main_arg6 : FVec F S512x256 .f32) (main_arg7 : FVec F S1x256 .f32) (main_arg8 : FVec F S256x256 .f32) (main_arg9 : FVec F S1x256 .f32) (main_arg10 : FVec F S2x384x256 .f32) (main_arg11 : FVec F S2x1x256 .f32) (main_arg12 : FVec F S9x2x256x256 .f32) (main_arg13 : FVec F S9x2x1x256 .f32) (main_arg14 : FVec F S256x128 .f32) (main_arg15 : FVec F S1x128 .f32) (main_arg16 : FVec F S128x128 .f32) (main_arg17 : FVec F S1x128 .f32) (main_arg18 : FVec F S128x128 .f32) (main_arg19 : FVec F S1x128 .f32) (main_arg20 : FVec F S128x128 .f32) (main_arg21 : FVec F S1x128 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S16x1024x3 .f32) (main_arg1 : FVec F S16x1024x1024 .f32) (main_arg2 : FVec F S128x512 .f32) (main_arg3 : FVec F S1x512 .f32) (main_arg4 : FVec F S512x512 .f32) (main_arg5 : FVec F S1x512 .f32) (main_arg6 : FVec F S512x256 .f32) (main_arg7 : FVec F S1x256 .f32) (main_arg8 : FVec F S256x256 .f32) (main_arg9 : FVec F S1x256 .f32) (main_arg10 : FVec F S2x384x256 .f32) (main_arg11 : FVec F S2x1x256 .f32) (main_arg12 : FVec F S9x2x256x256 .f32) (main_arg13 : FVec F S9x2x1x256 .f32) (main_arg14 : FVec F S256x128 .f32) (main_arg15 : FVec F S1x128 .f32) (main_arg16 : FVec F S128x128 .f32) (main_arg17 : FVec F S1x128 .f32) (main_arg18 : FVec F S128x128 .f32) (main_arg19 : FVec F S1x128 .f32) (main_arg20 : FVec F S128x128 .f32) (main_arg21 : FVec F S1x128 .f32) : IVec S_ 1 :=
  let main_v0 : FVec F S16x1024x3 .f32 := Host.absf main_arg0
  let main_cst : FVec F S_ .f32 := constant S_ .f32 0x7F800000#32
  let main_v1 : FVec F S16x1024x3 .f32 := broadcastInDim S16x1024x3 ![] bcast_S_S16x1024x3 main_cst
  let main_v2 : IVec S16x1024x3 1 := cmpf .olt main_v0 main_v1
  let main_c : IVec S_ 1 := constantI S_ 1 1#1
  let main_v3 : IVec S_ 1 := (fun x v => Host.reduce IntOp.andi x v reducesTo_S16x1024x3_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16x1024x3 : Shape := ⟨3, ![16, 1024, 3]⟩
abbrev S16x1024x1024 : Shape := ⟨3, ![16, 1024, 1024]⟩
abbrev S128x512 : Shape := ⟨2, ![128, 512]⟩
abbrev S1x512 : Shape := ⟨2, ![1, 512]⟩
abbrev S512x512 : Shape := ⟨2, ![512, 512]⟩
abbrev S512x256 : Shape := ⟨2, ![512, 256]⟩
abbrev S1x256 : Shape := ⟨2, ![1, 256]⟩
abbrev S256x256 : Shape := ⟨2, ![256, 256]⟩
abbrev S2x384x256 : Shape := ⟨3, ![2, 384, 256]⟩
abbrev S2x1x256 : Shape := ⟨3, ![2, 1, 256]⟩
abbrev S9x2x256x256 : Shape := ⟨4, ![9, 2, 256, 256]⟩
abbrev S9x2x1x256 : Shape := ⟨4, ![9, 2, 1, 256]⟩
abbrev S256x128 : Shape := ⟨2, ![256, 128]⟩
abbrev S1x128 : Shape := ⟨2, ![1, 128]⟩
abbrev S128x128 : Shape := ⟨2, ![128, 128]⟩
abbrev S_ : Shape := ⟨0, ![]⟩
abbrev S16x1024x128 : Shape := ⟨3, ![16, 1024, 128]⟩
abbrev S1x256x256 : Shape := ⟨3, ![1, 256, 256]⟩
abbrev S256x512 : Shape := ⟨2, ![256, 512]⟩
abbrev S1x128x256 : Shape := ⟨3, ![1, 128, 256]⟩
abbrev S128x256 : Shape := ⟨2, ![128, 256]⟩
abbrev S1x1x256 : Shape := ⟨3, ![1, 1, 256]⟩
abbrev S9x1x256x256 : Shape := ⟨4, ![9, 1, 256, 256]⟩
abbrev S9x256x256 : Shape := ⟨3, ![9, 256, 256]⟩
abbrev S9x256x512 : Shape := ⟨3, ![9, 256, 512]⟩
abbrev S9x1x1x256 : Shape := ⟨4, ![9, 1, 1, 256]⟩
abbrev S9x1x256 : Shape := ⟨3, ![9, 1, 256]⟩
abbrev S9x1x512 : Shape := ⟨3, ![9, 1, 512]⟩
abbrev S1x1024x128 : Shape := ⟨3, ![1, 1024, 128]⟩
abbrev S1x1024x1024 : Shape := ⟨3, ![1, 1024, 1024]⟩
abbrev S1024x128 : Shape := ⟨2, ![1024, 128]⟩
abbrev S1024x1024 : Shape := ⟨2, ![1024, 1024]⟩
abbrev S1024x512 : Shape := ⟨2, ![1024, 512]⟩
abbrev S1024x256 : Shape := ⟨2, ![1024, 256]⟩
abbrev S1x256x512 : Shape := ⟨3, ![1, 256, 512]⟩
abbrev S1x1x512 : Shape := ⟨3, ![1, 1, 512]⟩
abbrev S16384x3 : Shape := ⟨2, ![16384, 3]⟩

abbrev nBuf : Space → Nat
  | .hbm => 65
  | .vmem => 27
  | .smem => 0
  | _ => 0

abbrev bufTy : (tb : Table) → Fin (tcTables nBuf tb) → BufTy
  | .hbm, ⟨0, _⟩ => ⟨S16x1024x3, .f32⟩
  | .hbm, ⟨1, _⟩ => ⟨S16x1024x1024, .f32⟩
  | .hbm, ⟨2, _⟩ => ⟨S128x512, .f32⟩
  | .hbm, ⟨3, _⟩ => ⟨S1x512, .f32⟩
  | .hbm, ⟨4, _⟩ => ⟨S512x512, .f32⟩
  | .hbm, ⟨5, _⟩ => ⟨S1x512, .f32⟩
  | .hbm, ⟨6, _⟩ => ⟨S512x256, .f32⟩
  | .hbm, ⟨7, _⟩ => ⟨S1x256, .f32⟩
  | .hbm, ⟨8, _⟩ => ⟨S256x256, .f32⟩
  | .hbm, ⟨9, _⟩ => ⟨S1x256, .f32⟩
  | .hbm, ⟨10, _⟩ => ⟨S2x384x256, .f32⟩
  | .hbm, ⟨11, _⟩ => ⟨S2x1x256, .f32⟩
  | .hbm, ⟨12, _⟩ => ⟨S9x2x256x256, .f32⟩
  | .hbm, ⟨13, _⟩ => ⟨S9x2x1x256, .f32⟩
  | .hbm, ⟨14, _⟩ => ⟨S256x128, .f32⟩
  | .hbm, ⟨15, _⟩ => ⟨S1x128, .f32⟩
  | .hbm, ⟨16, _⟩ => ⟨S128x128, .f32⟩
  | .hbm, ⟨17, _⟩ => ⟨S1x128, .f32⟩
  | .hbm, ⟨18, _⟩ => ⟨S128x128, .f32⟩
  | .hbm, ⟨19, _⟩ => ⟨S1x128, .f32⟩
  | .hbm, ⟨20, _⟩ => ⟨S128x128, .f32⟩
  | .hbm, ⟨21, _⟩ => ⟨S1x128, .f32⟩
  | .hbm, ⟨22, _⟩ => ⟨S_, .i32⟩
  | .hbm, ⟨23, _⟩ => ⟨S_, .f32⟩
  | .hbm, ⟨24, _⟩ => ⟨S16x1024x128, .f32⟩
  | .hbm, ⟨25, _⟩ => ⟨S16x1024x128, .bf16⟩
  | .hbm, ⟨26, _⟩ => ⟨S1x256x256, .f32⟩
  | .hbm, ⟨27, _⟩ => ⟨S256x256, .f32⟩
  | .hbm, ⟨28, _⟩ => ⟨S1x256x256, .f32⟩
  | .hbm, ⟨29, _⟩ => ⟨S256x256, .f32⟩
  | .hbm, ⟨30, _⟩ => ⟨S256x512, .f32⟩
  | .hbm, ⟨31, _⟩ => ⟨S256x512, .bf16⟩
  | .hbm, ⟨32, _⟩ => ⟨S1x128x256, .f32⟩
  | .hbm, ⟨33, _⟩ => ⟨S128x256, .f32⟩
  | .hbm, ⟨34, _⟩ => ⟨S1x128x256, .f32⟩
  | .hbm, ⟨35, _⟩ => ⟨S128x256, .f32⟩
  | .hbm, ⟨36, _⟩ => ⟨S128x512, .f32⟩
  | .hbm, ⟨37, _⟩ => ⟨S128x512, .bf16⟩
  | .hbm, ⟨38, _⟩ => ⟨S1x1x256, .f32⟩
  | .hbm, ⟨39, _⟩ => ⟨S1x256, .f32⟩
  | .hbm, ⟨40, _⟩ => ⟨S1x1x256, .f32⟩
  | .hbm, ⟨41, _⟩ => ⟨S1x256, .f32⟩
  | .hbm, ⟨42, _⟩ => ⟨S1x512, .f32⟩
  | .hbm, ⟨43, _⟩ => ⟨S9x1x256x256, .f32⟩
  | .hbm, ⟨44, _⟩ => ⟨S9x256x256, .f32⟩
  | .hbm, ⟨45, _⟩ => ⟨S9x1x256x256, .f32⟩
  | .hbm, ⟨46, _⟩ => ⟨S9x256x256, .f32⟩
  | .hbm, ⟨47, _⟩ => ⟨S9x256x512, .f32⟩
  | .hbm, ⟨48, _⟩ => ⟨S9x256x512, .bf16⟩
  | .hbm, ⟨49, _⟩ => ⟨S9x1x1x256, .f32⟩
  | .hbm, ⟨50, _⟩ => ⟨S9x1x256, .f32⟩
  | .hbm, ⟨51, _⟩ => ⟨S9x1x1x256, .f32⟩
  | .hbm, ⟨52, _⟩ => ⟨S9x1x256, .f32⟩
  | .hbm, ⟨53, _⟩ => ⟨S9x1x512, .f32⟩
  | .hbm, ⟨54, _⟩ => ⟨S128x512, .bf16⟩
  | .hbm, ⟨55, _⟩ => ⟨S512x512, .bf16⟩
  | .hbm, ⟨56, _⟩ => ⟨S512x256, .bf16⟩
  | .hbm, ⟨57, _⟩ => ⟨S256x256, .bf16⟩
  | .hbm, ⟨58, _⟩ => ⟨S256x128, .bf16⟩
  | .hbm, ⟨59, _⟩ => ⟨S128x128, .bf16⟩
  | .hbm, ⟨60, _⟩ => ⟨S128x128, .bf16⟩
  | .hbm, ⟨61, _⟩ => ⟨S128x128, .bf16⟩
  | .hbm, ⟨62, _⟩ => ⟨S16x1024x128, .f32⟩
  | .hbm, ⟨63, _⟩ => ⟨S16x1024x3, .f32⟩
  | .hbm, ⟨64, _⟩ => ⟨S16384x3, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1024x1024, .f32⟩
  | .local _ .vmem, ⟨3, _⟩ => ⟨S1x1024x1024, .f32⟩
  | .local _ .vmem, ⟨4, _⟩ => ⟨S128x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x512, .bf16⟩
  | .local _ .vmem, ⟨13, _⟩ => ⟨S128x512, .bf16⟩
  | .local _ .vmem, ⟨14, _⟩ => ⟨S1x512, .f32⟩
  | .local _ .vmem, ⟨15, _⟩ => ⟨S9x256x512, .bf16⟩
  | .local _ .vmem, ⟨16, _⟩ => ⟨S9x1x512, .f32⟩
  | .local _ .vmem, ⟨17, _⟩ => ⟨S256x128, .bf16⟩
  | .local _ .vmem, ⟨18, _⟩ => ⟨S1x128, .f32⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S1x128, .f32⟩
  | .local _ .vmem, ⟨23, _⟩ => ⟨S128x128, .bf16⟩
  | .local _ .vmem, ⟨24, _⟩ => ⟨S1x128, .f32⟩
  | .local _ .vmem, ⟨25, _⟩ => ⟨S1x1024x128, .f32⟩
  | .local _ .vmem, ⟨26, _⟩ => ⟨S1x1024x128, .f32⟩
  | _, _ => ⟨S16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_call0_v0 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg23_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem23_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S9x256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S9x1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x1024x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  pads_S16x1024x3_S16x1024x128_000_000_01250 : S16x1024x3.Pads (![0, 0, 0] : Fin 3 → Nat) ![0, 0, 125] ![0, 0, 0] S16x1024x128
  h_S_ : 0 < S_.numel
  bitsLt_bf16_f32 : FTy.bits .bf16 < FTy.bits .f32
  slices_S2x384x256_S1x256x256_0_0_0 : S2x384x256.Slices ![0, 0, 0] S1x256x256
  shapeCasts_S1x256x256_S256x256 : S1x256x256.ShapeCasts S256x256
  slices_S2x384x256_S1x256x256_1_0_0 : S2x384x256.Slices ![1, 0, 0] S1x256x256
  concatenates_S256x256_S256x256_S256x512_d1 : Shape.Concatenates [S256x256, S256x256] S256x512 1
  slices_S2x384x256_S1x128x256_0_256_0 : S2x384x256.Slices ![0, 256, 0] S1x128x256
  shapeCasts_S1x128x256_S128x256 : S1x128x256.ShapeCasts S128x256
  slices_S2x384x256_S1x128x256_1_256_0 : S2x384x256.Slices ![1, 256, 0] S1x128x256
  concatenates_S128x256_S128x256_S128x512_d1 : Shape.Concatenates [S128x256, S128x256] S128x512 1
  slices_S2x1x256_S1x1x256_0_0_0 : S2x1x256.Slices ![0, 0, 0] S1x1x256
  shapeCasts_S1x1x256_S1x256 : S1x1x256.ShapeCasts S1x256
  slices_S2x1x256_S1x1x256_1_0_0 : S2x1x256.Slices ![1, 0, 0] S1x1x256
  concatenates_S1x256_S1x256_S1x512_d1 : Shape.Concatenates [S1x256, S1x256] S1x512 1
  slices_S9x2x256x256_S9x1x256x256_0_0_0_0 : S9x2x256x256.Slices ![0, 0, 0, 0] S9x1x256x256
  shapeCasts_S9x1x256x256_S9x256x256 : S9x1x256x256.ShapeCasts S9x256x256
  slices_S9x2x256x256_S9x1x256x256_0_1_0_0 : S9x2x256x256.Slices ![0, 1, 0, 0] S9x1x256x256
  concatenates_S9x256x256_S9x256x256_S9x256x512_d2 : Shape.Concatenates [S9x256x256, S9x256x256] S9x256x512 2
  slices_S9x2x1x256_S9x1x1x256_0_0_0_0 : S9x2x1x256.Slices ![0, 0, 0, 0] S9x1x1x256
  shapeCasts_S9x1x1x256_S9x1x256 : S9x1x1x256.ShapeCasts S9x1x256
  slices_S9x2x1x256_S9x1x1x256_0_1_0_0 : S9x2x1x256.Slices ![0, 1, 0, 0] S9x1x1x256
  concatenates_S9x1x256_S9x1x256_S9x1x512_d2 : Shape.Concatenates [S9x1x256, S9x1x256] S9x1x512 2
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1x512_S1x512 : S1x512.ShapeCasts S1x512
  slices_S1024x512_o0_256_S1024x256 : S1024x512.Slices ![0, 256] S1024x256
  slices_S1024x512_o0_0_S1024x256 : S1024x512.Slices ![0, 0] S1024x256
  inb_S9x256x512_S1x256x512_0_0_0 : ∀ a, (![0, 0, 0] : Fin 3 → Nat) a + S1x256x512.size a ≤ S9x256x512.size a
  h_S1x256x512 : 0 < S1x256x512.numel
  shapeCasts_S1x256x512_S256x512 : S1x256x512.ShapeCasts S256x512
  inb_S9x1x512_S1x1x512_0_0_0 : ∀ a, (![0, 0, 0] : Fin 3 → Nat) a + S1x1x512.size a ≤ S9x1x512.size a
  h_S1x1x512 : 0 < S1x1x512.numel
  shapeCasts_S1x1x512_S1x512 : S1x1x512.ShapeCasts S1x512
  inb_S9x256x512_S1x256x512_1_0_0 : ∀ a, (![1, 0, 0] : Fin 3 → Nat) a + S1x256x512.size a ≤ S9x256x512.size a
  inb_S9x1x512_S1x1x512_1_0_0 : ∀ a, (![1, 0, 0] : Fin 3 → Nat) a + S1x1x512.size a ≤ S9x1x512.size a
  inb_S9x256x512_S1x256x512_2_0_0 : ∀ a, (![2, 0, 0] : Fin 3 → Nat) a + S1x256x512.size a ≤ S9x256x512.size a
  inb_S9x1x512_S1x1x512_2_0_0 : ∀ a, (![2, 0, 0] : Fin 3 → Nat) a + S1x1x512.size a ≤ S9x1x512.size a
  inb_S9x256x512_S1x256x512_3_0_0 : ∀ a, (![3, 0, 0] : Fin 3 → Nat) a + S1x256x512.size a ≤ S9x256x512.size a
  inb_S9x1x512_S1x1x512_3_0_0 : ∀ a, (![3, 0, 0] : Fin 3 → Nat) a + S1x1x512.size a ≤ S9x1x512.size a
  inb_S9x256x512_S1x256x512_4_0_0 : ∀ a, (![4, 0, 0] : Fin 3 → Nat) a + S1x256x512.size a ≤ S9x256x512.size a
  inb_S9x1x512_S1x1x512_4_0_0 : ∀ a, (![4, 0, 0] : Fin 3 → Nat) a + S1x1x512.size a ≤ S9x1x512.size a
  inb_S9x256x512_S1x256x512_5_0_0 : ∀ a, (![5, 0, 0] : Fin 3 → Nat) a + S1x256x512.size a ≤ S9x256x512.size a
  inb_S9x1x512_S1x1x512_5_0_0 : ∀ a, (![5, 0, 0] : Fin 3 → Nat) a + S1x1x512.size a ≤ S9x1x512.size a
  inb_S9x256x512_S1x256x512_6_0_0 : ∀ a, (![6, 0, 0] : Fin 3 → Nat) a + S1x256x512.size a ≤ S9x256x512.size a
  inb_S9x1x512_S1x1x512_6_0_0 : ∀ a, (![6, 0, 0] : Fin 3 → Nat) a + S1x1x512.size a ≤ S9x1x512.size a
  inb_S9x256x512_S1x256x512_7_0_0 : ∀ a, (![7, 0, 0] : Fin 3 → Nat) a + S1x256x512.size a ≤ S9x256x512.size a
  inb_S9x1x512_S1x1x512_7_0_0 : ∀ a, (![7, 0, 0] : Fin 3 → Nat) a + S1x1x512.size a ≤ S9x1x512.size a
  inb_S9x256x512_S1x256x512_8_0_0 : ∀ a, (![8, 0, 0] : Fin 3 → Nat) a + S1x256x512.size a ≤ S9x256x512.size a
  inb_S9x1x512_S1x1x512_8_0_0 : ∀ a, (![8, 0, 0] : Fin 3 → Nat) a + S1x1x512.size a ≤ S9x1x512.size a
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1024x128_S1x1024x128 : S1024x128.ShapeCasts S1x1024x128
  slices_S16x1024x128_S16x1024x3_0_0_0 : S16x1024x128.Slices ![0, 0, 0] S16x1024x3
  shapeCasts_S16x1024x3_S16384x3 : S16x1024x3.ShapeCasts S16384x3
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x256_S256x512_S1024x512_1_0_0_1_n_n_wf : DotDims.WF S1024x256 S256x512 S1024x512 [1] [0] [0] [1] [] []
  dot_S1024x1024_S1024x256_S1024x256_1_0_0_1_n_n_wf : DotDims.WF S1024x1024 S1024x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x1024x128.size a
  hwx0_0 : ∀ i : grid0.Coords, EltTy.bits .bf16 = 32 ∨ (Rect.block (s := S16x1024x128) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .bf16 = 32 ∨ (Rect.block (s := S512x256) S512x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S256x512.size a
  hwx0_10 : ∀ i : grid0.Coords, EltTy.bits .bf16 = 32 ∨ (Rect.block (s := S256x512) S256x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S128x512.size a
  hwx0_11 : ∀ i : grid0.Coords, EltTy.bits .bf16 = 32 ∨ (Rect.block (s := S128x512) S128x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S9x256x512.size a ≤ S9x256x512.size a
  hwx0_13 : ∀ i : grid0.Coords, EltTy.bits .bf16 = 32 ∨ (Rect.block (s := S9x256x512) S9x256x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S9x1x512.size a ≤ S9x1x512.size a
  hwx0_14 : ∀ i : grid0.Coords, EltTy.bits .f32 = 32 ∨ (Rect.block (s := S9x1x512) S9x1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .bf16 = 32 ∨ (Rect.block (s := S256x128) S256x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .bf16 = 32 ∨ (Rect.block (s := S128x128) S128x128.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .bf16 = 32 ∨ (Rect.block (s := S128x128) S128x128.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .bf16 = 32 ∨ (Rect.block (s := S128x128) S128x128.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x1024x128.size a ≤ S16x1024x128.size a
  hwx0_23 : ∀ i : grid0.Coords, EltTy.bits .f32 = 32 ∨ (Rect.block (s := S16x1024x128) S1x1024x128.size (cc0_transform_23 i) (hinb0_23 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v1) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S128x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S9x256x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v29) S9x1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v36) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v37) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg21) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v38) S1x1024x128.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S16x1024x3 : Shape := ⟨3, ![16, 1024, 3]⟩
abbrev S16x1024x1024 : Shape := ⟨3, ![16, 1024, 1024]⟩
abbrev S128x512 : Shape := ⟨2, ![128, 512]⟩
abbrev S1x512 : Shape := ⟨2, ![1, 512]⟩
abbrev S512x512 : Shape := ⟨2, ![512, 512]⟩
abbrev S512x256 : Shape := ⟨2, ![512, 256]⟩
abbrev S1x256 : Shape := ⟨2, ![1, 256]⟩
abbrev S256x256 : Shape := ⟨2, ![256, 256]⟩
abbrev S2x384x256 : Shape := ⟨3, ![2, 384, 256]⟩
abbrev S2x1x256 : Shape := ⟨3, ![2, 1, 256]⟩
abbrev S9x2x256x256 : Shape := ⟨4, ![9, 2, 256, 256]⟩
abbrev S9x2x1x256 : Shape := ⟨4, ![9, 2, 1, 256]⟩
abbrev S256x128 : Shape := ⟨2, ![256, 128]⟩
abbrev S1x128 : Shape := ⟨2, ![1, 128]⟩
abbrev S128x128 : Shape := ⟨2, ![128, 128]⟩
abbrev S_ : Shape := ⟨0, ![]⟩
abbrev S16x1024x128 : Shape := ⟨3, ![16, 1024, 128]⟩
abbrev S1x1024x128 : Shape := ⟨3, ![1, 1024, 128]⟩
abbrev S1x1024x1024 : Shape := ⟨3, ![1, 1024, 1024]⟩
abbrev S1024x128 : Shape := ⟨2, ![1024, 128]⟩
abbrev S1024x1024 : Shape := ⟨2, ![1024, 1024]⟩
abbrev S1024x512 : Shape := ⟨2, ![1024, 512]⟩
abbrev S1024x256 : Shape := ⟨2, ![1024, 256]⟩
abbrev S1x384x256 : Shape := ⟨3, ![1, 384, 256]⟩
abbrev S384x256 : Shape := ⟨2, ![384, 256]⟩
abbrev S1x1x256 : Shape := ⟨3, ![1, 1, 256]⟩
abbrev S128x256 : Shape := ⟨2, ![128, 256]⟩
abbrev S1x1x256x256 : Shape := ⟨4, ![1, 1, 256, 256]⟩
abbrev S1x1x1x256 : Shape := ⟨4, ![1, 1, 1, 256]⟩
abbrev S16384x3 : Shape := ⟨2, ![16384, 3]⟩

abbrev nBuf : Space → Nat
  | .hbm => 28
  | .vmem => 26
  | .smem => 0
  | _ => 0

abbrev bufTy : (tb : Table) → Fin (tcTables nBuf tb) → BufTy
  | .hbm, ⟨0, _⟩ => ⟨S16x1024x3, .f32⟩
  | .hbm, ⟨1, _⟩ => ⟨S16x1024x1024, .f32⟩
  | .hbm, ⟨2, _⟩ => ⟨S128x512, .f32⟩
  | .hbm, ⟨3, _⟩ => ⟨S1x512, .f32⟩
  | .hbm, ⟨4, _⟩ => ⟨S512x512, .f32⟩
  | .hbm, ⟨5, _⟩ => ⟨S1x512, .f32⟩
  | .hbm, ⟨6, _⟩ => ⟨S512x256, .f32⟩
  | .hbm, ⟨7, _⟩ => ⟨S1x256, .f32⟩
  | .hbm, ⟨8, _⟩ => ⟨S256x256, .f32⟩
  | .hbm, ⟨9, _⟩ => ⟨S1x256, .f32⟩
  | .hbm, ⟨10, _⟩ => ⟨S2x384x256, .f32⟩
  | .hbm, ⟨11, _⟩ => ⟨S2x1x256, .f32⟩
  | .hbm, ⟨12, _⟩ => ⟨S9x2x256x256, .f32⟩
  | .hbm, ⟨13, _⟩ => ⟨S9x2x1x256, .f32⟩
  | .hbm, ⟨14, _⟩ => ⟨S256x128, .f32⟩
  | .hbm, ⟨15, _⟩ => ⟨S1x128, .f32⟩
  | .hbm, ⟨16, _⟩ => ⟨S128x128, .f32⟩
  | .hbm, ⟨17, _⟩ => ⟨S1x128, .f32⟩
  | .hbm, ⟨18, _⟩ => ⟨S128x128, .f32⟩
  | .hbm, ⟨19, _⟩ => ⟨S1x128, .f32⟩
  | .hbm, ⟨20, _⟩ => ⟨S128x128, .f32⟩
  | .hbm, ⟨21, _⟩ => ⟨S1x128, .f32⟩
  | .hbm, ⟨22, _⟩ => ⟨S_, .i32⟩
  | .hbm, ⟨23, _⟩ => ⟨S_, .f32⟩
  | .hbm, ⟨24, _⟩ => ⟨S16x1024x128, .f32⟩
  | .hbm, ⟨25, _⟩ => ⟨S16x1024x128, .f32⟩
  | .hbm, ⟨26, _⟩ => ⟨S16x1024x3, .f32⟩
  | .hbm, ⟨27, _⟩ => ⟨S16384x3, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S128x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S2x384x256, .f32⟩
  | .local _ .vmem, ⟨13, _⟩ => ⟨S2x1x256, .f32⟩
  | .local _ .vmem, ⟨14, _⟩ => ⟨S9x2x256x256, .f32⟩
  | .local _ .vmem, ⟨15, _⟩ => ⟨S9x2x1x256, .f32⟩
  | .local _ .vmem, ⟨16, _⟩ => ⟨S256x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1x1024x128, .f32⟩
  | .local _ .vmem, ⟨25, _⟩ => ⟨S1x1024x128, .f32⟩
  | _, _ => ⟨S16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_call0_v0 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x384x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S9x2x256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S9x2x1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x1024x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  pads_S16x1024x3_S16x1024x128_000_000_01250 : S16x1024x3.Pads (![0, 0, 0] : Fin 3 → Nat) ![0, 0, 125] ![0, 0, 0] S16x1024x128
  h_S_ : 0 < S_.numel
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S2x384x256_S1x384x256_0_0_0 : ∀ a, (![0, 0, 0] : Fin 3 → Nat) a + S1x384x256.size a ≤ S2x384x256.size a
  h_S1x384x256 : 0 < S1x384x256.numel
  shapeCasts_S1x384x256_S384x256 : S1x384x256.ShapeCasts S384x256
  inb_S2x384x256_S1x384x256_1_0_0 : ∀ a, (![1, 0, 0] : Fin 3 → Nat) a + S1x384x256.size a ≤ S2x384x256.size a
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  inb_S2x1x256_S1x1x256_1_0_0 : ∀ a, (![1, 0, 0] : Fin 3 → Nat) a + S1x1x256.size a ≤ S2x1x256.size a
  slices_S384x256_o0_0_S256x256 : S384x256.Slices ![0, 0] S256x256
  slices_S384x256_o256_0_S128x256 : S384x256.Slices ![256, 0] S128x256
  inb_S9x2x256x256_S1x1x256x256_0_0_0_0 : ∀ a, (![0, 0, 0, 0] : Fin 4 → Nat) a + S1x1x256x256.size a ≤ S9x2x256x256.size a
  h_S1x1x256x256 : 0 < S1x1x256x256.numel
  shapeCasts_S1x1x256x256_S256x256 : S1x1x256x256.ShapeCasts S256x256
  inb_S9x2x256x256_S1x1x256x256_0_1_0_0 : ∀ a, (![0, 1, 0, 0] : Fin 4 → Nat) a + S1x1x256x256.size a ≤ S9x2x256x256.size a
  inb_S9x2x1x256_S1x1x1x256_0_0_0_0 : ∀ a, (![0, 0, 0, 0] : Fin 4 → Nat) a + S1x1x1x256.size a ≤ S9x2x1x256.size a
  h_S1x1x1x256 : 0 < S1x1x1x256.numel
  shapeCasts_S1x1x1x256_S1x256 : S1x1x1x256.ShapeCasts S1x256
  inb_S9x2x1x256_S1x1x1x256_0_1_0_0 : ∀ a, (![0, 1, 0, 0] : Fin 4 → Nat) a + S1x1x1x256.size a ≤ S9x2x1x256.size a
  inb_S9x2x256x256_S1x1x256x256_1_0_0_0 : ∀ a, (![1, 0, 0, 0] : Fin 4 → Nat) a + S1x1x256x256.size a ≤ S9x2x256x256.size a
  inb_S9x2x256x256_S1x1x256x256_1_1_0_0 : ∀ a, (![1, 1, 0, 0] : Fin 4 → Nat) a + S1x1x256x256.size a ≤ S9x2x256x256.size a
  inb_S9x2x1x256_S1x1x1x256_1_0_0_0 : ∀ a, (![1, 0, 0, 0] : Fin 4 → Nat) a + S1x1x1x256.size a ≤ S9x2x1x256.size a
  inb_S9x2x1x256_S1x1x1x256_1_1_0_0 : ∀ a, (![1, 1, 0, 0] : Fin 4 → Nat) a + S1x1x1x256.size a ≤ S9x2x1x256.size a
  inb_S9x2x256x256_S1x1x256x256_2_0_0_0 : ∀ a, (![2, 0, 0, 0] : Fin 4 → Nat) a + S1x1x256x256.size a ≤ S9x2x256x256.size a
  inb_S9x2x256x256_S1x1x256x256_2_1_0_0 : ∀ a, (![2, 1, 0, 0] : Fin 4 → Nat) a + S1x1x256x256.size a ≤ S9x2x256x256.size a
  inb_S9x2x1x256_S1x1x1x256_2_0_0_0 : ∀ a, (![2, 0, 0, 0] : Fin 4 → Nat) a + S1x1x1x256.size a ≤ S9x2x1x256.size a
  inb_S9x2x1x256_S1x1x1x256_2_1_0_0 : ∀ a, (![2, 1, 0, 0] : Fin 4 → Nat) a + S1x1x1x256.size a ≤ S9x2x1x256.size a
  inb_S9x2x256x256_S1x1x256x256_3_0_0_0 : ∀ a, (![3, 0, 0, 0] : Fin 4 → Nat) a + S1x1x256x256.size a ≤ S9x2x256x256.size a
  inb_S9x2x256x256_S1x1x256x256_3_1_0_0 : ∀ a, (![3, 1, 0, 0] : Fin 4 → Nat) a + S1x1x256x256.size a ≤ S9x2x256x256.size a
  inb_S9x2x1x256_S1x1x1x256_3_0_0_0 : ∀ a, (![3, 0, 0, 0] : Fin 4 → Nat) a + S1x1x1x256.size a ≤ S9x2x1x256.size a
  inb_S9x2x1x256_S1x1x1x256_3_1_0_0 : ∀ a, (![3, 1, 0, 0] : Fin 4 → Nat) a + S1x1x1x256.size a ≤ S9x2x1x256.size a
  inb_S9x2x256x256_S1x1x256x256_4_0_0_0 : ∀ a, (![4, 0, 0, 0] : Fin 4 → Nat) a + S1x1x256x256.size a ≤ S9x2x256x256.size a
  inb_S9x2x256x256_S1x1x256x256_4_1_0_0 : ∀ a, (![4, 1, 0, 0] : Fin 4 → Nat) a + S1x1x256x256.size a ≤ S9x2x256x256.size a
  inb_S9x2x1x256_S1x1x1x256_4_0_0_0 : ∀ a, (![4, 0, 0, 0] : Fin 4 → Nat) a + S1x1x1x256.size a ≤ S9x2x1x256.size a
  inb_S9x2x1x256_S1x1x1x256_4_1_0_0 : ∀ a, (![4, 1, 0, 0] : Fin 4 → Nat) a + S1x1x1x256.size a ≤ S9x2x1x256.size a
  inb_S9x2x256x256_S1x1x256x256_5_0_0_0 : ∀ a, (![5, 0, 0, 0] : Fin 4 → Nat) a + S1x1x256x256.size a ≤ S9x2x256x256.size a
  inb_S9x2x256x256_S1x1x256x256_5_1_0_0 : ∀ a, (![5, 1, 0, 0] : Fin 4 → Nat) a + S1x1x256x256.size a ≤ S9x2x256x256.size a
  inb_S9x2x1x256_S1x1x1x256_5_0_0_0 : ∀ a, (![5, 0, 0, 0] : Fin 4 → Nat) a + S1x1x1x256.size a ≤ S9x2x1x256.size a
  inb_S9x2x1x256_S1x1x1x256_5_1_0_0 : ∀ a, (![5, 1, 0, 0] : Fin 4 → Nat) a + S1x1x1x256.size a ≤ S9x2x1x256.size a
  inb_S9x2x256x256_S1x1x256x256_6_0_0_0 : ∀ a, (![6, 0, 0, 0] : Fin 4 → Nat) a + S1x1x256x256.size a ≤ S9x2x256x256.size a
  inb_S9x2x256x256_S1x1x256x256_6_1_0_0 : ∀ a, (![6, 1, 0, 0] : Fin 4 → Nat) a + S1x1x256x256.size a ≤ S9x2x256x256.size a
  inb_S9x2x1x256_S1x1x1x256_6_0_0_0 : ∀ a, (![6, 0, 0, 0] : Fin 4 → Nat) a + S1x1x1x256.size a ≤ S9x2x1x256.size a
  inb_S9x2x1x256_S1x1x1x256_6_1_0_0 : ∀ a, (![6, 1, 0, 0] : Fin 4 → Nat) a + S1x1x1x256.size a ≤ S9x2x1x256.size a
  inb_S9x2x256x256_S1x1x256x256_7_0_0_0 : ∀ a, (![7, 0, 0, 0] : Fin 4 → Nat) a + S1x1x256x256.size a ≤ S9x2x256x256.size a
  inb_S9x2x256x256_S1x1x256x256_7_1_0_0 : ∀ a, (![7, 1, 0, 0] : Fin 4 → Nat) a + S1x1x256x256.size a ≤ S9x2x256x256.size a
  inb_S9x2x1x256_S1x1x1x256_7_0_0_0 : ∀ a, (![7, 0, 0, 0] : Fin 4 → Nat) a + S1x1x1x256.size a ≤ S9x2x1x256.size a
  inb_S9x2x1x256_S1x1x1x256_7_1_0_0 : ∀ a, (![7, 1, 0, 0] : Fin 4 → Nat) a + S1x1x1x256.size a ≤ S9x2x1x256.size a
  inb_S9x2x256x256_S1x1x256x256_8_0_0_0 : ∀ a, (![8, 0, 0, 0] : Fin 4 → Nat) a + S1x1x256x256.size a ≤ S9x2x256x256.size a
  inb_S9x2x256x256_S1x1x256x256_8_1_0_0 : ∀ a, (![8, 1, 0, 0] : Fin 4 → Nat) a + S1x1x256x256.size a ≤ S9x2x256x256.size a
  inb_S9x2x1x256_S1x1x1x256_8_0_0_0 : ∀ a, (![8, 0, 0, 0] : Fin 4 → Nat) a + S1x1x1x256.size a ≤ S9x2x1x256.size a
  inb_S9x2x1x256_S1x1x1x256_8_1_0_0 : ∀ a, (![8, 1, 0, 0] : Fin 4 → Nat) a + S1x1x1x256.size a ≤ S9x2x1x256.size a
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S1024x128_S1x1024x128 : S1024x128.ShapeCasts S1x1024x128
  slices_S16x1024x128_S16x1024x3_0_0_0 : S16x1024x128.Slices ![0, 0, 0] S16x1024x3
  shapeCasts_S16x1024x3_S16384x3 : S16x1024x3.ShapeCasts S16384x3
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x128_S128x256_S1024x256_1_0_0_1_n_n_wf : DotDims.WF S1024x128 S128x256 S1024x256 [1] [0] [0] [1] [] []
  dot_S1024x1024_S1024x256_S1024x256_1_0_0_1_n_n_wf : DotDims.WF S1024x1024 S1024x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x1024x128.size a
  hwx0_0 : ∀ i : grid0.Coords, EltTy.bits .f32 = 32 ∨ (Rect.block (s := S16x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x384x256.size a ≤ S2x384x256.size a
  hwx0_10 : ∀ i : grid0.Coords, EltTy.bits .f32 = 32 ∨ (Rect.block (s := S2x384x256) S2x384x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x1x256.size a ≤ S2x1x256.size a
  hwx0_11 : ∀ i : grid0.Coords, EltTy.bits .f32 = 32 ∨ (Rect.block (s := S2x1x256) S2x1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S9x2x256x256.size a ≤ S9x2x256x256.size a
  hwx0_12 : ∀ i : grid0.Coords, EltTy.bits .f32 = 32 ∨ (Rect.block (s := S9x2x256x256) S9x2x256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S9x2x1x256.size a ≤ S9x2x1x256.size a
  hwx0_13 : ∀ i : grid0.Coords, EltTy.bits .f32 = 32 ∨ (Rect.block (s := S9x2x1x256) S9x2x1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x128.size a ≤ S256x128.size a
  hwx0_14 : ∀ i : grid0.Coords, EltTy.bits .f32 = 32 ∨ (Rect.block (s := S256x128) S256x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x128.size a ≤ S128x128.size a
  hwx0_18 : ∀ i : grid0.Coords, EltTy.bits .f32 = 32 ∨ (Rect.block (s := S128x128) S128x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .f32 = 32 ∨ (Rect.block (s := S128x128) S128x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x1024x128.size a ≤ S16x1024x128.size a
  hwx0_22 : ∀ i : grid0.Coords, EltTy.bits .f32 = 32 ∨ (Rect.block (s := S16x1024x128) S1x1024x128.size (cc0_transform_22 i) (hinb0_22 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2x384x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2x1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S9x2x256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S9x2x1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v1) S1x1024x128.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== Proof.LibRun.lean ====
/-
  Two facts about every weakly fair execution of one program from one state hold together.

  A run judgement says: every execution reaches a final state, never stuck, never diverging fairly, and the final
  memory satisfies the postcondition. Termination and progress do not mention the postcondition, so two judgements
  of the same program and state combine into one whose postcondition is the conjunction.
-/
import Idealize.ShloMosaic.Machine.Run

namespace Cert.Lib.Run

open Idealize.ShloMosaic Idealize.SL.Sem

variable {nD : Nat} {τ : Topo} {sig : RefSig} {Val : EltTy → Type} {Λ : Labels}

/-- Both postconditions hold of every final state reached. -/
theorem θ_run_and (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) := by
  have a : MeshRun defs (fun m' => Q₁ (⟨⟩, m')) (load p s) := h₁
  have b : MeshRun defs (fun m' => Q₂ (⟨⟩, m')) (load p s) := h₂
  exact (⟨fun t ht hf => ⟨a.post t ht hf, b.post t ht hf⟩, a.progress, a.fair⟩ :
    MeshRun defs (fun m' => Q₁ (⟨⟩, m') ∧ Q₂ (⟨⟩, m')) (load p s))

end Cert.Lib.Run
-- ==== Proof.Layers.lean ====
/-
  The building blocks both programs are made of, as functions of whole vectors, at any float instance.

  A dense layer is a matrix product into a zero accumulator plus a bias row repeated over the rows;
  the leaky rectifier keeps a non-negative entry and scales a negative one by the slope constant;
  the rectifier is the maximum with zero. Both programs compose exactly these three.
-/
import Idealize.ShloMosaic.PureOps.Contract
import Idealize.ShloMosaic.PureOps.ShapeOps

noncomputable section

namespace Cert.Layers

open Idealize.ShloMosaic

variable {F : FTy → Type} [FloatOps F]

/-- `x · w + b`: the product accumulated from zero, plus the bias broadcast to the product's shape. -/
def dense {sa sw sb so : Shape} {φa φw : FTy} (d : DotDims sa sw so) (hb : sb.Broadcasts so)
    (x : FVec F sa φa) (w : FVec F sw φw) (b : sb.Idx → F .f32) : FVec F so .f32 :=
  addf (matmul d none x w (constant so .f32 0x00000000#32)) (broadcastTo so b hb)

/-- The leaky rectifier: `x` where `x ≥ 0`, the slope constant times `x` elsewhere. -/
def leaky {s : Shape} (x : FVec F s .f32) : FVec F s .f32 :=
  select (cmpf .oge x (broadcast s (Scalar.ofBits .f32 0x00000000#32))) x
    (mulf (broadcast s (Scalar.ofBits .f32 0x3C23D70A#32)) x)

/-- The rectifier: the maximum with zero. -/
def relu0 {s : Shape} (x : FVec F s .f32) : FVec F s .f32 :=
  maximumf x (broadcast s (Scalar.ofBits .f32 0x00000000#32))

end Cert.Layers

end
-- ==== Proof.NetK.lean ====
/-
  The idealized kernel's body at one grid point, as ONE function of the blocks its windows stage.

  Four dense layers with leaky rectifiers (the point features `x` enter the first), then ten
  graph-convolution layers, then four dense layers of which the last has no rectifier. A graph
  convolution here multiplies the features by ONE matrix of twice the width, takes the left half as the
  vertex's own term and the right half as the neighbours' term, and adds the adjacency matrix times the
  right half to the left half before the rectifier. The first convolution also feeds the point features
  through a second matrix of the same double width.
-/
import proofs.«101555_g2000409237439836_pallaspilot1_247_2_alg».proof.Proof.Gen.KernelIdeal.Frame
import proofs.«101555_g2000409237439836_pallaspilot1_247_2_alg».proof.Proof.Layers

set_option maxRecDepth 16384

noncomputable section

namespace Cert.KernelIdeal.Net

open Idealize.ShloMosaic Cert.KernelIdeal Cert.KernelIdeal.Gen Cert.Layers

variable {F : FTy → Type} [FloatOps F]

/-- A dense layer followed by the leaky rectifier, kept in the narrow format. -/
abbrev lk {s : Shape} (x : FVec F s .f32) : FVec F s .bf16 := truncf .bf16 (leaky x) bitsLt_bf16_f32

/-- From the double-width pre-activation `hx`: left half plus adjacency times right half, rectified. -/
def mix (A : FVec F S1024x1024 .bf16) (hx : FVec F S1024x512 .f32) : FVec F S1024x256 .bf16 :=
  truncf .bf16 (relu0 (addf (extractStridedSlice S1024x256 ![0, 0] hx slices_S1024x512_o0_0_S1024x256)
    (matmul dot_S1024x1024_S1024x256_S1024x256_1_0_0_1_n_n none A
      (truncf .bf16 (extractStridedSlice S1024x256 ![0, 256] hx slices_S1024x512_o0_256_S1024x256) bitsLt_bf16_f32)
      (constant S1024x256 .f32 0x00000000#32)))) bitsLt_bf16_f32

/-- The double-width pre-activation of a later convolution: features times the fused matrix, plus the fused bias. -/
def pre (h : FVec F S1024x256 .bf16) (w : Vec F S1x256x512 .bf16) (b : Vec F S1x1x512 .f32) : FVec F S1024x512 .f32 :=
  dense dot_S1024x256_S256x512_S1024x512_1_0_0_1_n_n broadcasts_S1x512_S1024x512 h
    (shapeCast S256x512 w shapeCasts_S1x256x512_S256x512) (shapeCast S1x512 b shapeCasts_S1x1x512_S1x512)

/-- One later graph convolution. -/
def gc (A : FVec F S1024x1024 .bf16) (h : FVec F S1024x256 .bf16) (w : Vec F S1x256x512 .bf16) (b : Vec F S1x1x512 .f32) :
    FVec F S1024x256 .bf16 := mix A (pre h w b)

/-- The point features as a matrix. -/
def feat (x0 : Vec F S1x1024x128 .bf16) : FVec F S1024x128 .bf16 := shapeCast S1024x128 x0 shapeCasts_S1x1024x128_S1024x128

/-- The adjacency block as a matrix, in the narrow format. -/
def adjm (x1 : Vec F S1x1024x1024 .f32) : FVec F S1024x1024 .bf16 :=
  truncf .bf16 (shapeCast S1024x1024 x1 shapeCasts_S1x1024x1024_S1024x1024) bitsLt_bf16_f32

/-- The first four dense layers. -/
def mlp1 (x : FVec F S1024x128 .bf16) (x2 : Vec F S128x512 .bf16) (x3 : Vec F S1x512 .f32) (x4 : Vec F S512x512 .bf16)
    (x5 : Vec F S1x512 .f32) (x6 : Vec F S512x256 .bf16) (x7 : Vec F S1x256 .f32) (x8 : Vec F S256x256 .bf16)
    (x9 : Vec F S1x256 .f32) : FVec F S1024x256 .bf16 :=
  lk (dense dot_S1024x256_S256x256_S1024x256_1_0_0_1_n_n broadcasts_S1x256_S1024x256
    (lk (dense dot_S1024x512_S512x256_S1024x256_1_0_0_1_n_n broadcasts_S1x256_S1024x256
      (lk (dense dot_S1024x512_S512x512_S1024x512_1_0_0_1_n_n broadcasts_S1x512_S1024x512
        (lk (dense dot_S1024x128_S128x512_S1024x512_1_0_0_1_n_n broadcasts_S1x512_S1024x512 x
          (shapeCast S128x512 x2 shapeCasts_S128x512_S128x512) x3))
        (shapeCast S512x512 x4 shapeCasts_S512x512_S512x512) x5))
      (shapeCast S512x256 x6 shapeCasts_S512x256_S512x256) x7))
    (shapeCast S256x256 x8 shapeCasts_S256x256_S256x256) x9)

/-- The first graph convolution's double-width pre-activation: features and point coordinates through their
    own fused matrices, summed, plus the fused bias. -/
def pre0 (h : FVec F S1024x256 .bf16) (x : FVec F S1024x128 .bf16) (x10 : Vec F S256x512 .bf16) (x11 : Vec F S128x512 .bf16)
    (x12 : Vec F S1x512 .f32) : FVec F S1024x512 .f32 :=
  addf (addf (matmul dot_S1024x256_S256x512_S1024x512_1_0_0_1_n_n none h (shapeCast S256x512 x10 shapeCasts_S256x512_S256x512)
        (constant S1024x512 .f32 0x00000000#32))
      (matmul dot_S1024x128_S128x512_S1024x512_1_0_0_1_n_n none x (shapeCast S128x512 x11 shapeCasts_S128x512_S128x512)
        (constant S1024x512 .f32 0x00000000#32)))
    (broadcastTo S1024x512 (shapeCast S1x512 x12 shapeCasts_S1x512_S1x512) broadcasts_S1x512_S1024x512)

/-- The last four dense layers; the last one keeps its pre-activation. -/
def mlp3 (h : FVec F S1024x256 .bf16) (x15 : Vec F S256x128 .bf16) (x16 : Vec F S1x128 .f32) (x17 : Vec F S128x128 .bf16)
    (x18 : Vec F S1x128 .f32) (x19 : Vec F S128x128 .bf16) (x20 : Vec F S1x128 .f32) (x21 : Vec F S128x128 .bf16)
    (x22 : Vec F S1x128 .f32) : FVec F S1024x128 .f32 :=
  dense dot_S1024x128_S128x128_S1024x128_1_0_0_1_n_n broadcasts_S1x128_S1024x128
    (lk (dense dot_S1024x128_S128x128_S1024x128_1_0_0_1_n_n broadcasts_S1x128_S1024x128
      (lk (dense dot_S1024x128_S128x128_S1024x128_1_0_0_1_n_n broadcasts_S1x128_S1024x128
        (lk (dense dot_S1024x256_S256x128_S1024x128_1_0_0_1_n_n broadcasts_S1x128_S1024x128 h
          (shapeCast S256x128 x15 shapeCasts_S256x128_S256x128) x16))
        (shapeCast S128x128 x17 shapeCasts_S128x128_S128x128) x18))
      (shapeCast S128x128 x19 shapeCasts_S128x128_S128x128) x20))
    (shapeCast S128x128 x21 shapeCasts_S128x128_S128x128) x22

/-- The nine later graph convolutions, each reading its own slab of the stacked fused weights and biases. -/
def gcs (A : FVec F S1024x1024 .bf16) (h : FVec F S1024x256 .bf16) (x13 : Vec F S9x256x512 .bf16) (x14 : Vec F S9x1x512 .f32) :
    FVec F S1024x256 .bf16 :=
  gc A (gc A (gc A (gc A (gc A (gc A (gc A (gc A (gc A h
    (View.ld x13 r0_9) (View.ld x14 r0_10)) (View.ld x13 r0_11) (View.ld x14 r0_12)) (View.ld x13 r0_13) (View.ld x14 r0_14))
    (View.ld x13 r0_15) (View.ld x14 r0_16)) (View.ld x13 r0_17) (View.ld x14 r0_18)) (View.ld x13 r0_19) (View.ld x14 r0_20))
    (View.ld x13 r0_21) (View.ld x14 r0_22)) (View.ld x13 r0_23) (View.ld x14 r0_24)) (View.ld x13 r0_25) (View.ld x14 r0_26)

/-- The whole body: the block the point writes back, from the blocks it reads. -/
def net (x0 : Vec F S1x1024x128 .bf16) (x1 : Vec F S1x1024x1024 .f32) (x2 : Vec F S128x512 .bf16) (x3 : Vec F S1x512 .f32)
    (x4 : Vec F S512x512 .bf16) (x5 : Vec F S1x512 .f32) (x6 : Vec F S512x256 .bf16) (x7 : Vec F S1x256 .f32)
    (x8 : Vec F S256x256 .bf16) (x9 : Vec F S1x256 .f32) (x10 : Vec F S256x512 .bf16) (x11 : Vec F S128x512 .bf16)
    (x12 : Vec F S1x512 .f32) (x13 : Vec F S9x256x512 .bf16) (x14 : Vec F S9x1x512 .f32) (x15 : Vec F S256x128 .bf16)
    (x16 : Vec F S1x128 .f32) (x17 : Vec F S128x128 .bf16) (x18 : Vec F S1x128 .f32) (x19 : Vec F S128x128 .bf16)
    (x20 : Vec F S1x128 .f32) (x21 : Vec F S128x128 .bf16) (x22 : Vec F S1x128 .f32) : Vec F S1x1024x128 .f32 :=
  shapeCast S1x1024x128
    (mlp3 (gcs (adjm x1) (mix (adjm x1) (pre0 (mlp1 (feat x0) x2 x3 x4 x5 x6 x7 x8 x9) (feat x0) x10 x11 x12)) x13 x14)
      x15 x16 x17 x18 x19 x20 x21 x22)
    shapeCasts_S1024x128_S1x1024x128

/-- What the frame names as the output buffer's contents after the body is this function of the loaded blocks
    (the body's operations in order; nothing is computed). -/
theorem out_eq (x0 : Vec F S1x1024x128 .bf16) (x1 : Vec F S1x1024x1024 .f32) (x2 : Vec F S128x512 .bf16) (x3 : Vec F S1x512 .f32)
    (x4 : Vec F S512x512 .bf16) (x5 : Vec F S1x512 .f32) (x6 : Vec F S512x256 .bf16) (x7 : Vec F S1x256 .f32)
    (x8 : Vec F S256x256 .bf16) (x9 : Vec F S1x256 .f32) (x10 : Vec F S256x512 .bf16) (x11 : Vec F S128x512 .bf16)
    (x12 : Vec F S1x512 .f32) (x13 : Vec F S9x256x512 .bf16) (x14 : Vec F S9x1x512 .f32) (x15 : Vec F S256x128 .bf16)
    (x16 : Vec F S1x128 .f32) (x17 : Vec F S128x128 .bf16) (x18 : Vec F S1x128 .f32) (x19 : Vec F S128x128 .bf16)
    (x20 : Vec F S1x128 .f32) (x21 : Vec F S128x128 .bf16) (x22 : Vec F S1x128 .f32) :
    out0_23 x0 x1 x2 x3 x4 x5 x6 x7 x8 x9 x10 x11 x12 x13 x14 x15 x16 x17 x18 x19 x20 x21 x22
      = View.canon [⟨r0_0, net (View.ld x0 r0_0) (View.ld x1 r0_1) (View.ld x2 r0_2) (View.ld x3 r0_3) (View.ld x4 r0_4)
          (View.ld x5 r0_3) (View.ld x6 r0_5) (View.ld x7 r0_6) (View.ld x8 r0_7) (View.ld x9 r0_6) (View.ld x10 r0_8)
          (View.ld x11 r0_2) (View.ld x12 r0_3) x13 x14 (View.ld x15 r0_27) (View.ld x16 r0_28) (View.ld x17 r0_29)
          (View.ld x18 r0_28) (View.ld x19 r0_29) (View.ld x20 r0_28) (View.ld x21 r0_29) (View.ld x22 r0_28)⟩] := rfl

end Cert.KernelIdeal.Net

end
-- ==== Proof.NetR.lean ====
/-
  The idealized reference's body at one grid point, as ONE function of the blocks its windows stage.

  The same network as the kernel's, with every graph convolution written as TWO products of the
  ordinary width: the vertex's own term and the neighbours' term each have their own matrix and bias,
  read from the stacked parameter arrays by their leading coordinates. The first convolution takes its
  two matrices from the rows of one taller matrix: the first 256 rows meet the features, the next 128
  the point coordinates.
-/
import proofs.«101555_g2000409237439836_pallaspilot1_247_2_alg».proof.Proof.Gen.ReferenceIdeal.Frame
import proofs.«101555_g2000409237439836_pallaspilot1_247_2_alg».proof.Proof.Layers

set_option maxRecDepth 16384

noncomputable section

namespace Cert.ReferenceIdeal.Net

open Idealize.ShloMosaic Cert.ReferenceIdeal Cert.ReferenceIdeal.Gen Cert.Layers

variable {F : FTy → Type} [FloatOps F]

/-- Own term plus adjacency times neighbours' term, rectified. -/
def mix (A : FVec F S1024x1024 .f32) (h0 h1 : FVec F S1024x256 .f32) : FVec F S1024x256 .f32 :=
  relu0 (addf h0 (matmul dot_S1024x1024_S1024x256_S1024x256_1_0_0_1_n_n none A h1 (constant S1024x256 .f32 0x00000000#32)))

/-- One term of a later convolution: features times that term's matrix, plus its bias. -/
def term (h : FVec F S1024x256 .f32) (w : Vec F S1x1x256x256 .f32) (b : Vec F S1x1x1x256 .f32) : FVec F S1024x256 .f32 :=
  dense dot_S1024x256_S256x256_S1024x256_1_0_0_1_n_n broadcasts_S1x256_S1024x256 h
    (shapeCast S256x256 w shapeCasts_S1x1x256x256_S256x256) (shapeCast S1x256 b shapeCasts_S1x1x1x256_S1x256)

/-- One later graph convolution. -/
def gc (A : FVec F S1024x1024 .f32) (h : FVec F S1024x256 .f32) (w0 w1 : Vec F S1x1x256x256 .f32) (b0 b1 : Vec F S1x1x1x256 .f32) :
    FVec F S1024x256 .f32 := mix A (term h w0 b0) (term h w1 b1)

/-- The point features as a matrix. -/
def feat (x0 : Vec F S1x1024x128 .f32) : FVec F S1024x128 .f32 := shapeCast S1024x128 x0 shapeCasts_S1x1024x128_S1024x128

/-- The adjacency block as a matrix. -/
def adjm (x1 : Vec F S1x1024x1024 .f32) : FVec F S1024x1024 .f32 := shapeCast S1024x1024 x1 shapeCasts_S1x1024x1024_S1024x1024

/-- The first four dense layers. -/
def mlp1 (x : FVec F S1024x128 .f32) (x2 : Vec F S128x512 .f32) (x3 : Vec F S1x512 .f32) (x4 : Vec F S512x512 .f32)
    (x5 : Vec F S1x512 .f32) (x6 : Vec F S512x256 .f32) (x7 : Vec F S1x256 .f32) (x8 : Vec F S256x256 .f32)
    (x9 : Vec F S1x256 .f32) : FVec F S1024x256 .f32 :=
  leaky (dense dot_S1024x256_S256x256_S1024x256_1_0_0_1_n_n broadcasts_S1x256_S1024x256
    (leaky (dense dot_S1024x512_S512x256_S1024x256_1_0_0_1_n_n broadcasts_S1x256_S1024x256
      (leaky (dense dot_S1024x512_S512x512_S1024x512_1_0_0_1_n_n broadcasts_S1x512_S1024x512
        (leaky (dense dot_S1024x128_S128x512_S1024x512_1_0_0_1_n_n broadcasts_S1x512_S1024x512 x x2 x3))
        x4 x5))
      x6 x7))
    x8 x9)

/-- One term of the first convolution: features times the matrix's first 256 rows, plus point coordinates
    times its next 128 rows, plus the bias. -/
def term0 (h : FVec F S1024x256 .f32) (x : FVec F S1024x128 .f32) (w : Vec F S1x384x256 .f32) (b : Vec F S1x1x256 .f32) :
    FVec F S1024x256 .f32 :=
  addf (addf (matmul dot_S1024x256_S256x256_S1024x256_1_0_0_1_n_n none h
        (extractStridedSlice S256x256 ![0, 0] (shapeCast S384x256 w shapeCasts_S1x384x256_S384x256) slices_S384x256_o0_0_S256x256)
        (constant S1024x256 .f32 0x00000000#32))
      (matmul dot_S1024x128_S128x256_S1024x256_1_0_0_1_n_n none x
        (extractStridedSlice S128x256 ![256, 0] (shapeCast S384x256 w shapeCasts_S1x384x256_S384x256) slices_S384x256_o256_0_S128x256)
        (constant S1024x256 .f32 0x00000000#32)))
    (broadcastTo S1024x256 (shapeCast S1x256 b shapeCasts_S1x1x256_S1x256) broadcasts_S1x256_S1024x256)

/-- The last four dense layers; the last one keeps its pre-activation. -/
def mlp3 (h : FVec F S1024x256 .f32) (x14 : Vec F S256x128 .f32) (x15 : Vec F S1x128 .f32) (x16 : Vec F S128x128 .f32)
    (x17 : Vec F S1x128 .f32) (x18 : Vec F S128x128 .f32) (x19 : Vec F S1x128 .f32) (x20 : Vec F S128x128 .f32)
    (x21 : Vec F S1x128 .f32) : FVec F S1024x128 .f32 :=
  dense dot_S1024x128_S128x128_S1024x128_1_0_0_1_n_n broadcasts_S1x128_S1024x128
    (leaky (dense dot_S1024x128_S128x128_S1024x128_1_0_0_1_n_n broadcasts_S1x128_S1024x128
      (leaky (dense dot_S1024x128_S128x128_S1024x128_1_0_0_1_n_n broadcasts_S1x128_S1024x128
        (leaky (dense dot_S1024x256_S256x128_S1024x128_1_0_0_1_n_n broadcasts_S1x128_S1024x128 h x14 x15))
        x16 x17))
      x18 x19))
    x20 x21

/-- The nine later graph convolutions, each reading its two matrices and two biases from the stacked arrays. -/
def gcs (A : FVec F S1024x1024 .f32) (h : FVec F S1024x256 .f32) (x12 : Vec F S9x2x256x256 .f32) (x13 : Vec F S9x2x1x256 .f32) :
    FVec F S1024x256 .f32 :=
  gc A (gc A (gc A (gc A (gc A (gc A (gc A (gc A (gc A (h)
    (View.ld x12 r0_12) (View.ld x12 r0_13) (View.ld x13 r0_14) (View.ld x13 r0_15))
    (View.ld x12 r0_16) (View.ld x12 r0_17) (View.ld x13 r0_18) (View.ld x13 r0_19))
    (View.ld x12 r0_20) (View.ld x12 r0_21) (View.ld x13 r0_22) (View.ld x13 r0_23))
    (View.ld x12 r0_24) (View.ld x12 r0_25) (View.ld x13 r0_26) (View.ld x13 r0_27))
    (View.ld x12 r0_28) (View.ld x12 r0_29) (View.ld x13 r0_30) (View.ld x13 r0_31))
    (View.ld x12 r0_32) (View.ld x12 r0_33) (View.ld x13 r0_34) (View.ld x13 r0_35))
    (View.ld x12 r0_36) (View.ld x12 r0_37) (View.ld x13 r0_38) (View.ld x13 r0_39))
    (View.ld x12 r0_40) (View.ld x12 r0_41) (View.ld x13 r0_42) (View.ld x13 r0_43))
    (View.ld x12 r0_44) (View.ld x12 r0_45) (View.ld x13 r0_46) (View.ld x13 r0_47)

/-- The whole body: the block the point writes back, from the blocks it reads. -/
def net (x0 : Vec F S1x1024x128 .f32) (x1 : Vec F S1x1024x1024 .f32) (x2 : Vec F S128x512 .f32) (x3 : Vec F S1x512 .f32)
    (x4 : Vec F S512x512 .f32) (x5 : Vec F S1x512 .f32) (x6 : Vec F S512x256 .f32) (x7 : Vec F S1x256 .f32)
    (x8 : Vec F S256x256 .f32) (x9 : Vec F S1x256 .f32) (x10 : Vec F S2x384x256 .f32) (x11 : Vec F S2x1x256 .f32)
    (x12 : Vec F S9x2x256x256 .f32) (x13 : Vec F S9x2x1x256 .f32) (x14 : Vec F S256x128 .f32) (x15 : Vec F S1x128 .f32)
    (x16 : Vec F S128x128 .f32) (x17 : Vec F S1x128 .f32) (x18 : Vec F S128x128 .f32) (x19 : Vec F S1x128 .f32)
    (x20 : Vec F S128x128 .f32) (x21 : Vec F S1x128 .f32) : Vec F S1x1024x128 .f32 :=
  shapeCast S1x1024x128
    (mlp3 (gcs (adjm x1)
        (mix (adjm x1)
          (term0 (mlp1 (feat x0) x2 x3 x4 x5 x6 x7 x8 x9) (feat x0) (View.ld x10 r0_8) (View.ld x11 r0_10))
          (term0 (mlp1 (feat x0) x2 x3 x4 x5 x6 x7 x8 x9) (feat x0) (View.ld x10 r0_9) (View.ld x11 r0_11)))
        x12 x13)
      x14 x15 x16 x17 x18 x19 x20 x21)
    shapeCasts_S1024x128_S1x1024x128

/-- What the frame names as the output buffer's contents after the body is this function of the loaded blocks
    (the body's operations in order; nothing is computed). -/
theorem out_eq (x0 : Vec F S1x1024x128 .f32) (x1 : Vec F S1x1024x1024 .f32) (x2 : Vec F S128x512 .f32) (x3 : Vec F S1x512 .f32)
    (x4 : Vec F S512x512 .f32) (x5 : Vec F S1x512 .f32) (x6 : Vec F S512x256 .f32) (x7 : Vec F S1x256 .f32)
    (x8 : Vec F S256x256 .f32) (x9 : Vec F S1x256 .f32) (x10 : Vec F S2x384x256 .f32) (x11 : Vec F S2x1x256 .f32)
    (x12 : Vec F S9x2x256x256 .f32) (x13 : Vec F S9x2x1x256 .f32) (x14 : Vec F S256x128 .f32) (x15 : Vec F S1x128 .f32)
    (x16 : Vec F S128x128 .f32) (x17 : Vec F S1x128 .f32) (x18 : Vec F S128x128 .f32) (x19 : Vec F S1x128 .f32)
    (x20 : Vec F S128x128 .f32) (x21 : Vec F S1x128 .f32) :
    out0_22 x0 x1 x2 x3 x4 x5 x6 x7 x8 x9 x10 x11 x12 x13 x14 x15 x16 x17 x18 x19 x20 x21
      = View.canon [⟨r0_0, net (View.ld x0 r0_0) (View.ld x1 r0_1) (View.ld x2 r0_2) (View.ld x3 r0_3) (View.ld x4 r0_4)
          (View.ld x5 r0_3) (View.ld x6 r0_5) (View.ld x7 r0_6) (View.ld x8 r0_7) (View.ld x9 r0_6) x10 x11 x12 x13
          (View.ld x14 r0_48) (View.ld x15 r0_49) (View.ld x16 r0_50) (View.ld x17 r0_49) (View.ld x18 r0_50)
          (View.ld x19 r0_49) (View.ld x20 r0_50) (View.ld x21 r0_49)⟩] := rfl

end Cert.ReferenceIdeal.Net

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibMatmul2.lean ====
/-
  A plain matrix product read by coordinates, and a dense layer with it.

  For dimension numbers over shapes [M, K] × [K, N] → [M, N] that contract the left operand's axis 1 with the
  right operand's axis 0, with no batch axis, the product accumulated from zero is, at row `r` and column `c`,
  the sum over `k` of `x (r, k) · w (k, c)`. A dense layer adds the bias row's entry at `c`. Also here:
  a [1, 1, a, b] array cast to [a, b], read by coordinates.
-/
import Idealize.ShloMosaic.PureOps.Ideal.Laws
import Idealize.ShloMosaic.Lib.ValueIdx
import Idealize.ShloMosaic.Lib.ValueLayout
import Idealize.ShloMosaic.Lib.Pipeline.Value
import proofs.«101555_g2000409237439836_pallaspilot1_247_2_alg».proof.Proof.LibContraction
import proofs.«101555_g2000409237439836_pallaspilot1_247_2_alg».proof.Proof.Layers

noncomputable section

open scoped BigOperators

namespace Cert.Lib.Matmul2

open Idealize.ShloMosaic Idealize.ShloMosaic.ValueIdx Cert.Lib.Contraction Cert.Layers

/-- A product of an [M, K] by a [K, N] matrix into a zero accumulator, at `(r, c)`: the sum over the K inner
    positions of the row's entry times the column's entry. -/
theorem matmul_ix2 {M K N : Nat} {φ₁ φ₂ : FTy} (d : DotDims ⟨2, ![M, K]⟩ ⟨2, ![K, N]⟩ ⟨2, ![M, N]⟩)
    (hc : d.lhsContracting = [(1 : Fin 2)]) (hc' : d.rhsContracting = [(0 : Fin 2)])
    (hb : d.lhsBatch = []) (hb' : d.rhsBatch = [])
    (hn : d.lhsNonContracting = [(0 : Fin 2)]) (hn' : d.rhsNonContracting = [(1 : Fin 2)])
    (prec : Option ContractPrecision) (x : FVec Ideal ⟨2, ![M, K]⟩ φ₁) (w : FVec Ideal ⟨2, ![K, N]⟩ φ₂)
    (r : Fin M) (c : Fin N) :
    matmul d prec x w (constant ⟨2, ![M, N]⟩ .f32 0x00000000#32) (ix2 r c) = ∑ k : Fin K, x (ix2 r k) * w (ix2 k c) := by
  show FloatOps.matmul d prec x w (constant ⟨2, ![M, N]⟩ .f32 0x00000000#32) (ix2 r c) = _
  rw [Ideal.matmul_constant_zero_apply, sum_contr d hc K rfl]
  refine Finset.sum_congr rfl fun i _ => ?_
  congr 1
  · refine congrArg x (funext fun a => Fin.ext ?_)
    match a with
    | ⟨0, _⟩ => exact lhs_free d hb hn (ix2 r c) _ Nat.zero_lt_two
    | ⟨1, _⟩ => exact lhs_contracted d hc K rfl (ix2 r c) i
  · refine congrArg w (funext fun a => Fin.ext ?_)
    match a with
    | ⟨0, _⟩ => exact rhs_contracted d hc hc' K rfl (ix2 r c) i
    | ⟨1, _⟩ => exact rhs_free d hb hb' hn hn' (ix2 r c) _ Nat.one_lt_two

/-- A dense layer at `(r, c)`: the product's entry plus the bias row's entry at `c`. -/
theorem dense_ix2 {M K N : Nat} {φ₁ φ₂ : FTy} (d : DotDims ⟨2, ![M, K]⟩ ⟨2, ![K, N]⟩ ⟨2, ![M, N]⟩)
    (hc : d.lhsContracting = [(1 : Fin 2)]) (hc' : d.rhsContracting = [(0 : Fin 2)])
    (hb : d.lhsBatch = []) (hb' : d.rhsBatch = [])
    (hn : d.lhsNonContracting = [(0 : Fin 2)]) (hn' : d.rhsNonContracting = [(1 : Fin 2)])
    (hbc : (⟨2, ![1, N]⟩ : Shape).Broadcasts ⟨2, ![M, N]⟩)
    (x : FVec Ideal ⟨2, ![M, K]⟩ φ₁) (w : FVec Ideal ⟨2, ![K, N]⟩ φ₂) (b : (⟨2, ![1, N]⟩ : Shape).Idx → Ideal .f32)
    (r : Fin M) (c : Fin N) :
    dense d hbc x w b (ix2 r c) = (∑ k : Fin K, x (ix2 r k) * w (ix2 k c)) + b (ix2 (0 : Fin 1) c) := by
  unfold dense
  rw [addf_apply, matmul_ix2 d hc hc' hb hb' hn hn', broadcastTo_1b_ab_apply]

/-- A [1, 1, a, b] array cast to [a, b] reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Lib.Matmul2

end
-- ==== Proof.Fused.lean ====
/-
  A graph convolution with fused weights is the graph convolution with separate weights.

  The kernel multiplies the features by one matrix of double width, W = [W₀ | W₁], adds the double-width bias
  [b₀ | b₁], and then takes the left half as the vertex's own term and the right half as the neighbours' term.
  Column `c` of a product depends only on column `c` of the right factor, so the left half of `h · W + b` is
  `h · W₀ + b₀` and the right half is `h · W₁ + b₁`, entry by entry, with no law of arithmetic beyond reading the
  sums at the same indices. The narrow-format copies the kernel makes on the way change nothing at the ideal values.
-/
import proofs.«101555_g2000409237439836_pallaspilot1_247_2_alg».proof.Proof.NetK
import proofs.«101555_g2000409237439836_pallaspilot1_247_2_alg».proof.Proof.NetR
import proofs.«101555_g2000409237439836_pallaspilot1_247_2_alg».proof.Proof.LibMatmul2

set_option maxRecDepth 16384

noncomputable section

open scoped BigOperators

namespace Cert.Bridge

open Idealize.ShloMosaic Idealize.ShloMosaic.ValueIdx Cert.Layers Cert.Lib.Matmul2

/-! ## Slices from offset zero, and blocks of a stacked array, read by coordinates -/

/-- Columns from offset zero: the same column. -/
theorem slice_cols0 {α : Type} {n0 n1 m : Nat} (X : (⟨2, ![n0, n1]⟩ : Shape).Idx → α)
    (h : (⟨2, ![n0, n1]⟩ : Shape).Slices ![0, 0] ⟨2, ![n0, m]⟩) (a : Fin n0) (j : Fin m) (hj : j.val < n1) :
    extractStridedSlice ⟨2, ![n0, m]⟩ ![0, 0] X h (ix2 a j) = X (ix2 a ⟨j.val, hj⟩) :=
  slice2_axis1_apply 0 X h a j ⟨j.val, hj⟩ (Nat.zero_add _).symm

/-- Rows from offset zero: the same row. -/
theorem slice_rows0 {α : Type} {n0 n1 m : Nat} (X : (⟨2, ![n0, n1]⟩ : Shape).Idx → α)
    (h : (⟨2, ![n0, n1]⟩ : Shape).Slices ![0, 0] ⟨2, ![m, n1]⟩) (j : Fin m) (e : Fin n1) (hj : j.val < n0) :
    extractStridedSlice ⟨2, ![m, n1]⟩ ![0, 0] X h (ix2 j e) = X (ix2 ⟨j.val, hj⟩ e) :=
  slice2_axis0_apply 0 X h j e ⟨j.val, hj⟩ (Nat.zero_add _).symm

/-! ## The pre-activations at an entry -/

/-- The kernel's double-width pre-activation of a later convolution at `(r, c)`. -/
theorem preK_apply (h : FVec Ideal Cert.KernelIdeal.S1024x256 .bf16) (w : Vec Ideal Cert.KernelIdeal.S1x256x512 .bf16)
    (b : Vec Ideal Cert.KernelIdeal.S1x1x512 .f32) (r : Fin 1024) (c : Fin 512) :
    Cert.KernelIdeal.Net.pre h w b (ix2 r c)
      = (∑ k : Fin 256, h (ix2 r k) * w (ix3 (0 : Fin 1) k c)) + b (ix3 (0 : Fin 1) (0 : Fin 1) c) := by
  unfold Cert.KernelIdeal.Net.pre
  rw [dense_ix2 _ rfl rfl rfl rfl rfl rfl]
  simp only [shapeCast_1ab_ab_apply]

/-- One term of the reference's later convolution at `(r, c)`. -/
theorem termR_apply (h : FVec Ideal Cert.ReferenceIdeal.S1024x256 .f32) (w : Vec Ideal Cert.ReferenceIdeal.S1x1x256x256 .f32)
    (b : Vec Ideal Cert.ReferenceIdeal.S1x1x1x256 .f32) (r : Fin 1024) (c : Fin 256) :
    Cert.ReferenceIdeal.Net.term h w b (ix2 r c)
      = (∑ k : Fin 256, h (ix2 r k) * w (ix4 (0 : Fin 1) (0 : Fin 1) k c)) + b (ix4 (0 : Fin 1) (0 : Fin 1) (0 : Fin 1) c) := by
  unfold Cert.ReferenceIdeal.Net.term
  rw [dense_ix2 _ rfl rfl rfl rfl rfl rfl]
  simp only [shapeCast_11ab_ab_apply]

/-! ## Halves of the double-width pre-activation against the two terms -/

/-- If the left half of `hx` is `h0` and its right half is `h1`, entry by entry, the kernel's mixing step on `hx`
    is the reference's on `h0` and `h1`. -/
theorem mix_eq (A : FVec Ideal Cert.KernelIdeal.S1024x1024 .bf16) (hx : FVec Ideal Cert.KernelIdeal.S1024x512 .f32)
    (h0 h1 : FVec Ideal Cert.ReferenceIdeal.S1024x256 .f32)
    (e0 : ∀ (r : Fin 1024) (c : Fin 256), hx (ix2 r ⟨c.val, by omega⟩) = h0 (ix2 r c))
    (e1 : ∀ (r : Fin 1024) (c : Fin 256), hx (ix2 r ⟨256 + c.val, by omega⟩) = h1 (ix2 r c)) :
    Cert.KernelIdeal.Net.mix A hx = Cert.ReferenceIdeal.Net.mix A h0 h1 := by
  have s0 : extractStridedSlice Cert.KernelIdeal.S1024x256 ![0, 0] hx Cert.KernelIdeal.Gen.slices_S1024x512_o0_0_S1024x256 = h0 := by
    funext idx
    obtain ⟨r, c, rfl⟩ : ∃ (r : Fin 1024) (c : Fin 256), idx = ix2 r c := ⟨idx 0, idx 1, eq_ix2 idx⟩
    rw [slice_cols0 hx _ r c (by omega)]
    exact e0 r c
  have s1 : extractStridedSlice Cert.KernelIdeal.S1024x256 ![0, 256] hx Cert.KernelIdeal.Gen.slices_S1024x512_o0_256_S1024x256 = h1 := by
    funext idx
    obtain ⟨r, c, rfl⟩ : ∃ (r : Fin 1024) (c : Fin 256), idx = ix2 r c := ⟨idx 0, idx 1, eq_ix2 idx⟩
    rw [slice2_axis1_eq]
    exact e1 r c
  unfold Cert.KernelIdeal.Net.mix Cert.ReferenceIdeal.Net.mix
  rw [s0, s1]
  rfl

/-- A later convolution: fused equals separate, when the fused slab's halves are the two matrices and biases. -/
theorem gc_eq (A : FVec Ideal Cert.KernelIdeal.S1024x1024 .bf16) (h : FVec Ideal Cert.KernelIdeal.S1024x256 .bf16)
    (w : Vec Ideal Cert.KernelIdeal.S1x256x512 .bf16) (b : Vec Ideal Cert.KernelIdeal.S1x1x512 .f32)
    (w0 w1 : Vec Ideal Cert.ReferenceIdeal.S1x1x256x256 .f32) (b0 b1 : Vec Ideal Cert.ReferenceIdeal.S1x1x1x256 .f32)
    (hw0 : ∀ k j : Fin 256, w (ix3 (0 : Fin 1) k ⟨j.val, by omega⟩) = w0 (ix4 (0 : Fin 1) (0 : Fin 1) k j))
    (hw1 : ∀ k j : Fin 256, w (ix3 (0 : Fin 1) k ⟨256 + j.val, by omega⟩) = w1 (ix4 (0 : Fin 1) (0 : Fin 1) k j))
    (hb0 : ∀ j : Fin 256, b (ix3 (0 : Fin 1) (0 : Fin 1) ⟨j.val, by omega⟩) = b0 (ix4 (0 : Fin 1) (0 : Fin 1) (0 : Fin 1) j))
    (hb1 : ∀ j : Fin 256, b (ix3 (0 : Fin 1) (0 : Fin 1) ⟨256 + j.val, by omega⟩) = b1 (ix4 (0 : Fin 1) (0 : Fin 1) (0 : Fin 1) j)) :
    Cert.KernelIdeal.Net.gc A h w b = Cert.ReferenceIdeal.Net.gc A h w0 w1 b0 b1 := by
  unfold Cert.KernelIdeal.Net.gc Cert.ReferenceIdeal.Net.gc
  refine mix_eq A _ _ _ (fun r c => ?_) (fun r c => ?_)
  · rw [preK_apply, termR_apply]
    simp only [hw0, hb0]
  · rw [preK_apply, termR_apply]
    simp only [hw1, hb1]

end Cert.Bridge

end
-- ==== Proof.NetEq.lean ====
/-
  The two bodies are one function of the staged blocks.

  Given that the windows common to both programs stage equal blocks and that each fused array's halves are the
  reference's separate matrices and biases, the kernel's body and the reference's body leave the same output
  block: the dense stacks are the same operations on the same data (the kernel's format changes are the identity
  at the ideal values), and each graph convolution with fused weights is the one with separate weights.
-/
import proofs.«101555_g2000409237439836_pallaspilot1_247_2_alg».proof.Proof.Fused

set_option maxRecDepth 16384

noncomputable section

open scoped BigOperators

namespace Cert.Bridge

open Idealize.ShloMosaic Idealize.ShloMosaic.ValueIdx Cert.Layers Cert.Lib.Matmul2

/-! ## The first convolution -/

/-- The kernel's double-width pre-activation of the first convolution at `(r, c)`. -/
theorem pre0K_apply (h : FVec Ideal Cert.KernelIdeal.S1024x256 .bf16) (x : FVec Ideal Cert.KernelIdeal.S1024x128 .bf16)
    (x10 : Vec Ideal Cert.KernelIdeal.S256x512 .bf16) (x11 : Vec Ideal Cert.KernelIdeal.S128x512 .bf16) (x12 : Vec Ideal Cert.KernelIdeal.S1x512 .f32) (r : Fin 1024) (c : Fin 512) :
    Cert.KernelIdeal.Net.pre0 h x x10 x11 x12 (ix2 r c)
      = ((∑ k : Fin 256, h (ix2 r k) * x10 (ix2 k c)) + (∑ k : Fin 128, x (ix2 r k) * x11 (ix2 k c)))
        + x12 (ix2 (0 : Fin 1) c) := by
  unfold Cert.KernelIdeal.Net.pre0
  rw [addf_apply, addf_apply, matmul_ix2 _ rfl rfl rfl rfl rfl rfl, matmul_ix2 _ rfl rfl rfl rfl rfl rfl,
    broadcastTo_1b_ab_apply]
  simp only [Idealize.ShloMosaic.shapeCast_self]

/-- One term of the reference's first convolution at `(r, c)`. -/
theorem term0R_apply (h : FVec Ideal Cert.ReferenceIdeal.S1024x256 .f32) (x : FVec Ideal Cert.ReferenceIdeal.S1024x128 .f32)
    (w : Vec Ideal Cert.ReferenceIdeal.S1x384x256 .f32) (b : Vec Ideal Cert.ReferenceIdeal.S1x1x256 .f32) (r : Fin 1024) (c : Fin 256) :
    Cert.ReferenceIdeal.Net.term0 h x w b (ix2 r c)
      = ((∑ k : Fin 256, h (ix2 r k) * w (ix3 (0 : Fin 1) ⟨k.val, by omega⟩ c))
          + (∑ k : Fin 128, x (ix2 r k) * w (ix3 (0 : Fin 1) ⟨256 + k.val, by omega⟩ c)))
        + b (ix3 (0 : Fin 1) (0 : Fin 1) c) := by
  unfold Cert.ReferenceIdeal.Net.term0
  rw [addf_apply, addf_apply, matmul_ix2 _ rfl rfl rfl rfl rfl rfl, matmul_ix2 _ rfl rfl rfl rfl rfl rfl,
    broadcastTo_1b_ab_apply]
  simp only [slice2_axis0_eq, shapeCast_1ab_ab_apply, Nat.zero_add]

/-- The first convolution: fused equals separate. -/
theorem gc0_eq (A : FVec Ideal Cert.KernelIdeal.S1024x1024 .bf16) (h : FVec Ideal Cert.KernelIdeal.S1024x256 .bf16) (x : FVec Ideal Cert.KernelIdeal.S1024x128 .bf16)
    (x10 : Vec Ideal Cert.KernelIdeal.S256x512 .bf16) (x11 : Vec Ideal Cert.KernelIdeal.S128x512 .bf16) (x12 : Vec Ideal Cert.KernelIdeal.S1x512 .f32)
    (y10 : Vec Ideal Cert.ReferenceIdeal.S2x384x256 .f32) (y11 : Vec Ideal Cert.ReferenceIdeal.S2x1x256 .f32)
    (h10l : ∀ k j : Fin 256, x10 (ix2 k ⟨j.val, by omega⟩) = y10 (ix3 (0 : Fin 2) ⟨k.val, by omega⟩ j))
    (h10r : ∀ k j : Fin 256, x10 (ix2 k ⟨256 + j.val, by omega⟩) = y10 (ix3 (1 : Fin 2) ⟨k.val, by omega⟩ j))
    (h11l : ∀ (k : Fin 128) (j : Fin 256), x11 (ix2 k ⟨j.val, by omega⟩) = y10 (ix3 (0 : Fin 2) ⟨256 + k.val, by omega⟩ j))
    (h11r : ∀ (k : Fin 128) (j : Fin 256), x11 (ix2 k ⟨256 + j.val, by omega⟩) = y10 (ix3 (1 : Fin 2) ⟨256 + k.val, by omega⟩ j))
    (h12l : ∀ j : Fin 256, x12 (ix2 (0 : Fin 1) ⟨j.val, by omega⟩) = y11 (ix3 (0 : Fin 2) (0 : Fin 1) j))
    (h12r : ∀ j : Fin 256, x12 (ix2 (0 : Fin 1) ⟨256 + j.val, by omega⟩) = y11 (ix3 (1 : Fin 2) (0 : Fin 1) j)) :
    Cert.KernelIdeal.Net.mix A (Cert.KernelIdeal.Net.pre0 h x x10 x11 x12)
      = Cert.ReferenceIdeal.Net.mix A
          (Cert.ReferenceIdeal.Net.term0 h x (View.ld y10 Cert.ReferenceIdeal.Gen.r0_8) (View.ld y11 Cert.ReferenceIdeal.Gen.r0_10))
          (Cert.ReferenceIdeal.Net.term0 h x (View.ld y10 Cert.ReferenceIdeal.Gen.r0_9) (View.ld y11 Cert.ReferenceIdeal.Gen.r0_11)) := by
  have l8 : ∀ (a : Fin 384) (c : Fin 256), View.ld y10 Cert.ReferenceIdeal.Gen.r0_8 (ix3 (0 : Fin 1) a c) = y10 (ix3 (0 : Fin 2) a c) :=
    fun a c => congrArg y10 (funext fun ax => Fin.ext (by
      match ax with
      | ⟨0, _⟩ => rfl
      | ⟨1, _⟩ => show 0 + 1 * a.val = a.val; omega
      | ⟨2, _⟩ => show 0 + 1 * c.val = c.val; omega))
  have l9 : ∀ (a : Fin 384) (c : Fin 256), View.ld y10 Cert.ReferenceIdeal.Gen.r0_9 (ix3 (0 : Fin 1) a c) = y10 (ix3 (1 : Fin 2) a c) :=
    fun a c => congrArg y10 (funext fun ax => Fin.ext (by
      match ax with
      | ⟨0, _⟩ => rfl
      | ⟨1, _⟩ => show 0 + 1 * a.val = a.val; omega
      | ⟨2, _⟩ => show 0 + 1 * c.val = c.val; omega))
  have l10 : ∀ (c : Fin 256), View.ld y11 Cert.ReferenceIdeal.Gen.r0_10 (ix3 (0 : Fin 1) (0 : Fin 1) c) = y11 (ix3 (0 : Fin 2) (0 : Fin 1) c) :=
    fun c => congrArg y11 (funext fun ax => Fin.ext (by
      match ax with
      | ⟨0, _⟩ => rfl
      | ⟨1, _⟩ => rfl
      | ⟨2, _⟩ => show 0 + 1 * c.val = c.val; omega))
  have l11 : ∀ (c : Fin 256), View.ld y11 Cert.ReferenceIdeal.Gen.r0_11 (ix3 (0 : Fin 1) (0 : Fin 1) c) = y11 (ix3 (1 : Fin 2) (0 : Fin 1) c) :=
    fun c => congrArg y11 (funext fun ax => Fin.ext (by
      match ax with
      | ⟨0, _⟩ => rfl
      | ⟨1, _⟩ => rfl
      | ⟨2, _⟩ => show 0 + 1 * c.val = c.val; omega))
  refine mix_eq A _ _ _ (fun r c => ?_) (fun r c => ?_)
  · rw [pre0K_apply, term0R_apply]
    simp only [h10l, h11l, h12l, l8, l10]
  · rw [pre0K_apply, term0R_apply]
    simp only [h10r, h11r, h12r, l9, l11]

/-! ## A later convolution on slab `i` of the stacked arrays -/

/-- Convolution `i + 1`: the kernel loads slab `i` of the fused stack, the reference the two matrices and two biases
    of slab `i`; with the stacks related half by half, the two convolutions agree. -/
theorem gc_slab (i : Nat) (hi : i < 9)
    (inbK : ∀ a, (![i, 0, 0] : Fin 3 → Nat) a + Cert.KernelIdeal.S1x256x512.size a ≤ Cert.KernelIdeal.S9x256x512.size a)
    (inbKb : ∀ a, (![i, 0, 0] : Fin 3 → Nat) a + Cert.KernelIdeal.S1x1x512.size a ≤ Cert.KernelIdeal.S9x1x512.size a)
    (inbR0 : ∀ a, (![i, 0, 0, 0] : Fin 4 → Nat) a + Cert.ReferenceIdeal.S1x1x256x256.size a ≤ Cert.ReferenceIdeal.S9x2x256x256.size a)
    (inbR1 : ∀ a, (![i, 1, 0, 0] : Fin 4 → Nat) a + Cert.ReferenceIdeal.S1x1x256x256.size a ≤ Cert.ReferenceIdeal.S9x2x256x256.size a)
    (inbRb0 : ∀ a, (![i, 0, 0, 0] : Fin 4 → Nat) a + Cert.ReferenceIdeal.S1x1x1x256.size a ≤ Cert.ReferenceIdeal.S9x2x1x256.size a)
    (inbRb1 : ∀ a, (![i, 1, 0, 0] : Fin 4 → Nat) a + Cert.ReferenceIdeal.S1x1x1x256.size a ≤ Cert.ReferenceIdeal.S9x2x1x256.size a)
    (A : FVec Ideal Cert.KernelIdeal.S1024x1024 .bf16) (h : FVec Ideal Cert.KernelIdeal.S1024x256 .bf16)
    (x13 : Vec Ideal Cert.KernelIdeal.S9x256x512 .bf16) (x14 : Vec Ideal Cert.KernelIdeal.S9x1x512 .f32) (y12 : Vec Ideal Cert.ReferenceIdeal.S9x2x256x256 .f32) (y13 : Vec Ideal Cert.ReferenceIdeal.S9x2x1x256 .f32)
    (h13l : ∀ (s : Fin 9) (k j : Fin 256), x13 (ix3 s k ⟨j.val, by omega⟩) = y12 (ix4 s (0 : Fin 2) k j))
    (h13r : ∀ (s : Fin 9) (k j : Fin 256), x13 (ix3 s k ⟨256 + j.val, by omega⟩) = y12 (ix4 s (1 : Fin 2) k j))
    (h14l : ∀ (s : Fin 9) (j : Fin 256), x14 (ix3 s (0 : Fin 1) ⟨j.val, by omega⟩) = y13 (ix4 s (0 : Fin 2) (0 : Fin 1) j))
    (h14r : ∀ (s : Fin 9) (j : Fin 256), x14 (ix3 s (0 : Fin 1) ⟨256 + j.val, by omega⟩) = y13 (ix4 s (1 : Fin 2) (0 : Fin 1) j)) :
    Cert.KernelIdeal.Net.gc A h
        (View.ld x13 (Rect.unit (s := Cert.KernelIdeal.S9x256x512) ![i, 0, 0] Cert.KernelIdeal.S1x256x512.size inbK))
        (View.ld x14 (Rect.unit (s := Cert.KernelIdeal.S9x1x512) ![i, 0, 0] Cert.KernelIdeal.S1x1x512.size inbKb))
      = Cert.ReferenceIdeal.Net.gc A h
        (View.ld y12 (Rect.unit (s := Cert.ReferenceIdeal.S9x2x256x256) ![i, 0, 0, 0] Cert.ReferenceIdeal.S1x1x256x256.size inbR0))
        (View.ld y12 (Rect.unit (s := Cert.ReferenceIdeal.S9x2x256x256) ![i, 1, 0, 0] Cert.ReferenceIdeal.S1x1x256x256.size inbR1))
        (View.ld y13 (Rect.unit (s := Cert.ReferenceIdeal.S9x2x1x256) ![i, 0, 0, 0] Cert.ReferenceIdeal.S1x1x1x256.size inbRb0))
        (View.ld y13 (Rect.unit (s := Cert.ReferenceIdeal.S9x2x1x256) ![i, 1, 0, 0] Cert.ReferenceIdeal.S1x1x1x256.size inbRb1)) := by
  refine gc_eq A h _ _ _ _ _ _ (fun k j => ?_) (fun k j => ?_) (fun j => ?_) (fun j => ?_)
  · refine (congrArg x13 (funext fun ax => Fin.ext ?_)).trans ((h13l ⟨i, hi⟩ k j).trans (congrArg y12 (funext fun ax => Fin.ext ?_)))
    · match ax with
      | ⟨0, _⟩ => show i + 1 * 0 = i; omega
      | ⟨1, _⟩ => show 0 + 1 * k.val = k.val; omega
      | ⟨2, _⟩ => show 0 + 1 * j.val = j.val; omega
    · match ax with
      | ⟨0, _⟩ => show i = i + 1 * 0; omega
      | ⟨1, _⟩ => show 0 = 0 + 1 * 0; omega
      | ⟨2, _⟩ => show k.val = 0 + 1 * k.val; omega
      | ⟨3, _⟩ => show j.val = 0 + 1 * j.val; omega
  · refine (congrArg x13 (funext fun ax => Fin.ext ?_)).trans ((h13r ⟨i, hi⟩ k j).trans (congrArg y12 (funext fun ax => Fin.ext ?_)))
    · match ax with
      | ⟨0, _⟩ => show i + 1 * 0 = i; omega
      | ⟨1, _⟩ => show 0 + 1 * k.val = k.val; omega
      | ⟨2, _⟩ => show 0 + 1 * (256 + j.val) = 256 + j.val; omega
    · match ax with
      | ⟨0, _⟩ => show i = i + 1 * 0; omega
      | ⟨1, _⟩ => show 1 = 1 + 1 * 0; omega
      | ⟨2, _⟩ => show k.val = 0 + 1 * k.val; omega
      | ⟨3, _⟩ => show j.val = 0 + 1 * j.val; omega
  · refine (congrArg x14 (funext fun ax => Fin.ext ?_)).trans ((h14l ⟨i, hi⟩ j).trans (congrArg y13 (funext fun ax => Fin.ext ?_)))
    · match ax with
      | ⟨0, _⟩ => show i + 1 * 0 = i; omega
      | ⟨1, _⟩ => show 0 + 1 * 0 = 0; omega
      | ⟨2, _⟩ => show 0 + 1 * j.val = j.val; omega
    · match ax with
      | ⟨0, _⟩ => show i = i + 1 * 0; omega
      | ⟨1, _⟩ => show 0 = 0 + 1 * 0; omega
      | ⟨2, _⟩ => show 0 = 0 + 1 * 0; omega
      | ⟨3, _⟩ => show j.val = 0 + 1 * j.val; omega
  · refine (congrArg x14 (funext fun ax => Fin.ext ?_)).trans ((h14r ⟨i, hi⟩ j).trans (congrArg y13 (funext fun ax => Fin.ext ?_)))
    · match ax with
      | ⟨0, _⟩ => show i + 1 * 0 = i; omega
      | ⟨1, _⟩ => show 0 + 1 * 0 = 0; omega
      | ⟨2, _⟩ => show 0 + 1 * (256 + j.val) = 256 + j.val; omega
    · match ax with
      | ⟨0, _⟩ => show i = i + 1 * 0; omega
      | ⟨1, _⟩ => show 1 = 1 + 1 * 0; omega
      | ⟨2, _⟩ => show 0 = 0 + 1 * 0; omega
      | ⟨3, _⟩ => show j.val = 0 + 1 * j.val; omega

/-! ## The dense stacks -/

/-- The first four dense layers: the same operations on the same data. -/
theorem mlp1_eq (x : FVec Ideal Cert.KernelIdeal.S1024x128 .bf16) (y2 : Vec Ideal Cert.ReferenceIdeal.S128x512 .f32) (y3 : Vec Ideal Cert.ReferenceIdeal.S1x512 .f32) (y4 : Vec Ideal Cert.ReferenceIdeal.S512x512 .f32) (y5 : Vec Ideal Cert.ReferenceIdeal.S1x512 .f32) (y6 : Vec Ideal Cert.ReferenceIdeal.S512x256 .f32) (y7 : Vec Ideal Cert.ReferenceIdeal.S1x256 .f32) (y8 : Vec Ideal Cert.ReferenceIdeal.S256x256 .f32) (y9 : Vec Ideal Cert.ReferenceIdeal.S1x256 .f32) :
    Cert.KernelIdeal.Net.mlp1 x y2 y3 y4 y5 y6 y7 y8 y9 = Cert.ReferenceIdeal.Net.mlp1 x y2 y3 y4 y5 y6 y7 y8 y9 := by
  unfold Cert.KernelIdeal.Net.mlp1 Cert.ReferenceIdeal.Net.mlp1
  simp only [Idealize.ShloMosaic.shapeCast_self]
  rfl

/-- The last four dense layers: the same operations on the same data. -/
theorem mlp3_eq (h : FVec Ideal Cert.KernelIdeal.S1024x256 .bf16) (y14 : Vec Ideal Cert.ReferenceIdeal.S256x128 .f32) (y15 : Vec Ideal Cert.ReferenceIdeal.S1x128 .f32) (y16 : Vec Ideal Cert.ReferenceIdeal.S128x128 .f32) (y17 : Vec Ideal Cert.ReferenceIdeal.S1x128 .f32) (y18 : Vec Ideal Cert.ReferenceIdeal.S128x128 .f32) (y19 : Vec Ideal Cert.ReferenceIdeal.S1x128 .f32) (y20 : Vec Ideal Cert.ReferenceIdeal.S128x128 .f32) (y21 : Vec Ideal Cert.ReferenceIdeal.S1x128 .f32) :
    Cert.KernelIdeal.Net.mlp3 h y14 y15 y16 y17 y18 y19 y20 y21 = Cert.ReferenceIdeal.Net.mlp3 h y14 y15 y16 y17 y18 y19 y20 y21 := by
  unfold Cert.KernelIdeal.Net.mlp3 Cert.ReferenceIdeal.Net.mlp3
  simp only [Idealize.ShloMosaic.shapeCast_self]
  rfl

/-- The nine later convolutions. -/
theorem gcs_eq (A : FVec Ideal Cert.KernelIdeal.S1024x1024 .bf16) (h : FVec Ideal Cert.KernelIdeal.S1024x256 .bf16)
    (x13 : Vec Ideal Cert.KernelIdeal.S9x256x512 .bf16) (x14 : Vec Ideal Cert.KernelIdeal.S9x1x512 .f32) (y12 : Vec Ideal Cert.ReferenceIdeal.S9x2x256x256 .f32) (y13 : Vec Ideal Cert.ReferenceIdeal.S9x2x1x256 .f32)
    (h13l : ∀ (s : Fin 9) (k j : Fin 256), x13 (ix3 s k ⟨j.val, by omega⟩) = y12 (ix4 s (0 : Fin 2) k j))
    (h13r : ∀ (s : Fin 9) (k j : Fin 256), x13 (ix3 s k ⟨256 + j.val, by omega⟩) = y12 (ix4 s (1 : Fin 2) k j))
    (h14l : ∀ (s : Fin 9) (j : Fin 256), x14 (ix3 s (0 : Fin 1) ⟨j.val, by omega⟩) = y13 (ix4 s (0 : Fin 2) (0 : Fin 1) j))
    (h14r : ∀ (s : Fin 9) (j : Fin 256), x14 (ix3 s (0 : Fin 1) ⟨256 + j.val, by omega⟩) = y13 (ix4 s (1 : Fin 2) (0 : Fin 1) j)) :
    Cert.KernelIdeal.Net.gcs A h x13 x14 = Cert.ReferenceIdeal.Net.gcs A h y12 y13 := by
  unfold Cert.KernelIdeal.Net.gcs Cert.ReferenceIdeal.Net.gcs
  rw [gc_slab 0 (by omega) _ _ _ _ _ _ A _ x13 x14 y12 y13 h13l h13r h14l h14r]
  rw [gc_slab 1 (by omega) _ _ _ _ _ _ A _ x13 x14 y12 y13 h13l h13r h14l h14r]
  rw [gc_slab 2 (by omega) _ _ _ _ _ _ A _ x13 x14 y12 y13 h13l h13r h14l h14r]
  rw [gc_slab 3 (by omega) _ _ _ _ _ _ A _ x13 x14 y12 y13 h13l h13r h14l h14r]
  rw [gc_slab 4 (by omega) _ _ _ _ _ _ A _ x13 x14 y12 y13 h13l h13r h14l h14r]
  rw [gc_slab 5 (by omega) _ _ _ _ _ _ A _ x13 x14 y12 y13 h13l h13r h14l h14r]
  rw [gc_slab 6 (by omega) _ _ _ _ _ _ A _ x13 x14 y12 y13 h13l h13r h14l h14r]
  rw [gc_slab 7 (by omega) _ _ _ _ _ _ A _ x13 x14 y12 y13 h13l h13r h14l h14r]
  rw [gc_slab 8 (by omega) _ _ _ _ _ _ A _ x13 x14 y12 y13 h13l h13r h14l h14r]

/-! ## The whole body -/

/-- With the common windows' blocks equal and the fused arrays' halves the separate parameters, the two bodies leave
    the same output block. -/
theorem net_eq (x0 : Vec Ideal Cert.KernelIdeal.S1x1024x128 .bf16) (x1 : Vec Ideal Cert.KernelIdeal.S1x1024x1024 .f32) (x2 : Vec Ideal Cert.KernelIdeal.S128x512 .bf16) (x3 : Vec Ideal Cert.KernelIdeal.S1x512 .f32) (x4 : Vec Ideal Cert.KernelIdeal.S512x512 .bf16) (x5 : Vec Ideal Cert.KernelIdeal.S1x512 .f32) (x6 : Vec Ideal Cert.KernelIdeal.S512x256 .bf16) (x7 : Vec Ideal Cert.KernelIdeal.S1x256 .f32) (x8 : Vec Ideal Cert.KernelIdeal.S256x256 .bf16) (x9 : Vec Ideal Cert.KernelIdeal.S1x256 .f32) (x10 : Vec Ideal Cert.KernelIdeal.S256x512 .bf16) (x11 : Vec Ideal Cert.KernelIdeal.S128x512 .bf16) (x12 : Vec Ideal Cert.KernelIdeal.S1x512 .f32) (x13 : Vec Ideal Cert.KernelIdeal.S9x256x512 .bf16) (x14 : Vec Ideal Cert.KernelIdeal.S9x1x512 .f32) (x15 : Vec Ideal Cert.KernelIdeal.S256x128 .bf16) (x16 : Vec Ideal Cert.KernelIdeal.S1x128 .f32) (x17 : Vec Ideal Cert.KernelIdeal.S128x128 .bf16) (x18 : Vec Ideal Cert.KernelIdeal.S1x128 .f32) (x19 : Vec Ideal Cert.KernelIdeal.S128x128 .bf16) (x20 : Vec Ideal Cert.KernelIdeal.S1x128 .f32) (x21 : Vec Ideal Cert.KernelIdeal.S128x128 .bf16) (x22 : Vec Ideal Cert.KernelIdeal.S1x128 .f32)
    (y0 : Vec Ideal Cert.ReferenceIdeal.S1x1024x128 .f32) (y1 : Vec Ideal Cert.ReferenceIdeal.S1x1024x1024 .f32) (y2 : Vec Ideal Cert.ReferenceIdeal.S128x512 .f32) (y3 : Vec Ideal Cert.ReferenceIdeal.S1x512 .f32) (y4 : Vec Ideal Cert.ReferenceIdeal.S512x512 .f32) (y5 : Vec Ideal Cert.ReferenceIdeal.S1x512 .f32) (y6 : Vec Ideal Cert.ReferenceIdeal.S512x256 .f32) (y7 : Vec Ideal Cert.ReferenceIdeal.S1x256 .f32) (y8 : Vec Ideal Cert.ReferenceIdeal.S256x256 .f32) (y9 : Vec Ideal Cert.ReferenceIdeal.S1x256 .f32) (y10 : Vec Ideal Cert.ReferenceIdeal.S2x384x256 .f32) (y11 : Vec Ideal Cert.ReferenceIdeal.S2x1x256 .f32) (y12 : Vec Ideal Cert.ReferenceIdeal.S9x2x256x256 .f32) (y13 : Vec Ideal Cert.ReferenceIdeal.S9x2x1x256 .f32) (y14 : Vec Ideal Cert.ReferenceIdeal.S256x128 .f32) (y15 : Vec Ideal Cert.ReferenceIdeal.S1x128 .f32) (y16 : Vec Ideal Cert.ReferenceIdeal.S128x128 .f32) (y17 : Vec Ideal Cert.ReferenceIdeal.S1x128 .f32) (y18 : Vec Ideal Cert.ReferenceIdeal.S128x128 .f32) (y19 : Vec Ideal Cert.ReferenceIdeal.S1x128 .f32) (y20 : Vec Ideal Cert.ReferenceIdeal.S128x128 .f32) (y21 : Vec Ideal Cert.ReferenceIdeal.S1x128 .f32)
    (e0 : x0 = y0) (e1 : x1 = y1) (e2 : x2 = y2) (e3 : x3 = y3) (e4 : x4 = y4) (e5 : x5 = y5) (e6 : x6 = y6) (e7 : x7 = y7) (e8 : x8 = y8) (e9 : x9 = y9) (e15 : x15 = y14) (e16 : x16 = y15) (e17 : x17 = y16) (e18 : x18 = y17) (e19 : x19 = y18) (e20 : x20 = y19) (e21 : x21 = y20) (e22 : x22 = y21)
    (h10l : ∀ k j : Fin 256, x10 (ix2 k ⟨j.val, by omega⟩) = y10 (ix3 (0 : Fin 2) ⟨k.val, by omega⟩ j))
    (h10r : ∀ k j : Fin 256, x10 (ix2 k ⟨256 + j.val, by omega⟩) = y10 (ix3 (1 : Fin 2) ⟨k.val, by omega⟩ j))
    (h11l : ∀ (k : Fin 128) (j : Fin 256), x11 (ix2 k ⟨j.val, by omega⟩) = y10 (ix3 (0 : Fin 2) ⟨256 + k.val, by omega⟩ j))
    (h11r : ∀ (k : Fin 128) (j : Fin 256), x11 (ix2 k ⟨256 + j.val, by omega⟩) = y10 (ix3 (1 : Fin 2) ⟨256 + k.val, by omega⟩ j))
    (h12l : ∀ j : Fin 256, x12 (ix2 (0 : Fin 1) ⟨j.val, by omega⟩) = y11 (ix3 (0 : Fin 2) (0 : Fin 1) j))
    (h12r : ∀ j : Fin 256, x12 (ix2 (0 : Fin 1) ⟨256 + j.val, by omega⟩) = y11 (ix3 (1 : Fin 2) (0 : Fin 1) j))
    (h13l : ∀ (s : Fin 9) (k j : Fin 256), x13 (ix3 s k ⟨j.val, by omega⟩) = y12 (ix4 s (0 : Fin 2) k j))
    (h13r : ∀ (s : Fin 9) (k j : Fin 256), x13 (ix3 s k ⟨256 + j.val, by omega⟩) = y12 (ix4 s (1 : Fin 2) k j))
    (h14l : ∀ (s : Fin 9) (j : Fin 256), x14 (ix3 s (0 : Fin 1) ⟨j.val, by omega⟩) = y13 (ix4 s (0 : Fin 2) (0 : Fin 1) j))
    (h14r : ∀ (s : Fin 9) (j : Fin 256), x14 (ix3 s (0 : Fin 1) ⟨256 + j.val, by omega⟩) = y13 (ix4 s (1 : Fin 2) (0 : Fin 1) j)) :
    Cert.KernelIdeal.Net.net x0 x1 x2 x3 x4 x5 x6 x7 x8 x9 x10 x11 x12 x13 x14 x15 x16 x17 x18 x19 x20 x21 x22 = Cert.ReferenceIdeal.Net.net y0 y1 y2 y3 y4 y5 y6 y7 y8 y9 y10 y11 y12 y13 y14 y15 y16 y17 y18 y19 y20 y21 := by
  subst e0 e1 e2 e3 e4 e5 e6 e7 e8 e9 e15 e16 e17 e18 e19 e20 e21 e22
  unfold Cert.KernelIdeal.Net.net Cert.ReferenceIdeal.Net.net
  have hf : Cert.KernelIdeal.Net.feat (F := Ideal) x0 = Cert.ReferenceIdeal.Net.feat (F := Ideal) x0 := rfl
  have hA : Cert.KernelIdeal.Net.adjm (F := Ideal) x1 = Cert.ReferenceIdeal.Net.adjm (F := Ideal) x1 := rfl
  rw [mlp1_eq, gc0_eq _ _ _ x10 x11 x12 y10 y11 h10l h10r h11l h11r h12l h12r,
    gcs_eq _ _ x13 x14 y12 y13 h13l h13r h14l h14r, mlp3_eq, hf, hA]

end Cert.Bridge

end
-- ==== Proof.Agree.lean ====
/-
  The two idealized programs' argument arrays agree: the hypothesis under which their results are compared.
-/
import proofs.«101555_g2000409237439836_pallaspilot1_247_2_alg».proof.Proof.Gen.KernelIdeal.Frame
import proofs.«101555_g2000409237439836_pallaspilot1_247_2_alg».proof.Proof.Gen.ReferenceIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.SL.Sem

/-- The reference's memory `m'` holds, in each of the 22 argument arrays, what the kernel's memory `m` holds. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)

end Cert.Bridge

end
-- ==== Proof.BlocksEq.lean ====
/-
  The windows that stage the same data in both programs: the point features (the kernel's copy only
  changes format, which at the ideal values changes nothing), the adjacency block, and the weights and
  biases of the eight dense layers.
-/
import proofs.«101555_g2000409237439836_pallaspilot1_247_2_alg».proof.Proof.Gen.KernelIdeal.Frame
import proofs.«101555_g2000409237439836_pallaspilot1_247_2_alg».proof.Proof.Gen.ReferenceIdeal.Frame
import proofs.«101555_g2000409237439836_pallaspilot1_247_2_alg».proof.Proof.Agree
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.ValueIdx Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (hag : Agree m m')
  (c : Dev Cert.KernelIdeal.nD) (t : Fin Cert.KernelIdeal.cfg0.N) (t' : Fin Cert.ReferenceIdeal.cfg0.N) (ht : t.val = t'.val)
include hag ht

/-- Window 0 of the kernel and window 0 of the reference stage the same block. -/
theorem b0 : (Cert.KernelIdeal.Gen.iblk m c 0 t : Vec Ideal Cert.KernelIdeal.S1x1024x128 .bf16) = (Cert.ReferenceIdeal.Gen.iblk m' c 0 t' : Vec Ideal Cert.ReferenceIdeal.S1x1024x128 .f32) := by
  -- the kernel's array: the point features padded with the converted integer zero, then changed in format
  have eK : @Eq (Cert.KernelIdeal.S16x1024x128.Idx → EReal) (Cert.KernelIdeal.Gen.V m c Cert.KernelIdeal.main_v1)
      (truncf .bf16 (pad Cert.KernelIdeal.S16x1024x128 ![0, 0, 0] ![0, 0, 125] ![0, 0, 0]
          (m ((c.tc : Thread Cert.KernelIdeal.nD Cert.KernelIdeal.τ).loc Cert.KernelIdeal.main_arg0) : FVec Ideal Cert.KernelIdeal.S16x1024x3 .f32)
          (sitofp .f32 (constantI Cert.KernelIdeal.S_ 32 0#32) : FVec Ideal Cert.KernelIdeal.S_ .f32)
          Cert.KernelIdeal.Facts₀.pads_S16x1024x3_S16x1024x128_000_000_01250 Cert.KernelIdeal.Facts₀.h_S_ : FVec Ideal Cert.KernelIdeal.S16x1024x128 .f32)
        Cert.KernelIdeal.Facts₀.bitsLt_bf16_f32 : FVec Ideal Cert.KernelIdeal.S16x1024x128 .bf16) := by
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil,
      List.append_nil, List.cons_append, List.nil_append]
    after_results
    rfl
  -- the reference's array: the same padding of its own point features
  have eR : @Eq (Cert.ReferenceIdeal.S16x1024x128.Idx → EReal) (Cert.ReferenceIdeal.Gen.V m' c Cert.ReferenceIdeal.main_v0)
      (pad Cert.ReferenceIdeal.S16x1024x128 ![0, 0, 0] ![0, 0, 125] ![0, 0, 0]
          (m' ((c.tc : Thread Cert.ReferenceIdeal.nD Cert.ReferenceIdeal.τ).loc Cert.ReferenceIdeal.main_arg0) : FVec Ideal Cert.ReferenceIdeal.S16x1024x3 .f32)
          (sitofp .f32 (constantI Cert.ReferenceIdeal.S_ 32 0#32) : FVec Ideal Cert.ReferenceIdeal.S_ .f32)
          Cert.ReferenceIdeal.Facts₀.pads_S16x1024x3_S16x1024x128_000_000_01250 Cert.ReferenceIdeal.Facts₀.h_S_ : FVec Ideal Cert.ReferenceIdeal.S16x1024x128 .f32) := by
    dsimp only [Cert.ReferenceIdeal.Gen.V, Cert.ReferenceIdeal.Gen.V0]
    simp only [Cert.ReferenceIdeal.Gen.hostOps0, Cert.ReferenceIdeal.Gen.hostOps0_1, List.flatten_cons, List.flatten_nil,
      List.append_nil, List.cons_append, List.nil_append]
    after_results
    rfl
  have hK : ∀ t : Fin Cert.KernelIdeal.cfg0.N, Cert.KernelIdeal.win0_0.index t (0 : Fin 3) = t.val :=
    (by decide +kernel : ∀ t : Fin Cert.KernelIdeal.grid0.N, _)
  have hR : ∀ t : Fin Cert.ReferenceIdeal.cfg0.N, Cert.ReferenceIdeal.win0_0.index t (0 : Fin 3) = t.val :=
    (by decide +kernel : ∀ t : Fin Cert.ReferenceIdeal.grid0.N, _)
  unfold Cert.KernelIdeal.Gen.iblk Cert.ReferenceIdeal.Gen.iblk
  funext y
  show Cert.KernelIdeal.Gen.V m c Cert.KernelIdeal.main_v1 (((Cert.KernelIdeal.cfg0.win 0).blk t).view.emb y)
    = Cert.ReferenceIdeal.Gen.V m' c Cert.ReferenceIdeal.main_v0 (((Cert.ReferenceIdeal.cfg0.win 0).blk t').view.emb y)
  rw [eK, eR, (hag c).1]
  -- one padded array read at two indices: the indices agree axis by axis
  refine congrArg (pad Cert.KernelIdeal.S16x1024x128 ![0, 0, 0] ![0, 0, 125] ![0, 0, 0]
          (m ((c.tc : Thread Cert.KernelIdeal.nD Cert.KernelIdeal.τ).loc Cert.KernelIdeal.main_arg0) : FVec Ideal Cert.KernelIdeal.S16x1024x3 .f32)
          (sitofp .f32 (constantI Cert.KernelIdeal.S_ 32 0#32) : FVec Ideal Cert.KernelIdeal.S_ .f32)
          Cert.KernelIdeal.Facts₀.pads_S16x1024x3_S16x1024x128_000_000_01250 Cert.KernelIdeal.Facts₀.h_S_ : FVec Ideal Cert.KernelIdeal.S16x1024x128 .f32) ?_
  funext a; apply Fin.ext
  match a with
  | ⟨0, _⟩ =>
    show Cert.KernelIdeal.win0_0.index t (0 : Fin 3) * 1 + 1 * (y 0).val = Cert.ReferenceIdeal.win0_0.index t' (0 : Fin 3) * 1 + 1 * (y 0).val
    rw [hK t, hR t', ht]
  | ⟨1, _⟩ => rfl
  | ⟨2, _⟩ => rfl

/-- Window 1 of the kernel and window 1 of the reference stage the same block. -/
theorem b1 : (Cert.KernelIdeal.Gen.iblk m c 1 t : Vec Ideal Cert.KernelIdeal.S1x1024x1024 .f32) = (Cert.ReferenceIdeal.Gen.iblk m' c 1 t' : Vec Ideal Cert.ReferenceIdeal.S1x1024x1024 .f32) := by
  have hK : ∀ t : Fin Cert.KernelIdeal.cfg0.N, Cert.KernelIdeal.win0_1.index t (0 : Fin 3) = t.val :=
    (by decide +kernel : ∀ t : Fin Cert.KernelIdeal.grid0.N, _)
  have hR : ∀ t : Fin Cert.ReferenceIdeal.cfg0.N, Cert.ReferenceIdeal.win0_1.index t (0 : Fin 3) = t.val :=
    (by decide +kernel : ∀ t : Fin Cert.ReferenceIdeal.grid0.N, _)
  unfold Cert.KernelIdeal.Gen.iblk Cert.ReferenceIdeal.Gen.iblk
  funext y
  show Cert.KernelIdeal.Gen.V m c Cert.KernelIdeal.main_arg1 (((Cert.KernelIdeal.cfg0.win 1).blk t).view.emb y)
    = Cert.ReferenceIdeal.Gen.V m' c Cert.ReferenceIdeal.main_arg1 (((Cert.ReferenceIdeal.cfg0.win 1).blk t').view.emb y)
  rw [Cert.KernelIdeal.Gen.V_main_arg1, Cert.ReferenceIdeal.Gen.V_main_arg1, (hag c).2.1]
  refine congrArg (m ((c.tc : Thread Cert.KernelIdeal.nD Cert.KernelIdeal.τ).loc Cert.KernelIdeal.main_arg1)) ?_
  funext a; apply Fin.ext
  match a with
  | ⟨0, _⟩ =>
    show Cert.KernelIdeal.win0_1.index t (0 : Fin 3) * 1 + 1 * (y 0).val = Cert.ReferenceIdeal.win0_1.index t' (0 : Fin 3) * 1 + 1 * (y 0).val
    rw [hK t, hR t', ht]
  | ⟨1, _⟩ => rfl
  | ⟨2, _⟩ => rfl

/-- Window 2 of the kernel and window 2 of the reference stage the same block. -/
theorem b2 : (Cert.KernelIdeal.Gen.iblk m c 2 t : Vec Ideal Cert.KernelIdeal.S128x512 .bf16) = (Cert.ReferenceIdeal.Gen.iblk m' c 2 t' : Vec Ideal Cert.ReferenceIdeal.S128x512 .f32) := by
  have e : @Eq (Cert.KernelIdeal.S128x512.Idx → EReal) (Cert.KernelIdeal.Gen.V m c Cert.KernelIdeal.main_v30)
      (truncf .bf16 (m ((c.tc : Thread Cert.KernelIdeal.nD Cert.KernelIdeal.τ).loc Cert.KernelIdeal.main_arg2) : FVec Ideal Cert.KernelIdeal.S128x512 .f32)
        Cert.KernelIdeal.Facts₀.bitsLt_bf16_f32 : FVec Ideal Cert.KernelIdeal.S128x512 .bf16) := by
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil,
      List.append_nil, List.cons_append, List.nil_append]
    after_results
  unfold Cert.KernelIdeal.Gen.iblk Cert.ReferenceIdeal.Gen.iblk
  funext y
  show Cert.KernelIdeal.Gen.V m c Cert.KernelIdeal.main_v30 (((Cert.KernelIdeal.cfg0.win 2).blk t).view.emb y)
    = Cert.ReferenceIdeal.Gen.V m' c Cert.ReferenceIdeal.main_arg2 (((Cert.ReferenceIdeal.cfg0.win 2).blk t').view.emb y)
  rw [e, Cert.ReferenceIdeal.Gen.V_main_arg2, (hag c).2.2.1]
  -- the format change is the identity at the ideal values, and both index maps are constantly zero
  rfl

/-- Window 3 of the kernel and window 3 of the reference stage the same block. -/
theorem b3 : (Cert.KernelIdeal.Gen.iblk m c 3 t : Vec Ideal Cert.KernelIdeal.S1x512 .f32) = (Cert.ReferenceIdeal.Gen.iblk m' c 3 t' : Vec Ideal Cert.ReferenceIdeal.S1x512 .f32) := by
  unfold Cert.KernelIdeal.Gen.iblk Cert.ReferenceIdeal.Gen.iblk
  funext y
  show Cert.KernelIdeal.Gen.V m c Cert.KernelIdeal.main_arg3 (((Cert.KernelIdeal.cfg0.win 3).blk t).view.emb y)
    = Cert.ReferenceIdeal.Gen.V m' c Cert.ReferenceIdeal.main_arg3 (((Cert.ReferenceIdeal.cfg0.win 3).blk t').view.emb y)
  rw [Cert.KernelIdeal.Gen.V_main_arg3, Cert.ReferenceIdeal.Gen.V_main_arg3, (hag c).2.2.2.1]
  -- both index maps are constantly zero: the two embedded indices are the same term
  rfl

/-- Window 4 of the kernel and window 4 of the reference stage the same block. -/
theorem b4 : (Cert.KernelIdeal.Gen.iblk m c 4 t : Vec Ideal Cert.KernelIdeal.S512x512 .bf16) = (Cert.ReferenceIdeal.Gen.iblk m' c 4 t' : Vec Ideal Cert.ReferenceIdeal.S512x512 .f32) := by
  have e : @Eq (Cert.KernelIdeal.S512x512.Idx → EReal) (Cert.KernelIdeal.Gen.V m c Cert.KernelIdeal.main_v31)
      (truncf .bf16 (m ((c.tc : Thread Cert.KernelIdeal.nD Cert.KernelIdeal.τ).loc Cert.KernelIdeal.main_arg4) : FVec Ideal Cert.KernelIdeal.S512x512 .f32)
        Cert.KernelIdeal.Facts₀.bitsLt_bf16_f32 : FVec Ideal Cert.KernelIdeal.S512x512 .bf16) := by
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil,
      List.append_nil, List.cons_append, List.nil_append]
    after_results
  unfold Cert.KernelIdeal.Gen.iblk Cert.ReferenceIdeal.Gen.iblk
  funext y
  show Cert.KernelIdeal.Gen.V m c Cert.KernelIdeal.main_v31 (((Cert.KernelIdeal.cfg0.win 4).blk t).view.emb y)
    = Cert.ReferenceIdeal.Gen.V m' c Cert.ReferenceIdeal.main_arg4 (((Cert.ReferenceIdeal.cfg0.win 4).blk t').view.emb y)
  rw [e, Cert.ReferenceIdeal.Gen.V_main_arg4, (hag c).2.2.2.2.1]
  -- the format change is the identity at the ideal values, and both index maps are constantly zero
  rfl

/-- Window 5 of the kernel and window 5 of the reference stage the same block. -/
theorem b5 : (Cert.KernelIdeal.Gen.iblk m c 5 t : Vec Ideal Cert.KernelIdeal.S1x512 .f32) = (Cert.ReferenceIdeal.Gen.iblk m' c 5 t' : Vec Ideal Cert.ReferenceIdeal.S1x512 .f32) := by
  unfold Cert.KernelIdeal.Gen.iblk Cert.ReferenceIdeal.Gen.iblk
  funext y
  show Cert.KernelIdeal.Gen.V m c Cert.KernelIdeal.main_arg5 (((Cert.KernelIdeal.cfg0.win 5).blk t).view.emb y)
    = Cert.ReferenceIdeal.Gen.V m' c Cert.ReferenceIdeal.main_arg5 (((Cert.ReferenceIdeal.cfg0.win 5).blk t').view.emb y)
  rw [Cert.KernelIdeal.Gen.V_main_arg5, Cert.ReferenceIdeal.Gen.V_main_arg5, (hag c).2.2.2.2.2.1]
  -- both index maps are constantly zero: the two embedded indices are the same term
  rfl

/-- Window 6 of the kernel and window 6 of the reference stage the same block. -/
theorem b6 : (Cert.KernelIdeal.Gen.iblk m c 6 t : Vec Ideal Cert.KernelIdeal.S512x256 .bf16) = (Cert.ReferenceIdeal.Gen.iblk m' c 6 t' : Vec Ideal Cert.ReferenceIdeal.S512x256 .f32) := by
  have e : @Eq (Cert.KernelIdeal.S512x256.Idx → EReal) (Cert.KernelIdeal.Gen.V m c Cert.KernelIdeal.main_v32)
      (truncf .bf16 (m ((c.tc : Thread Cert.KernelIdeal.nD Cert.KernelIdeal.τ).loc Cert.KernelIdeal.main_arg6) : FVec Ideal Cert.KernelIdeal.S512x256 .f32)
        Cert.KernelIdeal.Facts₀.bitsLt_bf16_f32 : FVec Ideal Cert.KernelIdeal.S512x256 .bf16) := by
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil,
      List.append_nil, List.cons_append, List.nil_append]
    after_results
  unfold Cert.KernelIdeal.Gen.iblk Cert.ReferenceIdeal.Gen.iblk
  funext y
  show Cert.KernelIdeal.Gen.V m c Cert.KernelIdeal.main_v32 (((Cert.KernelIdeal.cfg0.win 6).blk t).view.emb y)
    = Cert.ReferenceIdeal.Gen.V m' c Cert.ReferenceIdeal.main_arg6 (((Cert.ReferenceIdeal.cfg0.win 6).blk t').view.emb y)
  rw [e, Cert.ReferenceIdeal.Gen.V_main_arg6, (hag c).2.2.2.2.2.2.1]
  -- the format change is the identity at the ideal values, and both index maps are constantly zero
  rfl

/-- Window 7 of the kernel and window 7 of the reference stage the same block. -/
theorem b7 : (Cert.KernelIdeal.Gen.iblk m c 7 t : Vec Ideal Cert.KernelIdeal.S1x256 .f32) = (Cert.ReferenceIdeal.Gen.iblk m' c 7 t' : Vec Ideal Cert.ReferenceIdeal.S1x256 .f32) := by
  unfold Cert.KernelIdeal.Gen.iblk Cert.ReferenceIdeal.Gen.iblk
  funext y
  show Cert.KernelIdeal.Gen.V m c Cert.KernelIdeal.main_arg7 (((Cert.KernelIdeal.cfg0.win 7).blk t).view.emb y)
    = Cert.ReferenceIdeal.Gen.V m' c Cert.ReferenceIdeal.main_arg7 (((Cert.ReferenceIdeal.cfg0.win 7).blk t').view.emb y)
  rw [Cert.KernelIdeal.Gen.V_main_arg7, Cert.ReferenceIdeal.Gen.V_main_arg7, (hag c).2.2.2.2.2.2.2.1]
  -- both index maps are constantly zero: the two embedded indices are the same term
  rfl

/-- Window 8 of the kernel and window 8 of the reference stage the same block. -/
theorem b8 : (Cert.KernelIdeal.Gen.iblk m c 8 t : Vec Ideal Cert.KernelIdeal.S256x256 .bf16) = (Cert.ReferenceIdeal.Gen.iblk m' c 8 t' : Vec Ideal Cert.ReferenceIdeal.S256x256 .f32) := by
  have e : @Eq (Cert.KernelIdeal.S256x256.Idx → EReal) (Cert.KernelIdeal.Gen.V m c Cert.KernelIdeal.main_v33)
      (truncf .bf16 (m ((c.tc : Thread Cert.KernelIdeal.nD Cert.KernelIdeal.τ).loc Cert.KernelIdeal.main_arg8) : FVec Ideal Cert.KernelIdeal.S256x256 .f32)
        Cert.KernelIdeal.Facts₀.bitsLt_bf16_f32 : FVec Ideal Cert.KernelIdeal.S256x256 .bf16) := by
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil,
      List.append_nil, List.cons_append, List.nil_append]
    after_results
  unfold Cert.KernelIdeal.Gen.iblk Cert.ReferenceIdeal.Gen.iblk
  funext y
  show Cert.KernelIdeal.Gen.V m c Cert.KernelIdeal.main_v33 (((Cert.KernelIdeal.cfg0.win 8).blk t).view.emb y)
    = Cert.ReferenceIdeal.Gen.V m' c Cert.ReferenceIdeal.main_arg8 (((Cert.ReferenceIdeal.cfg0.win 8).blk t').view.emb y)
  rw [e, Cert.ReferenceIdeal.Gen.V_main_arg8, (hag c).2.2.2.2.2.2.2.2.1]
  -- the format change is the identity at the ideal values, and both index maps are constantly zero
  rfl

/-- Window 9 of the kernel and window 9 of the reference stage the same block. -/
theorem b9 : (Cert.KernelIdeal.Gen.iblk m c 9 t : Vec Ideal Cert.KernelIdeal.S1x256 .f32) = (Cert.ReferenceIdeal.Gen.iblk m' c 9 t' : Vec Ideal Cert.ReferenceIdeal.S1x256 .f32) := by
  unfold Cert.KernelIdeal.Gen.iblk Cert.ReferenceIdeal.Gen.iblk
  funext y
  show Cert.KernelIdeal.Gen.V m c Cert.KernelIdeal.main_arg9 (((Cert.KernelIdeal.cfg0.win 9).blk t).view.emb y)
    = Cert.ReferenceIdeal.Gen.V m' c Cert.ReferenceIdeal.main_arg9 (((Cert.ReferenceIdeal.cfg0.win 9).blk t').view.emb y)
  rw [Cert.KernelIdeal.Gen.V_main_arg9, Cert.ReferenceIdeal.Gen.V_main_arg9, (hag c).2.2.2.2.2.2.2.2.2.1]
  -- both index maps are constantly zero: the two embedded indices are the same term
  rfl

/-- Window 15 of the kernel and window 14 of the reference stage the same block. -/
theorem b15 : (Cert.KernelIdeal.Gen.iblk m c 15 t : Vec Ideal Cert.KernelIdeal.S256x128 .bf16) = (Cert.ReferenceIdeal.Gen.iblk m' c 14 t' : Vec Ideal Cert.ReferenceIdeal.S256x128 .f32) := by
  have e : @Eq (Cert.KernelIdeal.S256x128.Idx → EReal) (Cert.KernelIdeal.Gen.V m c Cert.KernelIdeal.main_v34)
      (truncf .bf16 (m ((c.tc : Thread Cert.KernelIdeal.nD Cert.KernelIdeal.τ).loc Cert.KernelIdeal.main_arg14) : FVec Ideal Cert.KernelIdeal.S256x128 .f32)
        Cert.KernelIdeal.Facts₀.bitsLt_bf16_f32 : FVec Ideal Cert.KernelIdeal.S256x128 .bf16) := by
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil,
      List.append_nil, List.cons_append, List.nil_append]
    after_results
  unfold Cert.KernelIdeal.Gen.iblk Cert.ReferenceIdeal.Gen.iblk
  funext y
  show Cert.KernelIdeal.Gen.V m c Cert.KernelIdeal.main_v34 (((Cert.KernelIdeal.cfg0.win 15).blk t).view.emb y)
    = Cert.ReferenceIdeal.Gen.V m' c Cert.ReferenceIdeal.main_arg14 (((Cert.ReferenceIdeal.cfg0.win 14).blk t').view.emb y)
  rw [e, Cert.ReferenceIdeal.Gen.V_main_arg14, (hag c).2.2.2.2.2.2.2.2.2.2.2.2.2.2.1]
  -- the format change is the identity at the ideal values, and both index maps are constantly zero
  rfl

/-- Window 16 of the kernel and window 15 of the reference stage the same block. -/
theorem b16 : (Cert.KernelIdeal.Gen.iblk m c 16 t : Vec Ideal Cert.KernelIdeal.S1x128 .f32) = (Cert.ReferenceIdeal.Gen.iblk m' c 15 t' : Vec Ideal Cert.ReferenceIdeal.S1x128 .f32) := by
  unfold Cert.KernelIdeal.Gen.iblk Cert.ReferenceIdeal.Gen.iblk
  funext y
  show Cert.KernelIdeal.Gen.V m c Cert.KernelIdeal.main_arg15 (((Cert.KernelIdeal.cfg0.win 16).blk t).view.emb y)
    = Cert.ReferenceIdeal.Gen.V m' c Cert.ReferenceIdeal.main_arg15 (((Cert.ReferenceIdeal.cfg0.win 15).blk t').view.emb y)
  rw [Cert.KernelIdeal.Gen.V_main_arg15, Cert.ReferenceIdeal.Gen.V_main_arg15, (hag c).2.2.2.2.2.2.2.2.2.2.2.2.2.2.2.1]
  -- both index maps are constantly zero: the two embedded indices are the same term
  rfl

/-- Window 17 of the kernel and window 16 of the reference stage the same block. -/
theorem b17 : (Cert.KernelIdeal.Gen.iblk m c 17 t : Vec Ideal Cert.KernelIdeal.S128x128 .bf16) = (Cert.ReferenceIdeal.Gen.iblk m' c 16 t' : Vec Ideal Cert.ReferenceIdeal.S128x128 .f32) := by
  have e : @Eq (Cert.KernelIdeal.S128x128.Idx → EReal) (Cert.KernelIdeal.Gen.V m c Cert.KernelIdeal.main_v35)
      (truncf .bf16 (m ((c.tc : Thread Cert.KernelIdeal.nD Cert.KernelIdeal.τ).loc Cert.KernelIdeal.main_arg16) : FVec Ideal Cert.KernelIdeal.S128x128 .f32)
        Cert.KernelIdeal.Facts₀.bitsLt_bf16_f32 : FVec Ideal Cert.KernelIdeal.S128x128 .bf16) := by
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil,
      List.append_nil, List.cons_append, List.nil_append]
    after_results
  unfold Cert.KernelIdeal.Gen.iblk Cert.ReferenceIdeal.Gen.iblk
  funext y
  show Cert.KernelIdeal.Gen.V m c Cert.KernelIdeal.main_v35 (((Cert.KernelIdeal.cfg0.win 17).blk t).view.emb y)
    = Cert.ReferenceIdeal.Gen.V m' c Cert.ReferenceIdeal.main_arg16 (((Cert.ReferenceIdeal.cfg0.win 16).blk t').view.emb y)
  rw [e, Cert.ReferenceIdeal.Gen.V_main_arg16, (hag c).2.2.2.2.2.2.2.2.2.2.2.2.2.2.2.2.1]
  -- the format change is the identity at the ideal values, and both index maps are constantly zero
  rfl

/-- Window 18 of the kernel and window 17 of the reference stage the same block. -/
theorem b18 : (Cert.KernelIdeal.Gen.iblk m c 18 t : Vec Ideal Cert.KernelIdeal.S1x128 .f32) = (Cert.ReferenceIdeal.Gen.iblk m' c 17 t' : Vec Ideal Cert.ReferenceIdeal.S1x128 .f32) := by
  unfold Cert.KernelIdeal.Gen.iblk Cert.ReferenceIdeal.Gen.iblk
  funext y
  show Cert.KernelIdeal.Gen.V m c Cert.KernelIdeal.main_arg17 (((Cert.KernelIdeal.cfg0.win 18).blk t).view.emb y)
    = Cert.ReferenceIdeal.Gen.V m' c Cert.ReferenceIdeal.main_arg17 (((Cert.ReferenceIdeal.cfg0.win 17).blk t').view.emb y)
  rw [Cert.KernelIdeal.Gen.V_main_arg17, Cert.ReferenceIdeal.Gen.V_main_arg17, (hag c).2.2.2.2.2.2.2.2.2.2.2.2.2.2.2.2.2.1]
  -- both index maps are constantly zero: the two embedded indices are the same term
  rfl

/-- Window 19 of the kernel and window 18 of the reference stage the same block. -/
theorem b19 : (Cert.KernelIdeal.Gen.iblk m c 19 t : Vec Ideal Cert.KernelIdeal.S128x128 .bf16) = (Cert.ReferenceIdeal.Gen.iblk m' c 18 t' : Vec Ideal Cert.ReferenceIdeal.S128x128 .f32) := by
  have e : @Eq (Cert.KernelIdeal.S128x128.Idx → EReal) (Cert.KernelIdeal.Gen.V m c Cert.KernelIdeal.main_v36)
      (truncf .bf16 (m ((c.tc : Thread Cert.KernelIdeal.nD Cert.KernelIdeal.τ).loc Cert.KernelIdeal.main_arg18) : FVec Ideal Cert.KernelIdeal.S128x128 .f32)
        Cert.KernelIdeal.Facts₀.bitsLt_bf16_f32 : FVec Ideal Cert.KernelIdeal.S128x128 .bf16) := by
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil,
      List.append_nil, List.cons_append, List.nil_append]
    after_results
  unfold Cert.KernelIdeal.Gen.iblk Cert.ReferenceIdeal.Gen.iblk
  funext y
  show Cert.KernelIdeal.Gen.V m c Cert.KernelIdeal.main_v36 (((Cert.KernelIdeal.cfg0.win 19).blk t).view.emb y)
    = Cert.ReferenceIdeal.Gen.V m' c Cert.ReferenceIdeal.main_arg18 (((Cert.ReferenceIdeal.cfg0.win 18).blk t').view.emb y)
  rw [e, Cert.ReferenceIdeal.Gen.V_main_arg18, (hag c).2.2.2.2.2.2.2.2.2.2.2.2.2.2.2.2.2.2.1]
  -- the format change is the identity at the ideal values, and both index maps are constantly zero
  rfl

/-- Window 20 of the kernel and window 19 of the reference stage the same block. -/
theorem b20 : (Cert.KernelIdeal.Gen.iblk m c 20 t : Vec Ideal Cert.KernelIdeal.S1x128 .f32) = (Cert.ReferenceIdeal.Gen.iblk m' c 19 t' : Vec Ideal Cert.ReferenceIdeal.S1x128 .f32) := by
  unfold Cert.KernelIdeal.Gen.iblk Cert.ReferenceIdeal.Gen.iblk
  funext y
  show Cert.KernelIdeal.Gen.V m c Cert.KernelIdeal.main_arg19 (((Cert.KernelIdeal.cfg0.win 20).blk t).view.emb y)
    = Cert.ReferenceIdeal.Gen.V m' c Cert.ReferenceIdeal.main_arg19 (((Cert.ReferenceIdeal.cfg0.win 19).blk t').view.emb y)
  rw [Cert.KernelIdeal.Gen.V_main_arg19, Cert.ReferenceIdeal.Gen.V_main_arg19, (hag c).2.2.2.2.2.2.2.2.2.2.2.2.2.2.2.2.2.2.2.1]
  -- both index maps are constantly zero: the two embedded indices are the same term
  rfl

/-- Window 21 of the kernel and window 20 of the reference stage the same block. -/
theorem b21 : (Cert.KernelIdeal.Gen.iblk m c 21 t : Vec Ideal Cert.KernelIdeal.S128x128 .bf16) = (Cert.ReferenceIdeal.Gen.iblk m' c 20 t' : Vec Ideal Cert.ReferenceIdeal.S128x128 .f32) := by
  have e : @Eq (Cert.KernelIdeal.S128x128.Idx → EReal) (Cert.KernelIdeal.Gen.V m c Cert.KernelIdeal.main_v37)
      (truncf .bf16 (m ((c.tc : Thread Cert.KernelIdeal.nD Cert.KernelIdeal.τ).loc Cert.KernelIdeal.main_arg20) : FVec Ideal Cert.KernelIdeal.S128x128 .f32)
        Cert.KernelIdeal.Facts₀.bitsLt_bf16_f32 : FVec Ideal Cert.KernelIdeal.S128x128 .bf16) := by
    dsimp only [Cert.KernelIdeal.Gen.V, Cert.KernelIdeal.Gen.V0]
    simp only [Cert.KernelIdeal.Gen.hostOps0, Cert.KernelIdeal.Gen.hostOps0_1, Cert.KernelIdeal.Gen.hostOps0_2, List.flatten_cons, List.flatten_nil,
      List.append_nil, List.cons_append, List.nil_append]
    after_results
  unfold Cert.KernelIdeal.Gen.iblk Cert.ReferenceIdeal.Gen.iblk
  funext y
  show Cert.KernelIdeal.Gen.V m c Cert.KernelIdeal.main_v37 (((Cert.KernelIdeal.cfg0.win 21).blk t).view.emb y)
    = Cert.ReferenceIdeal.Gen.V m' c Cert.ReferenceIdeal.main_arg20 (((Cert.ReferenceIdeal.cfg0.win 20).blk t').view.emb y)
  rw [e, Cert.ReferenceIdeal.Gen.V_main_arg20, (hag c).2.2.2.2.2.2.2.2.2.2.2.2.2.2.2.2.2.2.2.2.1]
  -- the format change is the identity at the ideal values, and both index maps are constantly zero
  rfl

/-- Window 22 of the kernel and window 21 of the reference stage the same block. -/
theorem b22 : (Cert.KernelIdeal.Gen.iblk m c 22 t : Vec Ideal Cert.KernelIdeal.S1x128 .f32) = (Cert.ReferenceIdeal.Gen.iblk m' c 21 t' : Vec Ideal Cert.ReferenceIdeal.S1x128 .f32) := by
  unfold Cert.KernelIdeal.Gen.iblk Cert.ReferenceIdeal.Gen.iblk
  funext y
  show Cert.KernelIdeal.Gen.V m c Cert.KernelIdeal.main_arg21 (((Cert.KernelIdeal.cfg0.win 22).blk t).view.emb y)
    = Cert.ReferenceIdeal.Gen.V m' c Cert.ReferenceIdeal.main_arg21 (((Cert.ReferenceIdeal.cfg0.win 21).blk t').view.emb y)
  rw [Cert.KernelIdeal.Gen.V_main_arg21, Cert.ReferenceIdeal.Gen.V_main_arg21, (hag c).2.2.2.2.2.2.2.2.2.2.2.2.2.2.2.2.2.2.2.2.2]
  -- both index maps are constantly zero: the two embedded indices are the same term
  rfl

end Cert.Bridge

end
-- ==== Proof.BlocksFused.lean ====
/-
  The windows through which the kernel stages FUSED parameters: each is, before the region, the
  concatenation along the last axis of two slices of one of the reference's parameter arrays (and a
  change of format, which at the ideal values changes nothing). Read at an index, the left half of a
  fused array is the slice for the vertex's own term, the right half the slice for the neighbours' term.
-/
import proofs.«101555_g2000409237439836_pallaspilot1_247_2_alg».proof.Proof.Gen.KernelIdeal.Frame
import proofs.«101555_g2000409237439836_pallaspilot1_247_2_alg».proof.Proof.Gen.ReferenceIdeal.Frame
import proofs.«101555_g2000409237439836_pallaspilot1_247_2_alg».proof.Proof.Agree
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.ValueIdx Idealize.SL.Sem

section Reading
variable {α : Type}

/-- A slice of a rank-3 array that keeps one plane, cast to a matrix, reads the array in that plane. -/
private theorem plane_read {n0 n1 n2 r : ℕ} (u o : ℕ) (p : (⟨3, ![n0, n1, n2]⟩ : Shape).Idx → α)
    (hs : (⟨3, ![n0, n1, n2]⟩ : Shape).Slices ![u, o, 0] ⟨3, ![1, r, n2]⟩)
    (hc : (⟨3, ![1, r, n2]⟩ : Shape).ShapeCasts ⟨2, ![r, n2]⟩) (k : Fin r) (j : Fin n2)
    (u' : Fin n0) (k' : Fin n1) (hu : u'.val = u) (hk : k'.val = o + k.val) :
    shapeCast ⟨2, ![r, n2]⟩ (extractStridedSlice ⟨3, ![1, r, n2]⟩ ![u, o, 0] p hs) hc (ix2 k j)
      = p (ix3 u' k' j) := by
  rw [shapeCast_1ab_ab_apply]
  exact extractStridedSlice_apply _ p hs _ _ fun a => match a with
    | ⟨0, _⟩ => hu
    | ⟨1, _⟩ => hk
    | ⟨2, _⟩ => (Nat.zero_add _).symm

/-- Two matrices side by side: a column of the left half reads the first. -/
private theorem beside_left {r n N : ℕ} (x₁ x₂ : (⟨2, ![r, n]⟩ : Shape).Idx → α)
    (h : Shape.Concatenates [(⟨2, ![r, n]⟩ : Shape), ⟨2, ![r, n]⟩] ⟨2, ![r, N]⟩ 1) (k : Fin r) (j : Fin n) (hj : j.val < N) :
    concatenate ⟨2, ![r, N]⟩ 1 [⟨⟨2, ![r, n]⟩, x₁⟩, ⟨⟨2, ![r, n]⟩, x₂⟩] h (ix2 k ⟨j.val, hj⟩) = x₁ (ix2 k j) :=
  concatenate_pair_apply_left _ x₁ x₂ h _ rfl _ fun b => match b with
    | ⟨0, _⟩ => rfl
    | ⟨1, _⟩ => rfl

/-- Two matrices side by side: a column of the right half reads the second. -/
private theorem beside_right {r n N : ℕ} (x₁ x₂ : (⟨2, ![r, n]⟩ : Shape).Idx → α)
    (h : Shape.Concatenates [(⟨2, ![r, n]⟩ : Shape), ⟨2, ![r, n]⟩] ⟨2, ![r, N]⟩ 1) (k : Fin r) (j : Fin n) (hj : n + j.val < N) :
    concatenate ⟨2, ![r, N]⟩ 1 [⟨⟨2, ![r, n]⟩, x₁⟩, ⟨⟨2, ![r, n]⟩, x₂⟩] h (ix2 k ⟨n + j.val, hj⟩) = x₂ (ix2 k j) :=
  concatenate_pair_apply_right _ x₁ x₂ h _ rfl rfl _ (fun b => match b with
    | ⟨0, _⟩ => fun _ => rfl
    | ⟨1, _⟩ => fun hb => absurd rfl hb) (Nat.add_comm _ _)

/-- A slice of a rank-4 array that keeps one plane of its second axis, cast to rank 3, reads the array in that plane. -/
private theorem slab_read {n0 n1 r n : ℕ} (u : ℕ) (p : (⟨4, ![n0, n1, r, n]⟩ : Shape).Idx → α)
    (hs : (⟨4, ![n0, n1, r, n]⟩ : Shape).Slices ![0, u, 0, 0] ⟨4, ![n0, 1, r, n]⟩)
    (hc : (⟨4, ![n0, 1, r, n]⟩ : Shape).ShapeCasts ⟨3, ![n0, r, n]⟩) (i : Fin n0) (k : Fin r) (j : Fin n) (u' : Fin n1) (hu : u'.val = u) :
    shapeCast ⟨3, ![n0, r, n]⟩ (extractStridedSlice ⟨4, ![n0, 1, r, n]⟩ ![0, u, 0, 0] p hs) hc (ix3 i k j)
      = p (ix4 i u' k j) := by
  refine (shapeCast_apply _ hc _ (ix4 i (0 : Fin 1) k j) ?_).trans ?_
  · rw [Shape.rowMajor_val_four, Shape.rowMajor_val_three]
    show ((i.val * 1 + 0) * r + k.val) * n + j.val = (i.val * r + k.val) * n + j.val
    rw [Nat.mul_one, Nat.add_zero]
  · exact extractStridedSlice_apply _ p hs _ _ fun a => match a with
      | ⟨0, _⟩ => (Nat.zero_add _).symm
      | ⟨1, _⟩ => hu
      | ⟨2, _⟩ => (Nat.zero_add _).symm
      | ⟨3, _⟩ => (Nat.zero_add _).symm

/-- Two stacks of matrices side by side along the last axis: a column of the left half reads the first. -/
private theorem beside3_left {s r n N : ℕ} (x₁ x₂ : (⟨3, ![s, r, n]⟩ : Shape).Idx → α)
    (h : Shape.Concatenates [(⟨3, ![s, r, n]⟩ : Shape), ⟨3, ![s, r, n]⟩] ⟨3, ![s, r, N]⟩ 2) (i : Fin s) (k : Fin r) (j : Fin n)
    (hj : j.val < N) :
    concatenate ⟨3, ![s, r, N]⟩ 2 [⟨⟨3, ![s, r, n]⟩, x₁⟩, ⟨⟨3, ![s, r, n]⟩, x₂⟩] h (ix3 i k ⟨j.val, hj⟩) = x₁ (ix3 i k j) :=
  concatenate_pair_apply_left _ x₁ x₂ h _ rfl _ fun b => match b with
    | ⟨0, _⟩ => rfl
    | ⟨1, _⟩ => rfl
    | ⟨2, _⟩ => rfl

/-- Two stacks of matrices side by side along the last axis: a column of the right half reads the second. -/
private theorem beside3_right {s r n N : ℕ} (x₁ x₂ : (⟨3, ![s, r, n]⟩ : Shape).Idx → α)
    (h : Shape.Concatenates [(⟨3, ![s, r, n]⟩ : Shape), ⟨3, ![s, r, n]⟩] ⟨3, ![s, r, N]⟩ 2) (i : Fin s) (k : Fin r) (j : Fin n)
    (hj : n + j.val < N) :
    concatenate ⟨3, ![s, r, N]⟩ 2 [⟨⟨3, ![s, r, n]⟩, x₁⟩, ⟨⟨3, ![s, r, n]⟩, x₂⟩] h (ix3 i k ⟨n + j.val, hj⟩) = x₂ (ix3 i k j) :=
  concatenate_pair_apply_right _ x₁ x₂ h _ rfl rfl _ (fun b => match b with
    | ⟨0, _⟩ => fun _ => rfl
    | ⟨1, _⟩ => fun _ => rfl
    | ⟨2, _⟩ => fun hb => absurd rfl hb) (Nat.add_comm _ _)

end Reading

section KernelSide
variable (m : (ℓ : Loc Cert.KernelIdeal.nD Cert.KernelIdeal.τ Cert.KernelIdeal.sig) → Buf (Elt Ideal) ℓ) (c : Dev Cert.KernelIdeal.nD) (t : Fin Cert.KernelIdeal.cfg0.N)

/-- Window 10 of the kernel is its whole array: the block read at `i` is the array read at `i`. -/
private theorem kblk10 (i : Cert.KernelIdeal.S256x512.Idx) :
    (Cert.KernelIdeal.Gen.iblk m c 10 t : Vec Ideal Cert.KernelIdeal.S256x512 .bf16) i
      = (Cert.KernelIdeal.Gen.V m c Cert.KernelIdeal.main_v7 : Cert.KernelIdeal.S256x512.Idx → EReal) i := by
  unfold Cert.KernelIdeal.Gen.iblk
  show (Cert.KernelIdeal.Gen.V m c Cert.KernelIdeal.main_v7 : Cert.KernelIdeal.S256x512.Idx → EReal) (((Cert.KernelIdeal.cfg0.win 10).blk t).view.emb i) = _
  refine congrArg _ (funext fun a => Fin.ext ?_)
  match a with
  | ⟨0, _⟩ =>
    show 0 * 256 + 1 * (i 0).val = (i 0).val
    omega
  | ⟨1, _⟩ =>
    show 0 * 512 + 1 * (i 1).val = (i 1).val
    omega

/-- Window 11 of the kernel is its whole array: the block read at `i` is the array read at `i`. -/
private theorem kblk11 (i : Cert.KernelIdeal.S128x512.Idx) :
    (Cert.KernelIdeal.Gen.iblk m c 11 t : Vec Ideal Cert.KernelIdeal.S128x512 .bf16) i
      = (Cert.KernelIdeal.Gen.V m c Cert.KernelIdeal.main_v13 : Cert.KernelIdeal.S128x512.Idx → EReal) i := by
  unfold Cert.KernelIdeal.Gen.iblk
  show (Cert.KernelIdeal.Gen.V m c Cert.KernelIdeal.main_v13 : Cert.KernelIdeal.S128x512.Idx → EReal) (((Cert.KernelIdeal.cfg0.win 11).blk t).view.emb i) = _
  refine congrArg _ (funext fun a => Fin.ext ?_)
  match a with
  | ⟨0, _⟩ =>
    show 0 * 128 + 1 * (i 0).val = (i 0).val
    omega
  | ⟨1, _⟩ =>
    show 0 * 512 + 1 * (i 1).val = (i 1).val
    omega

/-- Window 12 of the kernel is its whole array: the block read at `i` is the array read at `i`. -/
private theorem kblk12 (i : Cert.KernelIdeal.S1x512.Idx) :
    (Cert.KernelIdeal.Gen.iblk m c 12 t : Vec Ideal Cert.KernelIdeal.S1x512 .f32) i
      = (Cert.KernelIdeal.Gen.V m c Cert.KernelIdeal.main_v18 : Cert.KernelIdeal.S1x512.Idx → EReal) i := by
  unfold Cert.KernelIdeal.Gen.iblk
  show (Cert.KernelIdeal.Gen.V m c Cert.KernelIdeal.main_v18 : Cert.KernelIdeal.S1x512.Idx → EReal) (((Cert.KernelIdeal.cfg0.win 12).blk t).view.emb i) = _
  refine congrArg _ (funext fun a => Fin.ext ?_)
  match a with
  | ⟨0, _⟩ =>
    show 0 * 1 + 1 * (i 0).val = (i 0).val
    omega
  | ⟨1, _⟩ =>
    show 0 * 512 + 1 * (i 1).val = (i 1).val
    omega

/-- Window 13 of the kernel is its whole array: the block read at `i` is the array read at `i`. -/
private theorem kblk13 (i : Cert.KernelIdeal.S9x256x512.Idx) :
    (Cert.KernelIdeal.Gen.iblk m c 13 t : Vec Ideal Cert.KernelIdeal.S9x256x512 .bf16) i
      = (Cert.KernelIdeal.Gen.V m c Cert.KernelIdeal.main_v24 : Cert.KernelIdeal.S9x256x512.Idx → EReal) i := by
  unfold Cert.KernelIdeal.Gen.iblk
  show (Cert.KernelIdeal.Gen.V m c Cert.KernelIdeal.main_v24 : Cert.KernelIdeal.S9x256x512.Idx → EReal) (((Cert.KernelIdeal.cfg0.win 13).blk t).view.emb i) = _
  refine congrArg _ (funext fun a => Fin.ext ?_)
  match a with
  | ⟨0, _⟩ =>
    show 0 * 9 + 1 * (i 0).val = (i 0).val
    omega
  | ⟨1, _⟩ =>
    show 0 * 256 + 1 * (i 1).val = (i 1).val
    omega
  | ⟨2, _⟩ =>
    show 0 * 512 + 1 * (i 2).val = (i 2).val
    omega

/-- Window 14 of the kernel is its whole array: the block read at `i` is the array read at `i`. -/
private theorem kblk14 (i : Cert.KernelIdeal.S9x1x512.Idx) :
    (Cert.KernelIdeal.Gen.iblk m c 14 t : Vec Ideal Cert.KernelIdeal.S9x1x512 .f32) i
      = (Cert.KernelIdeal.Gen.V m c Cert.KernelIdeal.main_v29 : Cert.KernelIdeal.S9x1x512.Idx → EReal) i := by
  unfold Cert.KernelIdeal.Gen.iblk
  show (Cert.KernelIdeal.Gen.V m c Cert.KernelIdeal.main_v29 : Cert.KernelIdeal.S9x1x512.Idx → EReal) (((Cert.KernelIdeal.cfg0.win 14).blk t).view.emb i) = _
  refine congrArg _ (funext fun a => Fin.ext ?_)
  match a with
  | ⟨0, _⟩ =>
    show 0 * 9 + 1 * (i 0).val = (i 0).val
    omega
  | ⟨1, _⟩ =>
    show 0 * 1 + 1 * (i 1).val = (i 1).val
    omega
  | ⟨2, _⟩ =>
    show 0 * 512 + 1 * (i 2).val = (i 2).val
    omega

/-- The array behind the kernel's window 10, read at an index of either half: two planes of one rank-3 array side by
    side (rows 0 to 255 of each plane). -/
private theorem v7_reads :
    (∀ (k : Fin 256) (j : Fin 256), (Cert.KernelIdeal.Gen.V m c Cert.KernelIdeal.main_v7 : Cert.KernelIdeal.S256x512.Idx → EReal) (ix2 k ⟨j.val, by omega⟩)
        = (m ((c.tc : Thread Cert.KernelIdeal.nD Cert.KernelIdeal.τ).loc Cert.KernelIdeal.main_arg10) : Cert.KernelIdeal.S2x384x256.Idx → EReal) (ix3 (0 : Fin 2) ⟨k.val, by omega⟩ j))
    ∧ (∀ (k : Fin 256) (j : Fin 256), (Cert.KernelIdeal.Gen.V m c Cert.KernelIdeal.main_v7 : Cert.KernelIdeal.S256x512.Idx → EReal) (ix2 k ⟨256 + j.val, by omega⟩)
        = (m ((c.tc : Thread Cert.KernelIdeal.nD Cert.KernelIdeal.τ).loc Cert.KernelIdeal.main_arg10) : Cert.KernelIdeal.S2x384x256.Idx → EReal) (ix3 (1 : Fin 2) ⟨k.val, by omega⟩ j)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil,
    List.append_nil, List.cons_append, List.nil_append]
  after_results_simp
  refine ⟨fun k j => ?_, fun k j => ?_⟩
  · refine (truncf_apply (ψ := .bf16) (φ := .f32) _ Cert.KernelIdeal.Gen.bitsLt_bf16_f32 _).trans ?_
    refine (beside_left _ _ Cert.KernelIdeal.Gen.concatenates_S256x256_S256x256_S256x512_d1 k j _).trans ?_
    exact plane_read 0 0 _ Cert.KernelIdeal.Gen.slices_S2x384x256_S1x256x256_0_0_0 Cert.KernelIdeal.Gen.shapeCasts_S1x256x256_S256x256 k j _ _ rfl
      (Nat.zero_add _).symm
  · refine (truncf_apply (ψ := .bf16) (φ := .f32) _ Cert.KernelIdeal.Gen.bitsLt_bf16_f32 _).trans ?_
    refine (beside_right _ _ Cert.KernelIdeal.Gen.concatenates_S256x256_S256x256_S256x512_d1 k j _).trans ?_
    exact plane_read 1 0 _ Cert.KernelIdeal.Gen.slices_S2x384x256_S1x256x256_1_0_0 Cert.KernelIdeal.Gen.shapeCasts_S1x256x256_S256x256 k j _ _ rfl
      (Nat.zero_add _).symm

/-- The array behind the kernel's window 11, read at an index of either half: the same two planes side by side, rows 256
    to 383 of each. -/
private theorem v13_reads :
    (∀ (k : Fin 128) (j : Fin 256), (Cert.KernelIdeal.Gen.V m c Cert.KernelIdeal.main_v13 : Cert.KernelIdeal.S128x512.Idx → EReal) (ix2 k ⟨j.val, by omega⟩)
        = (m ((c.tc : Thread Cert.KernelIdeal.nD Cert.KernelIdeal.τ).loc Cert.KernelIdeal.main_arg10) : Cert.KernelIdeal.S2x384x256.Idx → EReal) (ix3 (0 : Fin 2) ⟨256 + k.val, by omega⟩ j))
    ∧ (∀ (k : Fin 128) (j : Fin 256), (Cert.KernelIdeal.Gen.V m c Cert.KernelIdeal.main_v13 : Cert.KernelIdeal.S128x512.Idx → EReal) (ix2 k ⟨256 + j.val, by omega⟩)
        = (m ((c.tc : Thread Cert.KernelIdeal.nD Cert.KernelIdeal.τ).loc Cert.KernelIdeal.main_arg10) : Cert.KernelIdeal.S2x384x256.Idx → EReal) (ix3 (1 : Fin 2) ⟨256 + k.val, by omega⟩ j)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil,
    List.append_nil, List.cons_append, List.nil_append]
  after_results_simp
  refine ⟨fun k j => ?_, fun k j => ?_⟩
  · refine (truncf_apply (ψ := .bf16) (φ := .f32) _ Cert.KernelIdeal.Gen.bitsLt_bf16_f32 _).trans ?_
    refine (beside_left _ _ Cert.KernelIdeal.Gen.concatenates_S128x256_S128x256_S128x512_d1 k j _).trans ?_
    exact plane_read 0 256 _ Cert.KernelIdeal.Gen.slices_S2x384x256_S1x128x256_0_256_0 Cert.KernelIdeal.Gen.shapeCasts_S1x128x256_S128x256 k j _ _ rfl rfl
  · refine (truncf_apply (ψ := .bf16) (φ := .f32) _ Cert.KernelIdeal.Gen.bitsLt_bf16_f32 _).trans ?_
    refine (beside_right _ _ Cert.KernelIdeal.Gen.concatenates_S128x256_S128x256_S128x512_d1 k j _).trans ?_
    exact plane_read 1 256 _ Cert.KernelIdeal.Gen.slices_S2x384x256_S1x128x256_1_256_0 Cert.KernelIdeal.Gen.shapeCasts_S1x128x256_S128x256 k j _ _ rfl rfl

/-- The array behind the kernel's window 12, read at an index of either half: the two rows of a two-row array side by side. -/
private theorem v18_reads :
    (∀ (j : Fin 256), (Cert.KernelIdeal.Gen.V m c Cert.KernelIdeal.main_v18 : Cert.KernelIdeal.S1x512.Idx → EReal) (ix2 (0 : Fin 1) ⟨j.val, by omega⟩)
        = (m ((c.tc : Thread Cert.KernelIdeal.nD Cert.KernelIdeal.τ).loc Cert.KernelIdeal.main_arg11) : Cert.KernelIdeal.S2x1x256.Idx → EReal) (ix3 (0 : Fin 2) (0 : Fin 1) j))
    ∧ (∀ (j : Fin 256), (Cert.KernelIdeal.Gen.V m c Cert.KernelIdeal.main_v18 : Cert.KernelIdeal.S1x512.Idx → EReal) (ix2 (0 : Fin 1) ⟨256 + j.val, by omega⟩)
        = (m ((c.tc : Thread Cert.KernelIdeal.nD Cert.KernelIdeal.τ).loc Cert.KernelIdeal.main_arg11) : Cert.KernelIdeal.S2x1x256.Idx → EReal) (ix3 (1 : Fin 2) (0 : Fin 1) j)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil,
    List.append_nil, List.cons_append, List.nil_append]
  after_results_simp
  refine ⟨fun j => ?_, fun j => ?_⟩
  · refine (beside_left _ _ Cert.KernelIdeal.Gen.concatenates_S1x256_S1x256_S1x512_d1 (0 : Fin 1) j _).trans ?_
    exact plane_read 0 0 _ Cert.KernelIdeal.Gen.slices_S2x1x256_S1x1x256_0_0_0 Cert.KernelIdeal.Gen.shapeCasts_S1x1x256_S1x256 (0 : Fin 1) j _ _ rfl rfl
  · refine (beside_right _ _ Cert.KernelIdeal.Gen.concatenates_S1x256_S1x256_S1x512_d1 (0 : Fin 1) j _).trans ?_
    exact plane_read 1 0 _ Cert.KernelIdeal.Gen.slices_S2x1x256_S1x1x256_1_0_0 Cert.KernelIdeal.Gen.shapeCasts_S1x1x256_S1x256 (0 : Fin 1) j _ _ rfl rfl

/-- The array behind the kernel's window 13, read at an index of either half: in each of the nine slabs, the two planes
    of a rank-4 array side by side. -/
private theorem v24_reads :
    (∀ (i : Fin 9) (k j : Fin 256), (Cert.KernelIdeal.Gen.V m c Cert.KernelIdeal.main_v24 : Cert.KernelIdeal.S9x256x512.Idx → EReal) (ix3 i k ⟨j.val, by omega⟩)
        = (m ((c.tc : Thread Cert.KernelIdeal.nD Cert.KernelIdeal.τ).loc Cert.KernelIdeal.main_arg12) : Cert.KernelIdeal.S9x2x256x256.Idx → EReal) (ix4 i (0 : Fin 2) k j))
    ∧ (∀ (i : Fin 9) (k j : Fin 256), (Cert.KernelIdeal.Gen.V m c Cert.KernelIdeal.main_v24 : Cert.KernelIdeal.S9x256x512.Idx → EReal) (ix3 i k ⟨256 + j.val, by omega⟩)
        = (m ((c.tc : Thread Cert.KernelIdeal.nD Cert.KernelIdeal.τ).loc Cert.KernelIdeal.main_arg12) : Cert.KernelIdeal.S9x2x256x256.Idx → EReal) (ix4 i (1 : Fin 2) k j)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil,
    List.append_nil, List.cons_append, List.nil_append]
  after_results_simp
  refine ⟨fun i k j => ?_, fun i k j => ?_⟩
  · refine (truncf_apply (ψ := .bf16) (φ := .f32) _ Cert.KernelIdeal.Gen.bitsLt_bf16_f32 _).trans ?_
    refine (beside3_left _ _ Cert.KernelIdeal.Gen.concatenates_S9x256x256_S9x256x256_S9x256x512_d2 i k j _).trans ?_
    exact slab_read 0 _ Cert.KernelIdeal.Gen.slices_S9x2x256x256_S9x1x256x256_0_0_0_0 Cert.KernelIdeal.Gen.shapeCasts_S9x1x256x256_S9x256x256 i k j _ rfl
  · refine (truncf_apply (ψ := .bf16) (φ := .f32) _ Cert.KernelIdeal.Gen.bitsLt_bf16_f32 _).trans ?_
    refine (beside3_right _ _ Cert.KernelIdeal.Gen.concatenates_S9x256x256_S9x256x256_S9x256x512_d2 i k j _).trans ?_
    exact slab_read 1 _ Cert.KernelIdeal.Gen.slices_S9x2x256x256_S9x1x256x256_0_1_0_0 Cert.KernelIdeal.Gen.shapeCasts_S9x1x256x256_S9x256x256 i k j _ rfl

/-- The array behind the kernel's window 14, read at an index of either half: in each of the nine slabs, the two rows side
    by side. -/
private theorem v29_reads :
    (∀ (i : Fin 9) (j : Fin 256), (Cert.KernelIdeal.Gen.V m c Cert.KernelIdeal.main_v29 : Cert.KernelIdeal.S9x1x512.Idx → EReal) (ix3 i (0 : Fin 1) ⟨j.val, by omega⟩)
        = (m ((c.tc : Thread Cert.KernelIdeal.nD Cert.KernelIdeal.τ).loc Cert.KernelIdeal.main_arg13) : Cert.KernelIdeal.S9x2x1x256.Idx → EReal) (ix4 i (0 : Fin 2) (0 : Fin 1) j))
    ∧ (∀ (i : Fin 9) (j : Fin 256), (Cert.KernelIdeal.Gen.V m c Cert.KernelIdeal.main_v29 : Cert.KernelIdeal.S9x1x512.Idx → EReal) (ix3 i (0 : Fin 1) ⟨256 + j.val, by omega⟩)
        = (m ((c.tc : Thread Cert.KernelIdeal.nD Cert.KernelIdeal.τ).loc Cert.KernelIdeal.main_arg13) : Cert.KernelIdeal.S9x2x1x256.Idx → EReal) (ix4 i (1 : Fin 2) (0 : Fin 1) j)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil,
    List.append_nil, List.cons_append, List.nil_append]
  after_results_simp
  refine ⟨fun i j => ?_, fun i j => ?_⟩
  · refine (beside3_left _ _ Cert.KernelIdeal.Gen.concatenates_S9x1x256_S9x1x256_S9x1x512_d2 i (0 : Fin 1) j _).trans ?_
    exact slab_read 0 _ Cert.KernelIdeal.Gen.slices_S9x2x1x256_S9x1x1x256_0_0_0_0 Cert.KernelIdeal.Gen.shapeCasts_S9x1x1x256_S9x1x256 i (0 : Fin 1) j _ rfl
  · refine (beside3_right _ _ Cert.KernelIdeal.Gen.concatenates_S9x1x256_S9x1x256_S9x1x512_d2 i (0 : Fin 1) j _).trans ?_
    exact slab_read 1 _ Cert.KernelIdeal.Gen.slices_S9x2x1x256_S9x1x1x256_0_1_0_0 Cert.KernelIdeal.Gen.shapeCasts_S9x1x1x256_S9x1x256 i (0 : Fin 1) j _ rfl

end KernelSide

section ReferenceSide
variable (m' : (ℓ : Loc Cert.ReferenceIdeal.nD Cert.ReferenceIdeal.τ Cert.ReferenceIdeal.sig) → Buf (Elt Ideal) ℓ) (c : Dev Cert.ReferenceIdeal.nD) (t' : Fin Cert.ReferenceIdeal.cfg0.N)

/-- Window 10 of the reference is its whole array: the block read at `i` is the array read at `i`. -/
private theorem rblk10 (i : Cert.ReferenceIdeal.S2x384x256.Idx) :
    (Cert.ReferenceIdeal.Gen.iblk m' c 10 t' : Vec Ideal Cert.ReferenceIdeal.S2x384x256 .f32) i
      = (Cert.ReferenceIdeal.Gen.V m' c Cert.ReferenceIdeal.main_arg10 : Cert.ReferenceIdeal.S2x384x256.Idx → EReal) i := by
  unfold Cert.ReferenceIdeal.Gen.iblk
  show (Cert.ReferenceIdeal.Gen.V m' c Cert.ReferenceIdeal.main_arg10 : Cert.ReferenceIdeal.S2x384x256.Idx → EReal) (((Cert.ReferenceIdeal.cfg0.win 10).blk t').view.emb i) = _
  refine congrArg _ (funext fun a => Fin.ext ?_)
  match a with
  | ⟨0, _⟩ =>
    show 0 * 2 + 1 * (i 0).val = (i 0).val
    omega
  | ⟨1, _⟩ =>
    show 0 * 384 + 1 * (i 1).val = (i 1).val
    omega
  | ⟨2, _⟩ =>
    show 0 * 256 + 1 * (i 2).val = (i 2).val
    omega

/-- Window 11 of the reference is its whole array: the block read at `i` is the array read at `i`. -/
private theorem rblk11 (i : Cert.ReferenceIdeal.S2x1x256.Idx) :
    (Cert.ReferenceIdeal.Gen.iblk m' c 11 t' : Vec Ideal Cert.ReferenceIdeal.S2x1x256 .f32) i
      = (Cert.ReferenceIdeal.Gen.V m' c Cert.ReferenceIdeal.main_arg11 : Cert.ReferenceIdeal.S2x1x256.Idx → EReal) i := by
  unfold Cert.ReferenceIdeal.Gen.iblk
  show (Cert.ReferenceIdeal.Gen.V m' c Cert.ReferenceIdeal.main_arg11 : Cert.ReferenceIdeal.S2x1x256.Idx → EReal) (((Cert.ReferenceIdeal.cfg0.win 11).blk t').view.emb i) = _
  refine congrArg _ (funext fun a => Fin.ext ?_)
  match a with
  | ⟨0, _⟩ =>
    show 0 * 2 + 1 * (i 0).val = (i 0).val
    omega
  | ⟨1, _⟩ =>
    show 0 * 1 + 1 * (i 1).val = (i 1).val
    omega
  | ⟨2, _⟩ =>
    show 0 * 256 + 1 * (i 2).val = (i 2).val
    omega

/-- Window 12 of the reference is its whole array: the block read at `i` is the array read at `i`. -/
private theorem rblk12 (i : Cert.ReferenceIdeal.S9x2x256x256.Idx) :
    (Cert.ReferenceIdeal.Gen.iblk m' c 12 t' : Vec Ideal Cert.ReferenceIdeal.S9x2x256x256 .f32) i
      = (Cert.ReferenceIdeal.Gen.V m' c Cert.ReferenceIdeal.main_arg12 : Cert.ReferenceIdeal.S9x2x256x256.Idx → EReal) i := by
  unfold Cert.ReferenceIdeal.Gen.iblk
  show (Cert.ReferenceIdeal.Gen.V m' c Cert.ReferenceIdeal.main_arg12 : Cert.ReferenceIdeal.S9x2x256x256.Idx → EReal) (((Cert.ReferenceIdeal.cfg0.win 12).blk t').view.emb i) = _
  refine congrArg _ (funext fun a => Fin.ext ?_)
  match a with
  | ⟨0, _⟩ =>
    show 0 * 9 + 1 * (i 0).val = (i 0).val
    omega
  | ⟨1, _⟩ =>
    show 0 * 2 + 1 * (i 1).val = (i 1).val
    omega
  | ⟨2, _⟩ =>
    show 0 * 256 + 1 * (i 2).val = (i 2).val
    omega
  | ⟨3, _⟩ =>
    show 0 * 256 + 1 * (i 3).val = (i 3).val
    omega

/-- Window 13 of the reference is its whole array: the block read at `i` is the array read at `i`. -/
private theorem rblk13 (i : Cert.ReferenceIdeal.S9x2x1x256.Idx) :
    (Cert.ReferenceIdeal.Gen.iblk m' c 13 t' : Vec Ideal Cert.ReferenceIdeal.S9x2x1x256 .f32) i
      = (Cert.ReferenceIdeal.Gen.V m' c Cert.ReferenceIdeal.main_arg13 : Cert.ReferenceIdeal.S9x2x1x256.Idx → EReal) i := by
  unfold Cert.ReferenceIdeal.Gen.iblk
  show (Cert.ReferenceIdeal.Gen.V m' c Cert.ReferenceIdeal.main_arg13 : Cert.ReferenceIdeal.S9x2x1x256.Idx → EReal) (((Cert.ReferenceIdeal.cfg0.win 13).blk t').view.emb i) = _
  refine congrArg _ (funext fun a => Fin.ext ?_)
  match a with
  | ⟨0, _⟩ =>
    show 0 * 9 + 1 * (i 0).val = (i 0).val
    omega
  | ⟨1, _⟩ =>
    show 0 * 2 + 1 * (i 1).val = (i 1).val
    omega
  | ⟨2, _⟩ =>
    show 0 * 1 + 1 * (i 2).val = (i 2).val
    omega
  | ⟨3, _⟩ =>
    show 0 * 256 + 1 * (i 3).val = (i 3).val
    omega

end ReferenceSide

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (hag : Agree m m')
  (c : Dev Cert.KernelIdeal.nD) (t : Fin Cert.KernelIdeal.cfg0.N) (t' : Fin Cert.ReferenceIdeal.cfg0.N) (ht : t.val = t'.val)
include hag

/-- The reference's window 10 is the whole argument array, which holds what the kernel's argument array holds. -/
private theorem r10 (i : Cert.ReferenceIdeal.S2x384x256.Idx) :
    (Cert.ReferenceIdeal.Gen.iblk m' c 10 t' : Vec Ideal Cert.ReferenceIdeal.S2x384x256 .f32) i = (m ((c.tc : Thread Cert.KernelIdeal.nD Cert.KernelIdeal.τ).loc Cert.KernelIdeal.main_arg10) : Cert.KernelIdeal.S2x384x256.Idx → EReal) i := by
  have h : (Cert.ReferenceIdeal.Gen.V m' c Cert.ReferenceIdeal.main_arg10 : Cert.ReferenceIdeal.S2x384x256.Idx → EReal) = (m ((c.tc : Thread Cert.KernelIdeal.nD Cert.KernelIdeal.τ).loc Cert.KernelIdeal.main_arg10) : Cert.KernelIdeal.S2x384x256.Idx → EReal) :=
    (Cert.ReferenceIdeal.Gen.V_main_arg10 m' c).trans (hag c).2.2.2.2.2.2.2.2.2.2.1
  exact (rblk10 m' c t' i).trans (congrFun h i)

/-- The reference's window 11 is the whole argument array, which holds what the kernel's argument array holds. -/
private theorem r11 (i : Cert.ReferenceIdeal.S2x1x256.Idx) :
    (Cert.ReferenceIdeal.Gen.iblk m' c 11 t' : Vec Ideal Cert.ReferenceIdeal.S2x1x256 .f32) i = (m ((c.tc : Thread Cert.KernelIdeal.nD Cert.KernelIdeal.τ).loc Cert.KernelIdeal.main_arg11) : Cert.KernelIdeal.S2x1x256.Idx → EReal) i := by
  have h : (Cert.ReferenceIdeal.Gen.V m' c Cert.ReferenceIdeal.main_arg11 : Cert.ReferenceIdeal.S2x1x256.Idx → EReal) = (m ((c.tc : Thread Cert.KernelIdeal.nD Cert.KernelIdeal.τ).loc Cert.KernelIdeal.main_arg11) : Cert.KernelIdeal.S2x1x256.Idx → EReal) :=
    (Cert.ReferenceIdeal.Gen.V_main_arg11 m' c).trans (hag c).2.2.2.2.2.2.2.2.2.2.2.1
  exact (rblk11 m' c t' i).trans (congrFun h i)

/-- The reference's window 12 is the whole argument array, which holds what the kernel's argument array holds. -/
private theorem r12 (i : Cert.ReferenceIdeal.S9x2x256x256.Idx) :
    (Cert.ReferenceIdeal.Gen.iblk m' c 12 t' : Vec Ideal Cert.ReferenceIdeal.S9x2x256x256 .f32) i = (m ((c.tc : Thread Cert.KernelIdeal.nD Cert.KernelIdeal.τ).loc Cert.KernelIdeal.main_arg12) : Cert.KernelIdeal.S9x2x256x256.Idx → EReal) i := by
  have h : (Cert.ReferenceIdeal.Gen.V m' c Cert.ReferenceIdeal.main_arg12 : Cert.ReferenceIdeal.S9x2x256x256.Idx → EReal) = (m ((c.tc : Thread Cert.KernelIdeal.nD Cert.KernelIdeal.τ).loc Cert.KernelIdeal.main_arg12) : Cert.KernelIdeal.S9x2x256x256.Idx → EReal) :=
    (Cert.ReferenceIdeal.Gen.V_main_arg12 m' c).trans (hag c).2.2.2.2.2.2.2.2.2.2.2.2.1
  exact (rblk12 m' c t' i).trans (congrFun h i)

/-- The reference's window 13 is the whole argument array, which holds what the kernel's argument array holds. -/
private theorem r13 (i : Cert.ReferenceIdeal.S9x2x1x256.Idx) :
    (Cert.ReferenceIdeal.Gen.iblk m' c 13 t' : Vec Ideal Cert.ReferenceIdeal.S9x2x1x256 .f32) i = (m ((c.tc : Thread Cert.KernelIdeal.nD Cert.KernelIdeal.τ).loc Cert.KernelIdeal.main_arg13) : Cert.KernelIdeal.S9x2x1x256.Idx → EReal) i := by
  have h : (Cert.ReferenceIdeal.Gen.V m' c Cert.ReferenceIdeal.main_arg13 : Cert.ReferenceIdeal.S9x2x1x256.Idx → EReal) = (m ((c.tc : Thread Cert.KernelIdeal.nD Cert.KernelIdeal.τ).loc Cert.KernelIdeal.main_arg13) : Cert.KernelIdeal.S9x2x1x256.Idx → EReal) :=
    (Cert.ReferenceIdeal.Gen.V_main_arg13 m' c).trans (hag c).2.2.2.2.2.2.2.2.2.2.2.2.2.1
  exact (rblk13 m' c t' i).trans (congrFun h i)

/-- The features' fused matrix of the first convolution: left half is the own-term matrix's first 256 rows, -/
theorem b10_l (k : Fin 256) (j : Fin 256) :
    (Cert.KernelIdeal.Gen.iblk m c 10 t : Vec Ideal Cert.KernelIdeal.S256x512 .bf16) (ix2 k ⟨j.val, by omega⟩)
      = (Cert.ReferenceIdeal.Gen.iblk m' c 10 t' : Vec Ideal Cert.ReferenceIdeal.S2x384x256 .f32) (ix3 (0 : Fin 2) ⟨k.val, by omega⟩ j) :=
  ((kblk10 m c t _).trans ((v7_reads m c).1 k j)).trans (r10 m m' hag c t' _).symm

/-- right half the neighbours'-term matrix's first 256 rows. -/
theorem b10_r (k : Fin 256) (j : Fin 256) :
    (Cert.KernelIdeal.Gen.iblk m c 10 t : Vec Ideal Cert.KernelIdeal.S256x512 .bf16) (ix2 k ⟨256 + j.val, by omega⟩)
      = (Cert.ReferenceIdeal.Gen.iblk m' c 10 t' : Vec Ideal Cert.ReferenceIdeal.S2x384x256 .f32) (ix3 (1 : Fin 2) ⟨k.val, by omega⟩ j) :=
  ((kblk10 m c t _).trans ((v7_reads m c).2 k j)).trans (r10 m m' hag c t' _).symm

/-- The point coordinates' fused matrix: left half is the own-term matrix's rows 256 to 383, -/
theorem b11_l (k : Fin 128) (j : Fin 256) :
    (Cert.KernelIdeal.Gen.iblk m c 11 t : Vec Ideal Cert.KernelIdeal.S128x512 .bf16) (ix2 k ⟨j.val, by omega⟩)
      = (Cert.ReferenceIdeal.Gen.iblk m' c 10 t' : Vec Ideal Cert.ReferenceIdeal.S2x384x256 .f32) (ix3 (0 : Fin 2) ⟨256 + k.val, by omega⟩ j) :=
  ((kblk11 m c t _).trans ((v13_reads m c).1 k j)).trans (r10 m m' hag c t' _).symm

/-- right half the neighbours'-term matrix's rows 256 to 383. -/
theorem b11_r (k : Fin 128) (j : Fin 256) :
    (Cert.KernelIdeal.Gen.iblk m c 11 t : Vec Ideal Cert.KernelIdeal.S128x512 .bf16) (ix2 k ⟨256 + j.val, by omega⟩)
      = (Cert.ReferenceIdeal.Gen.iblk m' c 10 t' : Vec Ideal Cert.ReferenceIdeal.S2x384x256 .f32) (ix3 (1 : Fin 2) ⟨256 + k.val, by omega⟩ j) :=
  ((kblk11 m c t _).trans ((v13_reads m c).2 k j)).trans (r10 m m' hag c t' _).symm

/-- The first convolution's fused bias: left half the own-term bias, -/
theorem b12_l (j : Fin 256) :
    (Cert.KernelIdeal.Gen.iblk m c 12 t : Vec Ideal Cert.KernelIdeal.S1x512 .f32) (ix2 (0 : Fin 1) ⟨j.val, by omega⟩)
      = (Cert.ReferenceIdeal.Gen.iblk m' c 11 t' : Vec Ideal Cert.ReferenceIdeal.S2x1x256 .f32) (ix3 (0 : Fin 2) (0 : Fin 1) j) :=
  ((kblk12 m c t _).trans ((v18_reads m c).1 j)).trans (r11 m m' hag c t' _).symm

/-- right half the neighbours'-term bias. -/
theorem b12_r (j : Fin 256) :
    (Cert.KernelIdeal.Gen.iblk m c 12 t : Vec Ideal Cert.KernelIdeal.S1x512 .f32) (ix2 (0 : Fin 1) ⟨256 + j.val, by omega⟩)
      = (Cert.ReferenceIdeal.Gen.iblk m' c 11 t' : Vec Ideal Cert.ReferenceIdeal.S2x1x256 .f32) (ix3 (1 : Fin 2) (0 : Fin 1) j) :=
  ((kblk12 m c t _).trans ((v18_reads m c).2 j)).trans (r11 m m' hag c t' _).symm

/-- The later convolutions' stacked fused matrices: in slab `i`, left half the own-term matrix, -/
theorem b13_l (i : Fin 9) (k j : Fin 256) :
    (Cert.KernelIdeal.Gen.iblk m c 13 t : Vec Ideal Cert.KernelIdeal.S9x256x512 .bf16) (ix3 i k ⟨j.val, by omega⟩)
      = (Cert.ReferenceIdeal.Gen.iblk m' c 12 t' : Vec Ideal Cert.ReferenceIdeal.S9x2x256x256 .f32) (ix4 i (0 : Fin 2) k j) :=
  ((kblk13 m c t _).trans ((v24_reads m c).1 i k j)).trans (r12 m m' hag c t' _).symm

/-- right half the neighbours'-term matrix. -/
theorem b13_r (i : Fin 9) (k j : Fin 256) :
    (Cert.KernelIdeal.Gen.iblk m c 13 t : Vec Ideal Cert.KernelIdeal.S9x256x512 .bf16) (ix3 i k ⟨256 + j.val, by omega⟩)
      = (Cert.ReferenceIdeal.Gen.iblk m' c 12 t' : Vec Ideal Cert.ReferenceIdeal.S9x2x256x256 .f32) (ix4 i (1 : Fin 2) k j) :=
  ((kblk13 m c t _).trans ((v24_reads m c).2 i k j)).trans (r12 m m' hag c t' _).symm

/-- The later convolutions' stacked fused biases: in slab `i`, left half the own-term bias, -/
theorem b14_l (i : Fin 9) (j : Fin 256) :
    (Cert.KernelIdeal.Gen.iblk m c 14 t : Vec Ideal Cert.KernelIdeal.S9x1x512 .f32) (ix3 i (0 : Fin 1) ⟨j.val, by omega⟩)
      = (Cert.ReferenceIdeal.Gen.iblk m' c 13 t' : Vec Ideal Cert.ReferenceIdeal.S9x2x1x256 .f32) (ix4 i (0 : Fin 2) (0 : Fin 1) j) :=
  ((kblk14 m c t _).trans ((v29_reads m c).1 i j)).trans (r13 m m' hag c t' _).symm

/-- right half the neighbours'-term bias. -/
theorem b14_r (i : Fin 9) (j : Fin 256) :
    (Cert.KernelIdeal.Gen.iblk m c 14 t : Vec Ideal Cert.KernelIdeal.S9x1x512 .f32) (ix3 i (0 : Fin 1) ⟨256 + j.val, by omega⟩)
      = (Cert.ReferenceIdeal.Gen.iblk m' c 13 t' : Vec Ideal Cert.ReferenceIdeal.S9x2x1x256 .f32) (ix4 i (1 : Fin 2) (0 : Fin 1) j) :=
  ((kblk14 m c t _).trans ((v29_reads m c).2 i j)).trans (r13 m m' hag c t' _).symm

end Cert.Bridge

end
-- ==== Proof.GK.lean ====
/-
  The idealized kernel's output array after the region as one function of the staged blocks, and what the host lines
  after the region make of it.
-/
import proofs.«101555_g2000409237439836_pallaspilot1_247_2_alg».proof.Proof.Gen.KernelIdeal.Frame
import Idealize.ShloMosaic.Lib.ValueIdx

set_option maxRecDepth 16384

noncomputable section

namespace Cert.KernelIdeal.Arr

open Cert.KernelIdeal Cert.KernelIdeal.Gen Idealize.ShloMosaic Idealize.ShloMosaic.ValueIdx Idealize.ShloMosaic.TcCoe Idealize.SL.Sem

variable {F : FTy → Type} [FloatOps F]
variable (m : (ℓ : Loc nD τ sig) → Buf (Elt F) ℓ)

/-- The grid point whose block holds array index `i`: the leading coordinate (one mesh per point). -/
def pt (i : S16x1024x128.Idx) : Fin cfg0.N := ⟨(i 0).val, (i 0).isLt⟩

/-- The output array after the region, index by index: at `(b, v, l)` what point `b`'s body leaves at `(0, v, l)` of its
    output block, computed from the blocks the windows stage at point `b`. -/
def G (c : Dev nD) : S16x1024x128.Idx → Elt F .f32 := fun i =>
  out0_23 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i)) (iblk m c 13 (pt i)) (iblk m c 14 (pt i)) (iblk m c 15 (pt i)) (iblk m c 16 (pt i)) (iblk m c 17 (pt i)) (iblk m c 18 (pt i)) (iblk m c 19 (pt i)) (iblk m c 20 (pt i)) (iblk m c 21 (pt i)) (iblk m c 22 (pt i)) (ix3 (0 : Fin 1) (i 1) (i 2))

/-- What the host lines after the region make of that array: the first three lanes, flattened over (mesh, vertex). -/
def tail (a : S16x1024x128.Idx → Elt F .f32) : S16384x3.Idx → Elt F .f32 :=
  shapeCast S16384x3 (extractStridedSlice S16x1024x3 ![0, 0, 0] a slices_S16x1024x128_S16x1024x3_0_0_0) shapeCasts_S16x1024x3_S16384x3

end Cert.KernelIdeal.Arr

end
-- ==== Proof.GR.lean ====
/-
  The idealized reference's output array after the region as one function of the staged blocks, and what the host lines
  after the region make of it.
-/
import proofs.«101555_g2000409237439836_pallaspilot1_247_2_alg».proof.Proof.Gen.ReferenceIdeal.Frame
import Idealize.ShloMosaic.Lib.ValueIdx

set_option maxRecDepth 16384

noncomputable section

namespace Cert.ReferenceIdeal.Arr

open Cert.ReferenceIdeal Cert.ReferenceIdeal.Gen Idealize.ShloMosaic Idealize.ShloMosaic.ValueIdx Idealize.ShloMosaic.TcCoe Idealize.SL.Sem

variable {F : FTy → Type} [FloatOps F]
variable (m : (ℓ : Loc nD τ sig) → Buf (Elt F) ℓ)

/-- The grid point whose block holds array index `i`: the leading coordinate (one mesh per point). -/
def pt (i : S16x1024x128.Idx) : Fin cfg0.N := ⟨(i 0).val, (i 0).isLt⟩

/-- The output array after the region, index by index: at `(b, v, l)` what point `b`'s body leaves at `(0, v, l)` of its
    output block, computed from the blocks the windows stage at point `b`. -/
def G (c : Dev nD) : S16x1024x128.Idx → Elt F .f32 := fun i =>
  out0_22 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i)) (iblk m c 13 (pt i)) (iblk m c 14 (pt i)) (iblk m c 15 (pt i)) (iblk m c 16 (pt i)) (iblk m c 17 (pt i)) (iblk m c 18 (pt i)) (iblk m c 19 (pt i)) (iblk m c 20 (pt i)) (iblk m c 21 (pt i)) (ix3 (0 : Fin 1) (i 1) (i 2))

/-- What the host lines after the region make of that array: the first three lanes, flattened over (mesh, vertex). -/
def tail (a : S16x1024x128.Idx → Elt F .f32) : S16384x3.Idx → Elt F .f32 :=
  shapeCast S16384x3 (extractStridedSlice S16x1024x3 ![0, 0, 0] a slices_S16x1024x128_S16x1024x3_0_0_0) shapeCasts_S16x1024x3_S16384x3

end Cert.ReferenceIdeal.Arr

end
-- ==== Proof.Point.lean ====
/-
  At every grid point the two bodies write back the same block, and so the two output arrays are one array.

  The frame names each body's result as the contents its one covering store leaves, over loads of the staged
  blocks; a load of a whole block reads the block and the one covering store leaves its payload, so the result is
  the body function of the blocks. The blocks are related as the body equality asks (the common windows stage equal
  blocks, the fused arrays' halves are the separate parameters), hence the two results agree at every point.
-/
import proofs.«101555_g2000409237439836_pallaspilot1_247_2_alg».proof.Proof.NetEq
import proofs.«101555_g2000409237439836_pallaspilot1_247_2_alg».proof.Proof.BlocksEq
import proofs.«101555_g2000409237439836_pallaspilot1_247_2_alg».proof.Proof.BlocksFused
import proofs.«101555_g2000409237439836_pallaspilot1_247_2_alg».proof.Proof.GK
import proofs.«101555_g2000409237439836_pallaspilot1_247_2_alg».proof.Proof.GR

set_option maxRecDepth 16384

noncomputable section

namespace Cert.Bridge

open Idealize.ShloMosaic Idealize.ShloMosaic.ValueIdx Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

/-- The kernel's result at a point is its body function of the staged blocks. -/
theorem outK_net (x0 : Vec Ideal Cert.KernelIdeal.S1x1024x128 .bf16) (x1 : Vec Ideal Cert.KernelIdeal.S1x1024x1024 .f32) (x2 : Vec Ideal Cert.KernelIdeal.S128x512 .bf16) (x3 : Vec Ideal Cert.KernelIdeal.S1x512 .f32) (x4 : Vec Ideal Cert.KernelIdeal.S512x512 .bf16) (x5 : Vec Ideal Cert.KernelIdeal.S1x512 .f32) (x6 : Vec Ideal Cert.KernelIdeal.S512x256 .bf16) (x7 : Vec Ideal Cert.KernelIdeal.S1x256 .f32) (x8 : Vec Ideal Cert.KernelIdeal.S256x256 .bf16) (x9 : Vec Ideal Cert.KernelIdeal.S1x256 .f32) (x10 : Vec Ideal Cert.KernelIdeal.S256x512 .bf16) (x11 : Vec Ideal Cert.KernelIdeal.S128x512 .bf16) (x12 : Vec Ideal Cert.KernelIdeal.S1x512 .f32) (x13 : Vec Ideal Cert.KernelIdeal.S9x256x512 .bf16) (x14 : Vec Ideal Cert.KernelIdeal.S9x1x512 .f32) (x15 : Vec Ideal Cert.KernelIdeal.S256x128 .bf16) (x16 : Vec Ideal Cert.KernelIdeal.S1x128 .f32) (x17 : Vec Ideal Cert.KernelIdeal.S128x128 .bf16) (x18 : Vec Ideal Cert.KernelIdeal.S1x128 .f32) (x19 : Vec Ideal Cert.KernelIdeal.S128x128 .bf16) (x20 : Vec Ideal Cert.KernelIdeal.S1x128 .f32) (x21 : Vec Ideal Cert.KernelIdeal.S128x128 .bf16) (x22 : Vec Ideal Cert.KernelIdeal.S1x128 .f32) :
    Cert.KernelIdeal.Gen.out0_23 x0 x1 x2 x3 x4 x5 x6 x7 x8 x9 x10 x11 x12 x13 x14 x15 x16 x17 x18 x19 x20 x21 x22 = Cert.KernelIdeal.Net.net x0 x1 x2 x3 x4 x5 x6 x7 x8 x9 x10 x11 x12 x13 x14 x15 x16 x17 x18 x19 x20 x21 x22 := by
  rw [Cert.KernelIdeal.Net.out_eq, View.canon_unit_zero hz3]
  simp only [View.ld_unit_zero (S := Cert.KernelIdeal.S1x1024x128) hz3, View.ld_unit_zero (S := Cert.KernelIdeal.S1x1024x1024) hz3, View.ld_unit_zero (S := Cert.KernelIdeal.S128x512) hz2, View.ld_unit_zero (S := Cert.KernelIdeal.S1x512) hz2, View.ld_unit_zero (S := Cert.KernelIdeal.S512x512) hz2, View.ld_unit_zero (S := Cert.KernelIdeal.S512x256) hz2, View.ld_unit_zero (S := Cert.KernelIdeal.S1x256) hz2, View.ld_unit_zero (S := Cert.KernelIdeal.S256x256) hz2, View.ld_unit_zero (S := Cert.KernelIdeal.S256x512) hz2, View.ld_unit_zero (S := Cert.KernelIdeal.S256x128) hz2, View.ld_unit_zero (S := Cert.KernelIdeal.S1x128) hz2, View.ld_unit_zero (S := Cert.KernelIdeal.S128x128) hz2]

/-- The reference's result at a point is its body function of the staged blocks. -/
theorem outR_net (y0 : Vec Ideal Cert.ReferenceIdeal.S1x1024x128 .f32) (y1 : Vec Ideal Cert.ReferenceIdeal.S1x1024x1024 .f32) (y2 : Vec Ideal Cert.ReferenceIdeal.S128x512 .f32) (y3 : Vec Ideal Cert.ReferenceIdeal.S1x512 .f32) (y4 : Vec Ideal Cert.ReferenceIdeal.S512x512 .f32) (y5 : Vec Ideal Cert.ReferenceIdeal.S1x512 .f32) (y6 : Vec Ideal Cert.ReferenceIdeal.S512x256 .f32) (y7 : Vec Ideal Cert.ReferenceIdeal.S1x256 .f32) (y8 : Vec Ideal Cert.ReferenceIdeal.S256x256 .f32) (y9 : Vec Ideal Cert.ReferenceIdeal.S1x256 .f32) (y10 : Vec Ideal Cert.ReferenceIdeal.S2x384x256 .f32) (y11 : Vec Ideal Cert.ReferenceIdeal.S2x1x256 .f32) (y12 : Vec Ideal Cert.ReferenceIdeal.S9x2x256x256 .f32) (y13 : Vec Ideal Cert.ReferenceIdeal.S9x2x1x256 .f32) (y14 : Vec Ideal Cert.ReferenceIdeal.S256x128 .f32) (y15 : Vec Ideal Cert.ReferenceIdeal.S1x128 .f32) (y16 : Vec Ideal Cert.ReferenceIdeal.S128x128 .f32) (y17 : Vec Ideal Cert.ReferenceIdeal.S1x128 .f32) (y18 : Vec Ideal Cert.ReferenceIdeal.S128x128 .f32) (y19 : Vec Ideal Cert.ReferenceIdeal.S1x128 .f32) (y20 : Vec Ideal Cert.ReferenceIdeal.S128x128 .f32) (y21 : Vec Ideal Cert.ReferenceIdeal.S1x128 .f32) :
    Cert.ReferenceIdeal.Gen.out0_22 y0 y1 y2 y3 y4 y5 y6 y7 y8 y9 y10 y11 y12 y13 y14 y15 y16 y17 y18 y19 y20 y21 = Cert.ReferenceIdeal.Net.net y0 y1 y2 y3 y4 y5 y6 y7 y8 y9 y10 y11 y12 y13 y14 y15 y16 y17 y18 y19 y20 y21 := by
  rw [Cert.ReferenceIdeal.Net.out_eq, View.canon_unit_zero hz3]
  simp only [View.ld_unit_zero (S := Cert.ReferenceIdeal.S1x1024x128) hz3, View.ld_unit_zero (S := Cert.ReferenceIdeal.S1x1024x1024) hz3, View.ld_unit_zero (S := Cert.ReferenceIdeal.S128x512) hz2, View.ld_unit_zero (S := Cert.ReferenceIdeal.S1x512) hz2, View.ld_unit_zero (S := Cert.ReferenceIdeal.S512x512) hz2, View.ld_unit_zero (S := Cert.ReferenceIdeal.S512x256) hz2, View.ld_unit_zero (S := Cert.ReferenceIdeal.S1x256) hz2, View.ld_unit_zero (S := Cert.ReferenceIdeal.S256x256) hz2, View.ld_unit_zero (S := Cert.ReferenceIdeal.S256x128) hz2, View.ld_unit_zero (S := Cert.ReferenceIdeal.S1x128) hz2, View.ld_unit_zero (S := Cert.ReferenceIdeal.S128x128) hz2]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (hag : Agree m m')
  (c : Dev Cert.KernelIdeal.nD) (t : Fin Cert.KernelIdeal.cfg0.N) (t' : Fin Cert.ReferenceIdeal.cfg0.N) (ht : t.val = t'.val)
include hag ht

/-- At grid point `t` the two bodies leave the same output block. -/
theorem point_eq :
    Cert.KernelIdeal.Gen.out0_23 (Cert.KernelIdeal.Gen.iblk m c 0 t) (Cert.KernelIdeal.Gen.iblk m c 1 t) (Cert.KernelIdeal.Gen.iblk m c 2 t) (Cert.KernelIdeal.Gen.iblk m c 3 t) (Cert.KernelIdeal.Gen.iblk m c 4 t) (Cert.KernelIdeal.Gen.iblk m c 5 t) (Cert.KernelIdeal.Gen.iblk m c 6 t) (Cert.KernelIdeal.Gen.iblk m c 7 t) (Cert.KernelIdeal.Gen.iblk m c 8 t) (Cert.KernelIdeal.Gen.iblk m c 9 t) (Cert.KernelIdeal.Gen.iblk m c 10 t) (Cert.KernelIdeal.Gen.iblk m c 11 t) (Cert.KernelIdeal.Gen.iblk m c 12 t) (Cert.KernelIdeal.Gen.iblk m c 13 t) (Cert.KernelIdeal.Gen.iblk m c 14 t) (Cert.KernelIdeal.Gen.iblk m c 15 t) (Cert.KernelIdeal.Gen.iblk m c 16 t) (Cert.KernelIdeal.Gen.iblk m c 17 t) (Cert.KernelIdeal.Gen.iblk m c 18 t) (Cert.KernelIdeal.Gen.iblk m c 19 t) (Cert.KernelIdeal.Gen.iblk m c 20 t) (Cert.KernelIdeal.Gen.iblk m c 21 t) (Cert.KernelIdeal.Gen.iblk m c 22 t)
      = Cert.ReferenceIdeal.Gen.out0_22 (Cert.ReferenceIdeal.Gen.iblk m' c 0 t') (Cert.ReferenceIdeal.Gen.iblk m' c 1 t') (Cert.ReferenceIdeal.Gen.iblk m' c 2 t') (Cert.ReferenceIdeal.Gen.iblk m' c 3 t') (Cert.ReferenceIdeal.Gen.iblk m' c 4 t') (Cert.ReferenceIdeal.Gen.iblk m' c 5 t') (Cert.ReferenceIdeal.Gen.iblk m' c 6 t') (Cert.ReferenceIdeal.Gen.iblk m' c 7 t') (Cert.ReferenceIdeal.Gen.iblk m' c 8 t') (Cert.ReferenceIdeal.Gen.iblk m' c 9 t') (Cert.ReferenceIdeal.Gen.iblk m' c 10 t') (Cert.ReferenceIdeal.Gen.iblk m' c 11 t') (Cert.ReferenceIdeal.Gen.iblk m' c 12 t') (Cert.ReferenceIdeal.Gen.iblk m' c 13 t') (Cert.ReferenceIdeal.Gen.iblk m' c 14 t') (Cert.ReferenceIdeal.Gen.iblk m' c 15 t') (Cert.ReferenceIdeal.Gen.iblk m' c 16 t') (Cert.ReferenceIdeal.Gen.iblk m' c 17 t') (Cert.ReferenceIdeal.Gen.iblk m' c 18 t') (Cert.ReferenceIdeal.Gen.iblk m' c 19 t') (Cert.ReferenceIdeal.Gen.iblk m' c 20 t') (Cert.ReferenceIdeal.Gen.iblk m' c 21 t') :=
  (outK_net (Cert.KernelIdeal.Gen.iblk m c 0 t) (Cert.KernelIdeal.Gen.iblk m c 1 t) (Cert.KernelIdeal.Gen.iblk m c 2 t) (Cert.KernelIdeal.Gen.iblk m c 3 t) (Cert.KernelIdeal.Gen.iblk m c 4 t) (Cert.KernelIdeal.Gen.iblk m c 5 t) (Cert.KernelIdeal.Gen.iblk m c 6 t) (Cert.KernelIdeal.Gen.iblk m c 7 t) (Cert.KernelIdeal.Gen.iblk m c 8 t) (Cert.KernelIdeal.Gen.iblk m c 9 t) (Cert.KernelIdeal.Gen.iblk m c 10 t) (Cert.KernelIdeal.Gen.iblk m c 11 t) (Cert.KernelIdeal.Gen.iblk m c 12 t) (Cert.KernelIdeal.Gen.iblk m c 13 t) (Cert.KernelIdeal.Gen.iblk m c 14 t) (Cert.KernelIdeal.Gen.iblk m c 15 t) (Cert.KernelIdeal.Gen.iblk m c 16 t) (Cert.KernelIdeal.Gen.iblk m c 17 t) (Cert.KernelIdeal.Gen.iblk m c 18 t) (Cert.KernelIdeal.Gen.iblk m c 19 t) (Cert.KernelIdeal.Gen.iblk m c 20 t) (Cert.KernelIdeal.Gen.iblk m c 21 t) (Cert.KernelIdeal.Gen.iblk m c 22 t)).trans
    ((net_eq (Cert.KernelIdeal.Gen.iblk m c 0 t) (Cert.KernelIdeal.Gen.iblk m c 1 t) (Cert.KernelIdeal.Gen.iblk m c 2 t) (Cert.KernelIdeal.Gen.iblk m c 3 t) (Cert.KernelIdeal.Gen.iblk m c 4 t) (Cert.KernelIdeal.Gen.iblk m c 5 t) (Cert.KernelIdeal.Gen.iblk m c 6 t) (Cert.KernelIdeal.Gen.iblk m c 7 t) (Cert.KernelIdeal.Gen.iblk m c 8 t) (Cert.KernelIdeal.Gen.iblk m c 9 t) (Cert.KernelIdeal.Gen.iblk m c 10 t) (Cert.KernelIdeal.Gen.iblk m c 11 t) (Cert.KernelIdeal.Gen.iblk m c 12 t) (Cert.KernelIdeal.Gen.iblk m c 13 t) (Cert.KernelIdeal.Gen.iblk m c 14 t) (Cert.KernelIdeal.Gen.iblk m c 15 t) (Cert.KernelIdeal.Gen.iblk m c 16 t) (Cert.KernelIdeal.Gen.iblk m c 17 t) (Cert.KernelIdeal.Gen.iblk m c 18 t) (Cert.KernelIdeal.Gen.iblk m c 19 t) (Cert.KernelIdeal.Gen.iblk m c 20 t) (Cert.KernelIdeal.Gen.iblk m c 21 t) (Cert.KernelIdeal.Gen.iblk m c 22 t)
        (Cert.ReferenceIdeal.Gen.iblk m' c 0 t') (Cert.ReferenceIdeal.Gen.iblk m' c 1 t') (Cert.ReferenceIdeal.Gen.iblk m' c 2 t') (Cert.ReferenceIdeal.Gen.iblk m' c 3 t') (Cert.ReferenceIdeal.Gen.iblk m' c 4 t') (Cert.ReferenceIdeal.Gen.iblk m' c 5 t') (Cert.ReferenceIdeal.Gen.iblk m' c 6 t') (Cert.ReferenceIdeal.Gen.iblk m' c 7 t') (Cert.ReferenceIdeal.Gen.iblk m' c 8 t') (Cert.ReferenceIdeal.Gen.iblk m' c 9 t') (Cert.ReferenceIdeal.Gen.iblk m' c 10 t') (Cert.ReferenceIdeal.Gen.iblk m' c 11 t') (Cert.ReferenceIdeal.Gen.iblk m' c 12 t') (Cert.ReferenceIdeal.Gen.iblk m' c 13 t') (Cert.ReferenceIdeal.Gen.iblk m' c 14 t') (Cert.ReferenceIdeal.Gen.iblk m' c 15 t') (Cert.ReferenceIdeal.Gen.iblk m' c 16 t') (Cert.ReferenceIdeal.Gen.iblk m' c 17 t') (Cert.ReferenceIdeal.Gen.iblk m' c 18 t') (Cert.ReferenceIdeal.Gen.iblk m' c 19 t') (Cert.ReferenceIdeal.Gen.iblk m' c 20 t') (Cert.ReferenceIdeal.Gen.iblk m' c 21 t')
        (b0 m m' hag c t t' ht) (b1 m m' hag c t t' ht) (b2 m m' hag c t t' ht) (b3 m m' hag c t t' ht) (b4 m m' hag c t t' ht) (b5 m m' hag c t t' ht) (b6 m m' hag c t t' ht) (b7 m m' hag c t t' ht) (b8 m m' hag c t t' ht) (b9 m m' hag c t t' ht) (b15 m m' hag c t t' ht) (b16 m m' hag c t t' ht) (b17 m m' hag c t t' ht) (b18 m m' hag c t t' ht) (b19 m m' hag c t t' ht) (b20 m m' hag c t t' ht) (b21 m m' hag c t t' ht) (b22 m m' hag c t t' ht)
        (b10_l m m' hag c t t') (b10_r m m' hag c t t') (b11_l m m' hag c t t') (b11_r m m' hag c t t')
        (b12_l m m' hag c t t') (b12_r m m' hag c t t') (b13_l m m' hag c t t') (b13_r m m' hag c t t')
        (b14_l m m' hag c t t') (b14_r m m' hag c t t')).trans
      (outR_net (Cert.ReferenceIdeal.Gen.iblk m' c 0 t') (Cert.ReferenceIdeal.Gen.iblk m' c 1 t') (Cert.ReferenceIdeal.Gen.iblk m' c 2 t') (Cert.ReferenceIdeal.Gen.iblk m' c 3 t') (Cert.ReferenceIdeal.Gen.iblk m' c 4 t') (Cert.ReferenceIdeal.Gen.iblk m' c 5 t') (Cert.ReferenceIdeal.Gen.iblk m' c 6 t') (Cert.ReferenceIdeal.Gen.iblk m' c 7 t') (Cert.ReferenceIdeal.Gen.iblk m' c 8 t') (Cert.ReferenceIdeal.Gen.iblk m' c 9 t') (Cert.ReferenceIdeal.Gen.iblk m' c 10 t') (Cert.ReferenceIdeal.Gen.iblk m' c 11 t') (Cert.ReferenceIdeal.Gen.iblk m' c 12 t') (Cert.ReferenceIdeal.Gen.iblk m' c 13 t') (Cert.ReferenceIdeal.Gen.iblk m' c 14 t') (Cert.ReferenceIdeal.Gen.iblk m' c 15 t') (Cert.ReferenceIdeal.Gen.iblk m' c 16 t') (Cert.ReferenceIdeal.Gen.iblk m' c 17 t') (Cert.ReferenceIdeal.Gen.iblk m' c 18 t') (Cert.ReferenceIdeal.Gen.iblk m' c 19 t') (Cert.ReferenceIdeal.Gen.iblk m' c 20 t') (Cert.ReferenceIdeal.Gen.iblk m' c 21 t')).symm)

omit ht t t' in
/-- The two output arrays after the regions are one array. -/
theorem G_eq : Cert.KernelIdeal.Arr.G m c = Cert.ReferenceIdeal.Arr.G m' c := by
  funext i
  exact congrFun (point_eq m m' hag c (Cert.KernelIdeal.Arr.pt i) (Cert.ReferenceIdeal.Arr.pt i) rfl) (ix3 (0 : Fin 1) (i 1) (i 2))

end Cert.Bridge

end
-- ==== Proof.ArrK.lean ====
/-
  The idealized kernel's run read as a value: after the region the output array holds, block by block, what each grid
  point's body wrote, and the two host lines after the region keep its first three lanes and flatten it.
-/
import proofs.«101555_g2000409237439836_pallaspilot1_247_2_alg».proof.Proof.Gen.KernelIdeal.Frame
import proofs.«101555_g2000409237439836_pallaspilot1_247_2_alg».proof.Proof.LibRun
import proofs.«101555_g2000409237439836_pallaspilot1_247_2_alg».proof.Proof.GK
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Arr

open Cert.KernelIdeal Cert.KernelIdeal.Gen Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The output window's index map, decided over the grid: point `t` writes block `(t, 0, 0)`. -/
theorem idx_out : ∀ t : Fin cfg0.N, win0_23.index t (0 : Fin 3) = t.val ∧ win0_23.index t (1 : Fin 3) = 0
    ∧ win0_23.index t (2 : Fin 3) = 0 :=
  (by decide +kernel : ∀ t : Fin grid0.N, _)

/-- `G` at an index of mesh `t`: the body's result at point `t`, read at the index's vertex and lane. -/
theorem G_at (c : Dev nD) (t : Fin cfg0.N) (i : S16x1024x128.Idx) (y : S1x1024x128.Idx)
    (h0 : (i 0).val = t.val) (h1 : (i 1).val = (y 1).val) (h2 : (i 2).val = (y 2).val) :
    G m c i = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) y := by
  have hp : pt i = t := Fin.ext h0
  subst hp
  have hy : ix3 (0 : Fin 1) (i 1) (i 2) = y := by
    funext a
    apply Fin.ext
    match a with
    | ⟨0, _⟩ => have hy0 : (y 0).val < 1 := (y 0).isLt; show 0 = (y 0).val; omega
    | ⟨1, _⟩ => exact h1
    | ⟨2, _⟩ => exact h2
  exact congrArg (out0_23 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i)) (iblk m c 13 (pt i)) (iblk m c 14 (pt i)) (iblk m c 15 (pt i)) (iblk m c 16 (pt i)) (iblk m c 17 (pt i)) (iblk m c 18 (pt i)) (iblk m c 19 (pt i)) (iblk m c 20 (pt i)) (iblk m c 21 (pt i)) (iblk m c 22 (pt i))) hy

/-- What point `t` writes back is block `t` of `G`. -/
theorem flushed_eq (c : Dev nD) (t : Fin cfg0.N) :
    (dats m 0 c).flushed 23 t = ((cfg0.win 23).blk t).view.read (Elt F) (G m c) := by
  show (cfg0.win 23).cut (grid0.coords t) ((dats m 0 c).after 23 t) = _
  rw [after0_23]
  obtain ⟨e0, e1, e2⟩ := idx_out t
  funext y
  rw [View.read_apply, cast_eq]
  refine (G_at m c t (((cfg0.win 23).blk t).view.emb y) ((cfg0.win 23).xinj (grid0.coords t) y) ?_ ?_ ?_).symm
  · show win0_23.index t (0 : Fin 3) * 1 + 1 * (y 0).val = t.val
    have hy : (y 0).val < 1 := (y 0).isLt
    omega
  · show win0_23.index t (1 : Fin 3) * 1024 + 1 * (y 1).val = (y 1).val
    omega
  · show win0_23.index t (2 : Fin 3) * 128 + 1 * (y 2).val = (y 2).val
    omega

/-- An index of the array is in point `t`'s block iff each coordinate is in the block's range on its axis. -/
theorem mem_blk (t : Fin cfg0.N) (i : S16x1024x128.Idx) :
    i ∈ ((cfg0.win 23).blk t).view.set ↔ ∀ a : Fin 3, win0_23.index t a * S1x1024x128.size a ≤ (i a).val
      ∧ (i a).val < win0_23.index t a * S1x1024x128.size a + S1x1024x128.size a := by
  show i ∈ ((View.whole main_v38).slice (win0_23.rect t)).set ↔ _
  rw [View.set_slice_whole, Rect.mem_set_unit]
  exact Iff.rfl

/-- Every index of the array lies in the block of the point named by its leading coordinate. -/
theorem cover (i : S16x1024x128.Idx) :
    ∃ t : Fin cfg0.N, (cfg0.win 23).flush t = true ∧ i ∈ ((cfg0.win 23).blk t).view.set := by
  refine ⟨pt i, flush0_23 (pt i), ?_⟩
  rw [mem_blk]
  obtain ⟨e0, e1, e2⟩ := idx_out (pt i)
  have hp : (pt i).val = (i 0).val := rfl
  have h1 : (i 1).val < 1024 := (i 1).isLt
  have h2 : (i 2).val < 128 := (i 2).isLt
  intro a
  match a with
  | ⟨0, _⟩ => show win0_23.index (pt i) (0 : Fin 3) * 1 ≤ (i 0).val ∧ (i 0).val < win0_23.index (pt i) (0 : Fin 3) * 1 + 1; omega
  | ⟨1, _⟩ => show win0_23.index (pt i) (1 : Fin 3) * 1024 ≤ (i 1).val ∧ (i 1).val < win0_23.index (pt i) (1 : Fin 3) * 1024 + 1024; omega
  | ⟨2, _⟩ => show win0_23.index (pt i) (2 : Fin 3) * 128 ≤ (i 2).val ∧ (i 2).val < win0_23.index (pt i) (2 : Fin 3) * 128 + 128; omega

/-- The output array after the region is `G`. -/
theorem final (c : Dev nD) : (dats m 0 c).arrAt 23 cfg0.N = G m c :=
  (dats m 0 c).arrAt_eq_of_cover 23 (G m c) (fun t _ => flushed_eq m c t) cover

/-- The result buffer after the two host lines that follow the region. -/
theorem tail_eq (c : Dev nD) :
    Pipeline.afterTail₀ cfgs (dats m) 0 (V0 m) [hostOps1] c main_v40 = tail (G m c) := by
  unfold Pipeline.afterTail₀
  show StableHlo.after hostOps1 _ (Proc.devRef .tc main_v40) = _
  after_results
  rw [(Pipeline.withArrays_arr spec0 launch0.win.arr_inj c _ _ 23).trans (final m c)]
  rfl

/-- Every weakly fair execution terminates with the result buffer at `tail (G m c)`. -/
theorem run : θ_run defs (onTc (τ := τ) (main (F := F))) ⟨m, fun _ => 0, ρ⟩ (fun r => ∀ c : Dev nD,
      r.2.mem ((c.tc : Thread nD τ).loc main_v40) = tail (G m c)) := by
  exact (θ_run defs _ _).mono (fun _ h c => ((h c).2 main_v40 (Pipeline.mem_restRefs_of main_v40 (by decide) (by decide))).trans (tail_eq m c)) (run_main m ρ)

end Cert.KernelIdeal.Arr

end
-- ==== Proof.ArrR.lean ====
/-
  The idealized reference's run read as a value: after the region the output array holds, block by block, what each grid
  point's body wrote, and the two host lines after the region keep its first three lanes and flatten it.
-/
import proofs.«101555_g2000409237439836_pallaspilot1_247_2_alg».proof.Proof.Gen.ReferenceIdeal.Frame
import proofs.«101555_g2000409237439836_pallaspilot1_247_2_alg».proof.Proof.LibRun
import proofs.«101555_g2000409237439836_pallaspilot1_247_2_alg».proof.Proof.GR
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.ReferenceIdeal.Arr

open Cert.ReferenceIdeal Cert.ReferenceIdeal.Gen Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The output window's index map, decided over the grid: point `t` writes block `(t, 0, 0)`. -/
theorem idx_out : ∀ t : Fin cfg0.N, win0_22.index t (0 : Fin 3) = t.val ∧ win0_22.index t (1 : Fin 3) = 0
    ∧ win0_22.index t (2 : Fin 3) = 0 :=
  (by decide +kernel : ∀ t : Fin grid0.N, _)

/-- `G` at an index of mesh `t`: the body's result at point `t`, read at the index's vertex and lane. -/
theorem G_at (c : Dev nD) (t : Fin cfg0.N) (i : S16x1024x128.Idx) (y : S1x1024x128.Idx)
    (h0 : (i 0).val = t.val) (h1 : (i 1).val = (y 1).val) (h2 : (i 2).val = (y 2).val) :
    G m c i = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) y := by
  have hp : pt i = t := Fin.ext h0
  subst hp
  have hy : ix3 (0 : Fin 1) (i 1) (i 2) = y := by
    funext a
    apply Fin.ext
    match a with
    | ⟨0, _⟩ => have hy0 : (y 0).val < 1 := (y 0).isLt; show 0 = (y 0).val; omega
    | ⟨1, _⟩ => exact h1
    | ⟨2, _⟩ => exact h2
  exact congrArg (out0_22 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i)) (iblk m c 13 (pt i)) (iblk m c 14 (pt i)) (iblk m c 15 (pt i)) (iblk m c 16 (pt i)) (iblk m c 17 (pt i)) (iblk m c 18 (pt i)) (iblk m c 19 (pt i)) (iblk m c 20 (pt i)) (iblk m c 21 (pt i))) hy

/-- What point `t` writes back is block `t` of `G`. -/
theorem flushed_eq (c : Dev nD) (t : Fin cfg0.N) :
    (dats m 0 c).flushed 22 t = ((cfg0.win 22).blk t).view.read (Elt F) (G m c) := by
  show (cfg0.win 22).cut (grid0.coords t) ((dats m 0 c).after 22 t) = _
  rw [after0_22]
  obtain ⟨e0, e1, e2⟩ := idx_out t
  funext y
  rw [View.read_apply, cast_eq]
  refine (G_at m c t (((cfg0.win 22).blk t).view.emb y) ((cfg0.win 22).xinj (grid0.coords t) y) ?_ ?_ ?_).symm
  · show win0_22.index t (0 : Fin 3) * 1 + 1 * (y 0).val = t.val
    have hy : (y 0).val < 1 := (y 0).isLt
    omega
  · show win0_22.index t (1 : Fin 3) * 1024 + 1 * (y 1).val = (y 1).val
    omega
  · show win0_22.index t (2 : Fin 3) * 128 + 1 * (y 2).val = (y 2).val
    omega

/-- An index of the array is in point `t`'s block iff each coordinate is in the block's range on its axis. -/
theorem mem_blk (t : Fin cfg0.N) (i : S16x1024x128.Idx) :
    i ∈ ((cfg0.win 22).blk t).view.set ↔ ∀ a : Fin 3, win0_22.index t a * S1x1024x128.size a ≤ (i a).val
      ∧ (i a).val < win0_22.index t a * S1x1024x128.size a + S1x1024x128.size a := by
  show i ∈ ((View.whole main_v1).slice (win0_22.rect t)).set ↔ _
  rw [View.set_slice_whole, Rect.mem_set_unit]
  exact Iff.rfl

/-- Every index of the array lies in the block of the point named by its leading coordinate. -/
theorem cover (i : S16x1024x128.Idx) :
    ∃ t : Fin cfg0.N, (cfg0.win 22).flush t = true ∧ i ∈ ((cfg0.win 22).blk t).view.set := by
  refine ⟨pt i, flush0_22 (pt i), ?_⟩
  rw [mem_blk]
  obtain ⟨e0, e1, e2⟩ := idx_out (pt i)
  have hp : (pt i).val = (i 0).val := rfl
  have h1 : (i 1).val < 1024 := (i 1).isLt
  have h2 : (i 2).val < 128 := (i 2).isLt
  intro a
  match a with
  | ⟨0, _⟩ => show win0_22.index (pt i) (0 : Fin 3) * 1 ≤ (i 0).val ∧ (i 0).val < win0_22.index (pt i) (0 : Fin 3) * 1 + 1; omega
  | ⟨1, _⟩ => show win0_22.index (pt i) (1 : Fin 3) * 1024 ≤ (i 1).val ∧ (i 1).val < win0_22.index (pt i) (1 : Fin 3) * 1024 + 1024; omega
  | ⟨2, _⟩ => show win0_22.index (pt i) (2 : Fin 3) * 128 ≤ (i 2).val ∧ (i 2).val < win0_22.index (pt i) (2 : Fin 3) * 128 + 128; omega

/-- The output array after the region is `G`. -/
theorem final (c : Dev nD) : (dats m 0 c).arrAt 22 cfg0.N = G m c :=
  (dats m 0 c).arrAt_eq_of_cover 22 (G m c) (fun t _ => flushed_eq m c t) cover

/-- The result buffer after the two host lines that follow the region. -/
theorem tail_eq (c : Dev nD) :
    Pipeline.afterTail₀ cfgs (dats m) 0 (V0 m) [hostOps1] c main_v3 = tail (G m c) := by
  unfold Pipeline.afterTail₀
  show StableHlo.after hostOps1 _ (Proc.devRef .tc main_v3) = _
  after_results
  rw [(Pipeline.withArrays_arr spec0 launch0.win.arr_inj c _ _ 22).trans (final m c)]
  rfl

/-- Every weakly fair execution terminates with the result buffer at `tail (G m c)`. -/
theorem run : θ_run defs (onTc (τ := τ) (main (F := F))) ⟨m, fun _ => 0, ρ⟩ (fun r => ∀ c : Dev nD,
      r.2.mem ((c.tc : Thread nD τ).loc main_v3) = tail (G m c)) := by
  exact (θ_run defs _ _).mono (fun _ h c => ((h c).2 main_v3 (Pipeline.mem_restRefs_of main_v3 (by decide) (by decide))).trans (tail_eq m c)) (run_main m ρ)

end Cert.ReferenceIdeal.Arr

end
-- ==== Proof.lean ====
/-
  The certificate: frames, preservation and the value claim of a graph network evaluated per mesh.

  Both programs run ONE pipelined region over the sixteen meshes; at each mesh the body computes four dense layers
  with leaky rectifiers, ten graph convolutions `relu (h·W₀ + b₀ + A · (h·W₁ + b₁))` and four more dense layers, and the
  host lines after the region keep the first three lanes of the result. The kernel differs from the reference in two
  ways. It stores matrices and activations in a narrower float format, which at the ideal values is the identity.
  And it evaluates each convolution's two products as ONE product with the matrix `[W₀ | W₁]` built on the host,
  then splits the result into its halves; since a column of a product depends only on that column of the right
  factor, the halves are the two separate products, entry by entry. So at every mesh the two bodies leave the same
  block, the two output arrays are one array, and the results agree.

  The three frames are the generated ones. The idealization ledger is empty, so preservation is trivial.
-/
import proofs.«101555_g2000409237439836_pallaspilot1_247_2_alg».proof.Defs
import proofs.«101555_g2000409237439836_pallaspilot1_247_2_alg».proof.Proof.Gen.Kernel
import proofs.«101555_g2000409237439836_pallaspilot1_247_2_alg».proof.Proof.Gen.Kernel.Frame
import proofs.«101555_g2000409237439836_pallaspilot1_247_2_alg».proof.Proof.Gen.KernelIdeal
import proofs.«101555_g2000409237439836_pallaspilot1_247_2_alg».proof.Proof.Gen.KernelIdeal.Frame
import proofs.«101555_g2000409237439836_pallaspilot1_247_2_alg».proof.Proof.Gen.ReferenceIdeal
import proofs.«101555_g2000409237439836_pallaspilot1_247_2_alg».proof.Proof.Gen.ReferenceIdeal.Frame
import proofs.«101555_g2000409237439836_pallaspilot1_247_2_alg».proof.Proof.Gen.Pre_finite_inputs
import proofs.«101555_g2000409237439836_pallaspilot1_247_2_alg».proof.Proof.LibRun
import proofs.«101555_g2000409237439836_pallaspilot1_247_2_alg».proof.Proof.Point
import proofs.«101555_g2000409237439836_pallaspilot1_247_2_alg».proof.Proof.ArrK
import proofs.«101555_g2000409237439836_pallaspilot1_247_2_alg».proof.Proof.ArrR

noncomputable section

namespace Cert.Proof

open Idealize.ShloMosaic Idealize.SL.Sem Cert.Lib.Run

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the idealized reference. -/
theorem frame_ri : Cert.frame_ReferenceIdeal := fun m ρ _ => Cert.ReferenceIdeal.Gen.frame m ρ

/-- From memories that agree on the arguments both idealized programs end with the same result: the first three
    lanes of the one output array, flattened over (mesh, vertex). -/
theorem algebraic : Cert.algebraic_KernelIdeal_ReferenceIdeal := by
  intro m ρ m' ρ' _ hagree
  refine ⟨fun c => Cert.KernelIdeal.Arr.tail (Cert.KernelIdeal.Arr.G m c), ?_, ?_⟩
  · exact (θ_run Cert.KernelIdeal.defs _ _).mono (fun _ h c => ⟨h.1 c, h.2 c⟩)
      (θ_run_and _ _ _ (Cert.KernelIdeal.Arr.run (F := Ideal) m ρ) (Cert.KernelIdeal.Gen.frame (F := Ideal) m ρ))
  · refine (θ_run Cert.ReferenceIdeal.defs _ _).mono (fun _ h c => ⟨(h.1 c).trans ?_, h.2 c⟩)
      (θ_run_and _ _ _ (Cert.ReferenceIdeal.Arr.run (F := Ideal) m' ρ') (Cert.ReferenceIdeal.Gen.frame (F := Ideal) m' ρ'))
    rw [← Cert.Bridge.G_eq m m' hagree c]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
